-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S2x1000x1024 : Shape := ⟨3, ![2, 1000, 1024]⟩
abbrev S1000x1024 : Shape := ⟨2, ![1000, 1024]⟩
abbrev S1000 : Shape := ⟨1, ![1000]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S2x1000x1024 : S_.BroadcastsInDim S2x1000x1024 (![] : Fin 0 → Fin S2x1000x1024.rank)
  reducesTo_S2x1000x1024_S_d0_1_2 : S2x1000x1024.ReducesTo [0, 1, 2] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg7 : FVec F S1000 .f32) (main_arg8 : IVec S65536 32) (main_v33 : IVec S_ 1) : IVec S_ 1 :=
  let main_v34 : FVec F S1000 .f32 := Host.absf main_arg7
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_c_14 : IVec S_ 32 := constantI S_ 32 0#32
  let main_v39 : IVec S65536 32 := broadcastInDim S65536 ![] bcast_S_S65536 main_c_14
  let main_v40 : IVec S65536 1 := cmpi .sge main_arg8 main_v39
  let main_c_15 : IVec S_ 32 := constantI S_ 32 1000#32
  let main_v41 : IVec S65536 32 := broadcastInDim S65536 ![] bcast_S_S65536 main_c_15
  let main_v42 : IVec S65536 1 := cmpi .slt main_arg8 main_v41
  let main_v43 : IVec S65536 1 := andi main_v40 main_v42
  let main_c_16 : IVec S_ 1 := constantI S_ 1 1#1
  let main_v44 : IVec S_ 1 := (fun x v => Host.reduce IntOp.andi x v reducesTo_S65536_S_d0 h_S_) main_v43 main_c_16
  let main_v45 : IVec S_ 1 := andi main_v38 main_v44
  main_v45

def fn_part1 {F : FTy → Type} [FloatOps F] (main_arg4 : FVec F S1000 .f32) (main_arg5 : FVec F S1000x1024 .f32) (main_arg6 : FVec F S1000x1024 .f32) (main_arg7 : FVec F S1000 .f32) (main_arg8 : IVec S65536 32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000x1024 .f32 := Host.absf main_arg5
  let main_cst_8 : FVec F S_ .f32 := constant S_ .f32 0x7F800000#32
  let main_v25 : FVec F S1000x1024 .f32 := broadcastInDim S1000x1024 ![] bcast_S_S1000x1024 main_cst_8
  let main_v26 : IVec S1000x1024 1 := cmpf .olt main_v24 main_v25
  let main_c_9 : IVec S_ 1 := constantI S_ 1 1#1
  let main_v27 : IVec S_ 1 := (fun x v => Host.reduce IntOp.andi x v reducesTo_S1000x1024_S_d0_1 h_S_) main_v26 main_c_9
  let main_v28 : IVec S_ 1 := andi main_v23 main_v27
  let main_v29 : FVec F S1000x1024 .f32 := Host.absf main_arg6
  let main_cst_10 : FVec F S_ .f32 := constant S_ .f32 0x7F800000#32
  let main_v30 : FVec F S1000x1024 .f32 := broadcastInDim S1000x1024 ![] bcast_S_S1000x1024 main_cst_10
  let main_v31 : IVec S1000x1024 1 := cmpf .olt main_v29 main_v30
  let main_c_11 : IVec S_ 1 := constantI S_ 1 1#1
  let main_v32 : IVec S_ 1 := (fun x v => Host.reduce IntOp.andi x v reducesTo_S1000x1024_S_d0_1 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S2x1000x1024 .f32) (main_arg2 : FVec F S1000x1024 .f32) (main_arg3 : FVec F S1000 .f32) (main_arg4 : FVec F S1000 .f32) (main_arg5 : FVec F S1000x1024 .f32) (main_arg6 : FVec F S1000x1024 .f32) (main_arg7 : FVec F S1000 .f32) (main_arg8 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S2x1000x1024 .f32 := Host.absf main_arg1
  let main_cst_0 : FVec F S_ .f32 := constant S_ .f32 0x7F800000#32
  let main_v5 : FVec F S2x1000x1024 .f32 := broadcastInDim S2x1000x1024 ![] bcast_S_S2x1000x1024 main_cst_0
  let main_v6 : IVec S2x1000x1024 1 := cmpf .olt main_v4 main_v5
  let main_c_1 : IVec S_ 1 := constantI S_ 1 1#1
  let main_v7 : IVec S_ 1 := (fun x v => Host.reduce IntOp.andi x v reducesTo_S2x1000x1024_S_d0_1_2 h_S_) main_v6 main_c_1
  let main_v8 : IVec S_ 1 := andi main_v3 main_v7
  let main_v9 : FVec F S1000x1024 .f32 := Host.absf main_arg2
  let main_cst_2 : FVec F S_ .f32 := constant S_ .f32 0x7F800000#32
  let main_v10 : FVec F S1000x1024 .f32 := broadcastInDim S1000x1024 ![] bcast_S_S1000x1024 main_cst_2
  let main_v11 : IVec S1000x1024 1 := cmpf .olt main_v9 main_v10
  let main_c_3 : IVec S_ 1 := constantI S_ 1 1#1
  let main_v12 : IVec S_ 1 := (fun x v => Host.reduce IntOp.andi x v reducesTo_S1000x1024_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S2x1000x1024 : Shape := ⟨3, ![2, 1000, 1024]⟩
abbrev S1000x1024 : Shape := ⟨2, ![1000, 1024]⟩
abbrev S1000 : Shape := ⟨1, ![1000]⟩
abbrev S65536 : Shape := ⟨1, ![65536]⟩
abbrev S1x65536 : Shape := ⟨2, ![1, 65536]⟩
abbrev S65536x1 : Shape := ⟨2, ![65536, 1]⟩
abbrev S1x1000 : Shape := ⟨2, ![1, 1000]⟩
abbrev S1024x1000 : Shape := ⟨2, ![1024, 1000]⟩
abbrev S2x1x1 : Shape := ⟨3, ![2, 1, 1]⟩
abbrev S256x1024 : Shape := ⟨2, ![256, 1024]⟩
abbrev S1x256 : Shape := ⟨2, ![1, 256]⟩
abbrev S256x1 : Shape := ⟨2, ![256, 1]⟩
abbrev S1x1000x1024 : Shape := ⟨3, ![1, 1000, 1024]⟩
abbrev S1x1x1 : Shape := ⟨3, ![1, 1, 1]⟩
abbrev S1000x1 : Shape := ⟨2, ![1000, 1]⟩
abbrev S1000x256 : Shape := ⟨2, ![1000, 256]⟩
abbrev S256x1000 : Shape := ⟨2, ![256, 1000]⟩
abbrev S256 : Shape := ⟨1, ![256]⟩
abbrev S1 : Shape := ⟨1, ![1]⟩
abbrev S1x1 : Shape := ⟨2, ![1, 1]⟩
abbrev S_ : Shape := ⟨0, ![]⟩
abbrev S2000x1024 : Shape := ⟨2, ![2000, 1024]⟩
abbrev S2x1000 : Shape := ⟨2, ![2, 1000]⟩
abbrev S2000 : Shape := ⟨1, ![2000]⟩
abbrev S2000x1 : Shape := ⟨2, ![2000, 1]⟩
abbrev S1000x1000 : Shape := ⟨2, ![1000, 1000]⟩

abbrev nBuf : Space → Nat
  | .hbm => 101
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S2x1000x1024, .f32⟩
  | .hbm, ⟨2, _⟩ => ⟨S1000x1024, .f32⟩
  | .hbm, ⟨3, _⟩ => ⟨S1000, .f32⟩
  | .hbm, ⟨4, _⟩ => ⟨S1000, .f32⟩
  | .hbm, ⟨5, _⟩ => ⟨S1000x1024, .f32⟩
  | .hbm, ⟨6, _⟩ => ⟨S1000x1024, .f32⟩
  | .hbm, ⟨7, _⟩ => ⟨S1000, .f32⟩
  | .hbm, ⟨8, _⟩ => ⟨S65536, .i32⟩
  | .hbm, ⟨9, _⟩ => ⟨S1x65536, .i32⟩
  | .hbm, ⟨10, _⟩ => ⟨S65536x1, .i32⟩
  | .hbm, ⟨11, _⟩ => ⟨S1000, .f32⟩
  | .hbm, ⟨12, _⟩ => ⟨S1x1000, .f32⟩
  | .hbm, ⟨13, _⟩ => ⟨S1024x1000, .f32⟩
  | .hbm, ⟨14, _⟩ => ⟨S1024x1000, .bf16⟩
  | .hbm, ⟨15, _⟩ => ⟨S2x1000x1024, .f32⟩
  | .hbm, ⟨16, _⟩ => ⟨S2x1000x1024, .f32⟩
  | .hbm, ⟨17, _⟩ => ⟨S2x1x1, .f32⟩
  | .hbm, ⟨18, _⟩ => ⟨S_, .f32⟩
  | .hbm, ⟨19, _⟩ => ⟨S1000x1024, .f32⟩
  | .hbm, ⟨20, _⟩ => ⟨S_, .f32⟩
  | .hbm, ⟨21, _⟩ => ⟨S1000x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S65536, .f32⟩
  | .hbm, ⟨26, _⟩ => ⟨S_, .f32⟩
  | .hbm, ⟨27, _⟩ => ⟨S1000, .f32⟩
  | .hbm, ⟨28, _⟩ => ⟨S65536x1, .i32⟩
  | .hbm, ⟨29, _⟩ => ⟨S1000, .f32⟩
  | .hbm, ⟨30, _⟩ => ⟨S_, .f32⟩
  | .hbm, ⟨31, _⟩ => ⟨S1000, .f32⟩
  | .hbm, ⟨32, _⟩ => ⟨S1000, .i1⟩
  | .hbm, ⟨33, _⟩ => ⟨S_, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S1000x1, .f32⟩
  | .hbm, ⟨38, _⟩ => ⟨S1000x1024, .f32⟩
  | .hbm, ⟨39, _⟩ => ⟨S1000x1024, .f32⟩
  | .hbm, ⟨40, _⟩ => ⟨S1000x1, .f32⟩
  | .hbm, ⟨41, _⟩ => ⟨S1000x1024, .f32⟩
  | .hbm, ⟨42, _⟩ => ⟨S1000x1024, .f32⟩
  | .hbm, ⟨43, _⟩ => ⟨S1000x1024, .f32⟩
  | .hbm, ⟨44, _⟩ => ⟨S1000x1024, .f32⟩
  | .hbm, ⟨45, _⟩ => ⟨S_, .f32⟩
  | .hbm, ⟨46, _⟩ => ⟨S1000x1024, .f32⟩
  | .hbm, ⟨47, _⟩ => ⟨S1000x1024, .i1⟩
  | .hbm, ⟨48, _⟩ => ⟨S_, .f32⟩
  | .hbm, ⟨49, _⟩ => ⟨S_, .f32⟩
  | .hbm, ⟨50, _⟩ => ⟨S1000x1024, .f32⟩
  | .hbm, ⟨51, _⟩ => ⟨S1000x1024, .f32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S1000, .f32⟩
  | .hbm, ⟨57, _⟩ => ⟨S1000x1, .f32⟩
  | .hbm, ⟨58, _⟩ => ⟨S_, .f32⟩
  | .hbm, ⟨59, _⟩ => ⟨S1000x1, .f32⟩
  | .hbm, ⟨60, _⟩ => ⟨S1000x1, .f32⟩
  | .hbm, ⟨61, _⟩ => ⟨S1000x1, .f32⟩
  | .hbm, ⟨62, _⟩ => ⟨S1000x1024, .f32⟩
  | .hbm, ⟨63, _⟩ => ⟨S1000x1024, .f32⟩
  | .hbm, ⟨64, _⟩ => ⟨S1000x1024, .f32⟩
  | .hbm, ⟨65, _⟩ => ⟨S1000x1024, .f32⟩
  | .hbm, ⟨66, _⟩ => ⟨S_, .f32⟩
  | .hbm, ⟨67, _⟩ => ⟨S1000x1, .f32⟩
  | .hbm, ⟨68, _⟩ => ⟨S1000x1, .f32⟩
  | .hbm, ⟨69, _⟩ => ⟨S1000x1024, .f32⟩
  | .hbm, ⟨70, _⟩ => ⟨S1000x1024, .f32⟩
  | .hbm, ⟨71, _⟩ => ⟨S1000x1024, .f32⟩
  | .hbm, ⟨72, _⟩ => ⟨S1000x1024, .f32⟩
  | .hbm, ⟨73, _⟩ => ⟨S1000x1024, .f32⟩
  | .hbm, ⟨74, _⟩ => ⟨S1000x1024, .f32⟩
  | .hbm, ⟨75, _⟩ => ⟨S_, .f32⟩
  | .hbm, ⟨76, _⟩ => ⟨S1000x1, .f32⟩
  | .hbm, ⟨77, _⟩ => ⟨S1000x1, .f32⟩
  | .hbm, ⟨78, _⟩ => ⟨S1000x1024, .f32⟩
  | .hbm, ⟨79, _⟩ => ⟨S1000x1024, .f32⟩
  | .hbm, ⟨80, _⟩ => ⟨S1000x1024, .f32⟩
  | .hbm, ⟨81, _⟩ => ⟨S1000x1024, .f32⟩
  | .hbm, ⟨82, _⟩ => ⟨S1000x1024, .f32⟩
  | .hbm, ⟨83, _⟩ => ⟨S1x1000x1024, .f32⟩
  | .hbm, ⟨84, _⟩ => ⟨S1x1000x1024, .f32⟩
  | .hbm, ⟨85, _⟩ => ⟨S2x1000x1024, .f32⟩
  | .hbm, ⟨86, _⟩ => ⟨S2x1000x1024, .f32⟩
  | .hbm, ⟨87, _⟩ => ⟨S2x1000x1024, .f32⟩
  | .hbm, ⟨88, _⟩ => ⟨S2x1000x1024, .f32⟩
  | .hbm, ⟨89, _⟩ => ⟨S2000x1024, .f32⟩
  | .hbm, ⟨90, _⟩ => ⟨S1000, .i32⟩
  | .hbm, ⟨91, _⟩ => ⟨S1x1000, .i32⟩
  | .hbm, ⟨92, _⟩ => ⟨S2x1000, .i32⟩
  | .hbm, ⟨93, _⟩ => ⟨S2000, .i32⟩
  | .hbm, ⟨94, _⟩ => ⟨S2000x1, .i32⟩
  | .hbm, ⟨95, _⟩ => ⟨S2x1x1, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1x256, .i32⟩
  | .local _ .vmem, ⟨3, _⟩ => ⟨S1x256, .i32⟩
  | .local _ .vmem, ⟨4, _⟩ => ⟨S256x1, .i32⟩
  | .local _ .vmem, ⟨5, _⟩ => ⟨S256x1, .i32⟩
  | .local _ .vmem, ⟨6, _⟩ => ⟨S1024x1000, .bf16⟩
  | .local _ .vmem, ⟨7, _⟩ => ⟨S1x1000, .f32⟩
  | .local _ .vmem, ⟨8, _⟩ => ⟨S1x1000x1024, .f32⟩
  | .local _ .vmem, ⟨9, _⟩ => ⟨S1x1000x1024, .f32⟩
  | .local _ .vmem, ⟨10, _⟩ => ⟨S1x1000x1024, .f32⟩
  | .local _ .vmem, ⟨11, _⟩ => ⟨S1x1000x1024, .f32⟩
  | .local _ .vmem, ⟨12, _⟩ => ⟨S1x1x1, .f32⟩
  | .local _ .vmem, ⟨13, _⟩ => ⟨S1x1x1, .f32⟩
  | .local _ .vmem, ⟨14, _⟩ => ⟨S1000x1024, .f32⟩
  | .local _ .vmem, ⟨15, _⟩ => ⟨S1000x1024, .f32⟩
  | .local _ .vmem, ⟨16, _⟩ => ⟨S1000x1, .i32⟩
  | .local _ .vmem, ⟨17, _⟩ => ⟨S1000x1, .i32⟩
  | .local _ .vmem, ⟨18, _⟩ => ⟨S1024x1000, .bf16⟩
  | .local _ .vmem, ⟨19, _⟩ => ⟨S1x1000, .f32⟩
  | .local _ .vmem, ⟨20, _⟩ => ⟨S1x1x1, .f32⟩
  | .local _ .vmem, ⟨21, _⟩ => ⟨S1x1x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v27 : Ref sig .tc := ⟨.hbm, 51, rfl⟩
abbrev main_v28 : Ref sig .tc := ⟨.hbm, 52, rfl⟩
abbrev main_cst_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1000x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S65536_S1x65536 : S65536.ShapeCasts S1x65536
  shapeCasts_S65536_S65536x1 : S65536.ShapeCasts S65536x1
  shapeCasts_S1000_S1x1000 : S1000.ShapeCasts S1x1000
  transposes_S1000x1024_S1024x1000_1_0 : S1000x1024.Transposes [1, 0] S1024x1000
  bitsLt_bf16_f32 : FTy.bits .bf16 < FTy.bits .f32
  inb_S1x1000x1024_S1x1000x1024_0_0_0 : ∀ a, (![0, 0, 0] : Fin 3 → Nat) a + S1x1000x1024.size a ≤ S1x1000x1024.size a
  h_S1x1000x1024 : 0 < S1x1000x1024.numel
  inb_S1x1x1_S1x1x1_0_0_0 : ∀ a, (![0, 0, 0] : Fin 3 → Nat) a + S1x1x1.size a ≤ S1x1x1.size a
  h_S1x1x1 : 0 < S1x1x1.numel
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S1000x1_d0_w32 : S1000x1.Iotas .tc 32 [0]
  broadcasts_S1000x1_S1000x256 : S1000x1.Broadcasts S1000x256
  broadcasts_S1x256_S1000x256 : S1x256.Broadcasts S1000x256
  natLt_1_32 : 1 < 32
  shapeCasts_S1x1000x1024_S1x1000x1024 : S1x1000x1024.ShapeCasts S1x1000x1024
  shapeCasts_S1000x1024_S1x1000x1024 : S1000x1024.ShapeCasts S1x1000x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  reduces_S256x1000_S256 : S256x1000.Reduces [1] S256
  shapeCasts_S256_S256x1 : S256.ShapeCasts S256x1
  broadcasts_S256x1_S256x1000 : S256x1.Broadcasts S256x1000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x1000_d1_w32 : S1x1000.Iotas .tc 32 [1]
  shapeCasts_S1x1x1_S1x1x1 : S1x1x1.ShapeCasts S1x1x1
  reduces_S256x1_S1 : S256x1.Reduces [0] S1
  shapeCasts_S1_S1x1 : S1.ShapeCasts S1x1
  shapeCasts_S1x1_S1x1x1 : S1x1.ShapeCasts S1x1x1
  reducesTo_S2x1000x1024_S1000x1024_d0 : S2x1000x1024.ReducesTo [0] S1000x1024
  h_S_ : 0 < S_.numel
  reducesTo_S2x1x1_S_d0_1_2 : S2x1x1.ReducesTo [0, 1, 2] S_
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  bcast_S_S1000x1024 : S_.BroadcastsInDim S1000x1024 (![] : Fin 0 → Fin S1000x1024.rank)
  bcast_S_S1000x1 : S_.BroadcastsInDim S1000x1 (![] : Fin 0 → Fin S1000x1.rank)
  bcast_S1000x1024_S1x1000x1024_1_2 : S1000x1024.BroadcastsInDim S1x1000x1024 (![1, 2] : Fin 2 → Fin S1x1000x1024.rank)
  bcast_S1x1000x1024_S2x1000x1024_0_1_2 : S1x1000x1024.BroadcastsInDim S2x1000x1024 (![0, 1, 2] : Fin 3 → Fin S2x1000x1024.rank)
  shapeCasts_S2x1000x1024_S2000x1024 : S2x1000x1024.ShapeCasts S2000x1024
  bcast_S1x1000_S2x1000_0_1 : S1x1000.BroadcastsInDim S2x1000 (![0, 1] : Fin 2 → Fin S2x1000.rank)
  shapeCasts_S2x1000_S2000 : S2x1000.ShapeCasts S2000
  shapeCasts_S2000_S2000x1 : S2000.ShapeCasts S2000x1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  broadcasts_S1x1000_S1000x1000 : S1x1000.Broadcasts S1000x1000
  reduces_S1000x1000_S1000 : S1000x1000.Reduces [1] S1000
  shapeCasts_S1000_S1000x1 : S1000.ShapeCasts S1000x1
  broadcasts_S1000x1_S1000x1000 : S1000x1.Broadcasts S1000x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  reduces_S1000x1_S1 : S1000x1.Reduces [0] S1
  dot_S1000x256_S256x1024_S1000x1024_1_0_0_1_n_n_wf : DotDims.WF S1000x256 S256x1024 S1000x1024 [1] [0] [0] [1] [] []
  dot_S256x1024_S1024x1000_S256x1000_1_0_0_1_n_n_wf : DotDims.WF S256x1024 S1024x1000 S256x1000 [1] [0] [0] [1] [] []
  scatter_S1000_S65536x1_S65536_n_0_0_1_wf : ScatterDims.WF S1000 S65536x1 S65536 [] [0] [0] 1
  dot_S1000x1024_S1024x1000_S1000x1000_1_0_0_1_n_n_wf : DotDims.WF S1000x1024 S1024x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x65536.size a
  hwx0_1 : ∀ i : grid0.Coords, EltTy.bits .i32 = 32 ∨ (Rect.block (s := S1x65536) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S65536x1.size a
  hwx0_2 : ∀ i : grid0.Coords, EltTy.bits .i32 = 32 ∨ (Rect.block (s := S65536x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S1024x1000.size a
  hwx0_3 : ∀ i : grid0.Coords, EltTy.bits .bf16 = 32 ∨ (Rect.block (s := S1024x1000) S1024x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1000x1024.size a ≤ S2x1000x1024.size a
  hwx0_5 : ∀ i : grid0.Coords, EltTy.bits .f32 = 32 ∨ (Rect.block (s := S2x1000x1024) S1x1000x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1000x1024.size a ≤ S2x1000x1024.size a
  hwx0_6 : ∀ i : grid0.Coords, EltTy.bits .f32 = 32 ∨ (Rect.block (s := S2x1000x1024) S1x1000x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S2000x1024.size a
  hwx1_0 : ∀ i : grid1.Coords, EltTy.bits .f32 = 32 ∨ (Rect.block (s := S2000x1024) S1000x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S2000x1.size a
  hwx1_1 : ∀ i : grid1.Coords, EltTy.bits .i32 = 32 ∨ (Rect.block (s := S2000x1) S1000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1000.size a ≤ S1024x1000.size a
  hwx1_2 : ∀ i : grid1.Coords, EltTy.bits .bf16 = 32 ∨ (Rect.block (s := S1024x1000) S1024x1000.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1000.size a ≤ S1x1000.size a
  hwx1_3 : ∀ i : grid1.Coords, EltTy.bits .f32 = 32 ∨ (Rect.block (s := S1x1000) S1x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

def dot_S1000x256_S256x1024_S1000x1024_1_0_0_1_n_n : DotDims S1000x256 S256x1024 S1000x1024 where
  lhsContracting := [1]
  rhsContracting := [0]
  lhsNonContracting := [0]
  rhsNonContracting := [1]
  lhsBatch := []
  rhsBatch := []
  wf := dot_S1000x256_S256x1024_S1000x1024_1_0_0_1_n_n_wf
def dot_S256x1024_S1024x1000_S256x1000_1_0_0_1_n_n : DotDims S256x1024 S1024x1000 S256x1000 where
  lhsContracting := [1]
  rhsContracting := [0]
  lhsNonContracting := [0]
  rhsNonContracting := [1]
  lhsBatch := []
  rhsBatch := []
  wf := dot_S256x1024_S1024x1000_S256x1000_1_0_0_1_n_n_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def dot_S1000x1024_S1024x1000_S1000x1000_1_0_0_1_n_n : DotDims S1000x1024 S1024x1000 S1000x1000 where
  lhsContracting := [1]
  rhsContracting := [0]
  lhsNonContracting := [0]
  rhsNonContracting := [1]
  lhsBatch := []
  rhsBatch := []
  wf := dot_S1000x1024_S1024x1000_S1000x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1000x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1000x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v61) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S2x1000x1024 : Shape := ⟨3, ![2, 1000, 1024]⟩
abbrev S1000x1024 : Shape := ⟨2, ![1000, 1024]⟩
abbrev S1000 : Shape := ⟨1, ![1000]⟩
abbrev S65536 : Shape := ⟨1, ![65536]⟩
abbrev S_ : Shape := ⟨0, ![]⟩
abbrev S65536x1 : Shape := ⟨2, ![65536, 1]⟩
abbrev S1000x1 : Shape := ⟨2, ![1000, 1]⟩
abbrev S1x1000x1024 : Shape := ⟨3, ![1, 1000, 1024]⟩
abbrev S2000x1024 : Shape := ⟨2, ![2000, 1024]⟩
abbrev S1x1000 : Shape := ⟨2, ![1, 1000]⟩
abbrev S2x1000 : Shape := ⟨2, ![2, 1000]⟩
abbrev S2000 : Shape := ⟨1, ![2000]⟩
abbrev S67536x1024 : Shape := ⟨2, ![67536, 1024]⟩
abbrev S67536 : Shape := ⟨1, ![67536]⟩
abbrev S1024x1000 : Shape := ⟨2, ![1024, 1000]⟩
abbrev S67536x1000 : Shape := ⟨2, ![67536, 1000]⟩
abbrev S67536x1 : Shape := ⟨2, ![67536, 1]⟩
abbrev S67536x1x1 : Shape := ⟨3, ![67536, 1, 1]⟩
abbrev S1 : Shape := ⟨1, ![1]⟩
abbrev S1x1x1 : Shape := ⟨3, ![1, 1, 1]⟩

abbrev nBuf : Space → Nat
  | .hbm => 150
  | .vmem => 0
  | .smem => 0
  | _ => 0

abbrev hbmTy0_0 (i : Nat) : BufTy := match i % 128 with
  | 0 => ⟨S65536x1024, .f32⟩
  | 1 => ⟨S2x1000x1024, .f32⟩
  | 2 => ⟨S1000x1024, .f32⟩
  | 3 => ⟨S1000, .f32⟩
  | 4 => ⟨S1000, .f32⟩
  | 5 => ⟨S1000x1024, .f32⟩
  | 6 => ⟨S1000x1024, .f32⟩
  | 7 => ⟨S1000, .f32⟩
  | 8 => ⟨S65536, .i32⟩
  | 9 => ⟨S_, .f32⟩
  | 10 => ⟨S65536, .f32⟩
  | 11 => ⟨S_, .f32⟩
  | 12 => ⟨S1000, .f32⟩
  | 13 => ⟨S65536x1, .i32⟩
  | 14 => ⟨S1000, .f32⟩
  | 15 => ⟨S_, .f32⟩
  | 16 => ⟨S1000x1024, .f32⟩
  | 17 => ⟨S65536x1, .i32⟩
  | 18 => ⟨S1000x1024, .f32⟩
  | 19 => ⟨S_, .f32⟩
  | 20 => ⟨S1000, .f32⟩
  | 21 => ⟨S1000, .i1⟩
  | 22 => ⟨S_, .f32⟩
  | 23 => ⟨S_, .f32⟩
  | 24 => ⟨S1000, .f32⟩
  | 25 => ⟨S1000, .f32⟩
  | 26 => ⟨S1000x1, .f32⟩
  | 27 => ⟨S1000x1024, .f32⟩
  | 28 => ⟨S1000x1024, .f32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536x1024, .f32⟩
  | 38 => ⟨S65536x1024, .f32⟩
  | 39 => ⟨S65536x1024, .f32⟩
  | 40 => ⟨S_, .f32⟩
  | 41 => ⟨S1000x1024, .f32⟩
  | 42 => ⟨S65536x1, .i32⟩
  | 43 => ⟨S1000x1024, .f32⟩
  | 44 => ⟨S1000x1, .f32⟩
  | 45 => ⟨S1000x1024, .f32⟩
  | 46 => ⟨S1000x1024, .f32⟩
  | 47 => ⟨S_, .f32⟩
  | 48 => ⟨S1000x1024, .f32⟩
  | 49 => ⟨S1000x1024, .i1⟩
  | 50 => ⟨S_, .f32⟩
  | 51 => ⟨S_, .f32⟩
  | 52 => ⟨S1000x1024, .f32⟩
  | 53 => ⟨S1000x1024, .f32⟩
  | 54 => ⟨S1000, .f32⟩
  | 55 => ⟨S_, .f32⟩
  | 56 => ⟨S1000, .f32⟩
  | 57 => ⟨S1000, .f32⟩
  | 58 => ⟨S1000, .f32⟩
  | 59 => ⟨S1000x1, .f32⟩
  | 60 => ⟨S_, .f32⟩
  | 61 => ⟨S1000x1, .f32⟩
  | 62 => ⟨S1000x1, .f32⟩
  | 63 => ⟨S1000x1, .f32⟩
  | 64 => ⟨S1000x1024, .f32⟩
  | 65 => ⟨S1000x1024, .f32⟩
  | 66 => ⟨S1000x1024, .f32⟩
  | 67 => ⟨S1000x1024, .f32⟩
  | 68 => ⟨S_, .f32⟩
  | 69 => ⟨S1000x1, .f32⟩
  | 70 => ⟨S1000x1, .f32⟩
  | 71 => ⟨S1000x1024, .f32⟩
  | 72 => ⟨S1000x1024, .f32⟩
  | 73 => ⟨S1000x1024, .f32⟩
  | 74 => ⟨S1000x1024, .f32⟩
  | 75 => ⟨S1000x1024, .f32⟩
  | 76 => ⟨S1000x1024, .f32⟩
  | 77 => ⟨S_, .f32⟩
  | 78 => ⟨S1000x1, .f32⟩
  | 79 => ⟨S1000x1, .f32⟩
  | 80 => ⟨S1000x1024, .f32⟩
  | 81 => ⟨S1000x1024, .f32⟩
  | 82 => ⟨S1000x1024, .f32⟩
  | 83 => ⟨S1000x1024, .f32⟩
  | 84 => ⟨S1000x1024, .f32⟩
  | 85 => ⟨S1000, .f32⟩
  | 86 => ⟨S1x1000x1024, .f32⟩
  | 87 => ⟨S1x1000x1024, .f32⟩
  | 88 => ⟨S2x1000x1024, .f32⟩
  | 89 => ⟨S2x1000x1024, .f32⟩
  | 90 => ⟨S2x1000x1024, .f32⟩
  | 91 => ⟨S2x1000x1024, .f32⟩
  | 92 => ⟨S2000x1024, .f32⟩
  | 93 => ⟨S1000, .i32⟩
  | 94 => ⟨S1x1000, .i32⟩
  | 95 => ⟨S2x1000, .i32⟩
  | 96 => ⟨S2000, .i32⟩
  | 97 => ⟨S67536x1024, .f32⟩
  | 98 => ⟨S67536, .i32⟩
  | 99 => ⟨S1024x1000, .f32⟩
  | 100 => ⟨S67536x1000, .f32⟩
  | 101 => ⟨S1x1000, .f32⟩
  | 102 => ⟨S67536x1000, .f32⟩
  | 103 => ⟨S67536x1000, .f32⟩
  | 104 => ⟨S1x1000, .f32⟩
  | 105 => ⟨S67536x1000, .f32⟩
  | 106 => ⟨S67536x1000, .f32⟩
  | 107 => ⟨S_, .f32⟩
  | 108 => ⟨S67536, .f32⟩
  | 109 => ⟨S_, .f32⟩
  | 110 => ⟨S67536, .f32⟩
  | 111 => ⟨S67536, .f32⟩
  | 112 => ⟨S67536x1, .f32⟩
  | 113 => ⟨S67536x1000, .f32⟩
  | 114 => ⟨S67536x1000, .f32⟩
  | 115 => ⟨S67536x1000, .f32⟩
  | 116 => ⟨S_, .f32⟩
  | 117 => ⟨S67536, .f32⟩
  | 118 => ⟨S67536x1, .f32⟩
  | 119 => ⟨S67536x1, .f32⟩
  | 120 => ⟨S67536x1000, .f32⟩
  | 121 => ⟨S67536x1000, .f32⟩
  | 122 => ⟨S67536x1, .i32⟩
  | 123 => ⟨S_, .i32⟩
  | 124 => ⟨S67536x1, .i32⟩
  | 125 => ⟨S67536x1, .i1⟩
  | 126 => ⟨S_, .i32⟩
  | 127 => ⟨S67536x1, .i32⟩
  | _ => ⟨S65536x1024, .f32⟩

abbrev hbmTy0_1 (i : Nat) : BufTy := match i % 128 with
  | 0 => ⟨S67536x1, .i32⟩
  | 1 => ⟨S67536x1, .i32⟩
  | 2 => ⟨S67536x1x1, .i32⟩
  | 3 => ⟨S1, .i32⟩
  | 4 => ⟨S_, .i32⟩
  | 5 => ⟨S67536x1x1, .i32⟩
  | 6 => ⟨S67536x1x1, .i1⟩
  | 7 => ⟨S1x1x1, .i32⟩
  | 8 => ⟨S67536x1x1, .i32⟩
  | 9 => ⟨S67536x1x1, .i1⟩
  | 10 => ⟨S67536x1x1, .i1⟩
  | 11 => ⟨S_, .i1⟩
  | 12 => ⟨S67536x1, .i1⟩
  | 13 => ⟨S67536x1, .f32⟩
  | 14 => ⟨S_, .f32⟩
  | 15 => ⟨S67536x1, .f32⟩
  | 16 => ⟨S67536x1, .f32⟩
  | 17 => ⟨S_, .f32⟩
  | 18 => ⟨S_, .f32⟩
  | 19 => ⟨S_, .f32⟩
  | 20 => ⟨S_, .f32⟩
  | 21 => ⟨S_, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call2_cst : Ref sig .tc := ⟨.hbm, 107, rfl⟩
abbrev main_call2_v0 : Ref sig .tc := ⟨.hbm, 108, rfl⟩
abbrev main_call2_cst_0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_cst_1 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_v80 : Ref sig .tc := ⟨.hbm, 121, rfl⟩
abbrev main_v81 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_cst : Ref sig .tc := ⟨.hbm, 142, rfl⟩
abbrev main_call3_v14 : Ref sig .tc := ⟨.hbm, 143, rfl⟩
abbrev main_v82 : Ref sig .tc := ⟨.hbm, 144, rfl⟩
abbrev main_cst_12 : Ref sig .tc := ⟨.hbm, 145, rfl⟩
abbrev main_v83 : Ref sig .tc := ⟨.hbm, 146, rfl⟩
abbrev main_cst_13 : Ref sig .tc := ⟨.hbm, 147, rfl⟩
abbrev main_v84 : Ref sig .tc := ⟨.hbm, 148, rfl⟩
abbrev main_v85 : Ref sig .tc := ⟨.hbm, 149, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S_S1000x1024 : S_.BroadcastsInDim S1000x1024 (![] : Fin 0 → Fin S1000x1024.rank)
  bcast_S1000_S1000x1_0 : S1000.BroadcastsInDim S1000x1 (![0] : Fin 1 → Fin S1000x1.rank)
  bcast_S1000x1_S1000x1024_0_1 : S1000x1.BroadcastsInDim S1000x1024 (![0, 1] : Fin 2 → Fin S1000x1024.rank)
  bcast_S_S1000x1 : S_.BroadcastsInDim S1000x1 (![] : Fin 0 → Fin S1000x1.rank)
  bcast_S1000x1024_S1x1000x1024_1_2 : S1000x1024.BroadcastsInDim S1x1000x1024 (![1, 2] : Fin 2 → Fin S1x1000x1024.rank)
  bcast_S1x1000x1024_S2x1000x1024_0_1_2 : S1x1000x1024.BroadcastsInDim S2x1000x1024 (![0, 1, 2] : Fin 3 → Fin S2x1000x1024.rank)
  shapeCasts_S2x1000x1024_S2000x1024 : S2x1000x1024.ShapeCasts S2000x1024
  shapeCasts_S1000_S1x1000 : S1000.ShapeCasts S1x1000
  bcast_S1x1000_S2x1000_0_1 : S1x1000.BroadcastsInDim S2x1000 (![0, 1] : Fin 2 → Fin S2x1000.rank)
  shapeCasts_S2x1000_S2000 : S2x1000.ShapeCasts S2000
  concatenates_S65536x1024_S2000x1024_S67536x1024_d0 : Shape.Concatenates [S65536x1024, S2000x1024] S67536x1024 0
  concatenates_S65536_S2000_S67536_d0 : Shape.Concatenates [S65536, S2000] S67536 0
  transposes_S1000x1024_S1024x1000_1_0 : S1000x1024.Transposes [1, 0] S1024x1000
  bcast_S1000_S1x1000_1 : S1000.BroadcastsInDim S1x1000 (![1] : Fin 1 → Fin S1x1000.rank)
  bcast_S1x1000_S67536x1000_0_1 : S1x1000.BroadcastsInDim S67536x1000 (![0, 1] : Fin 2 → Fin S67536x1000.rank)
  reducesTo_S67536x1000_S67536_d1 : S67536x1000.ReducesTo [1] S67536
  h_S_ : 0 < S_.numel
  bcast_S_S67536 : S_.BroadcastsInDim S67536 (![] : Fin 0 → Fin S67536.rank)
  bcast_S67536_S67536x1_0 : S67536.BroadcastsInDim S67536x1 (![0] : Fin 1 → Fin S67536x1.rank)
  bcast_S67536x1_S67536x1000_0_1 : S67536x1.BroadcastsInDim S67536x1000 (![0, 1] : Fin 2 → Fin S67536x1000.rank)
  bcast_S_S67536x1 : S_.BroadcastsInDim S67536x1 (![] : Fin 0 → Fin S67536x1.rank)
  shapeCasts_S67536x1_S67536x1x1 : S67536x1.ShapeCasts S67536x1x1
  bcast_S_S67536x1x1 : S_.BroadcastsInDim S67536x1x1 (![] : Fin 0 → Fin S67536x1x1.rank)
  bcast_S1_S1x1x1_2 : S1.BroadcastsInDim S1x1x1 (![2] : Fin 1 → Fin S1x1x1.rank)
  bcast_S1x1x1_S67536x1x1_0_1_2 : S1x1x1.BroadcastsInDim S67536x1x1 (![0, 1, 2] : Fin 3 → Fin S67536x1x1.rank)
  reducesTo_S67536x1x1_S67536x1_d2 : S67536x1x1.ReducesTo [2] S67536x1
  reducesTo_S67536x1_S_d0_1 : S67536x1.ReducesTo [0, 1] S_
  scatter_S1000_S65536x1_S65536_n_0_0_1_wf : ScatterDims.WF S1000 S65536x1 S65536 [] [0] [0] 1
  scatter_S1000x1024_S65536x1_S65536x1024_1_0_0_1_wf : ScatterDims.WF S1000x1024 S65536x1 S65536x1024 [1] [0] [0] 1
  gather_S1000x1024_S65536x1_S65536x1024_1_0_n_n_0_1_11024_wf : GatherDims.WF S1000x1024 S65536x1 S65536x1024 [1] [0] [] [0] [] 1 ![1, 1024]
  dot_S67536x1024_S1024x1000_S67536x1000_1_0_0_1_n_n_wf : DotDims.WF S67536x1024 S1024x1000 S67536x1000 [1] [0] [0] [1] [] []
  gather_S67536x1000_S67536x1x1_S67536x1_n_1_0_0_1_2_11_wf : GatherDims.WF S67536x1000 S67536x1x1 S67536x1 [] [1] [0] [1] [0] 2 ![1, 1]

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf
def scatter_S1000x1024_S65536x1_S65536x1024_1_0_0_1 : ScatterDims S1000x1024 S65536x1 S65536x1024 where
  updateWindowDims := [1]
  insertedWindowDims := [0]
  scatterDimsToOperandDims := [0]
  indexVectorDim := 1
  wf := scatter_S1000x1024_S65536x1_S65536x1024_1_0_0_1_wf
def gather_S1000x1024_S65536x1_S65536x1024_1_0_n_n_0_1_11024 : GatherDims S1000x1024 S65536x1 S65536x1024 where
  offsetDims := [1]
  collapsedSliceDims := [0]
  operandBatchingDims := []
  startIndicesBatchingDims := []
  startIndexMap := [0]
  indexVectorDim := 1
  sliceSizes := ![1, 1024]
  wf := gather_S1000x1024_S65536x1_S65536x1024_1_0_n_n_0_1_11024_wf
def dot_S67536x1024_S1024x1000_S67536x1000_1_0_0_1_n_n : DotDims S67536x1024 S1024x1000 S67536x1000 where
  lhsContracting := [1]
  rhsContracting := [0]
  lhsNonContracting := [0]
  rhsNonContracting := [1]
  lhsBatch := []
  rhsBatch := []
  wf := dot_S67536x1024_S1024x1000_S67536x1000_1_0_0_1_n_n_wf
def gather_S67536x1000_S67536x1x1_S67536x1_n_1_0_0_1_2_11 : GatherDims S67536x1000 S67536x1x1 S67536x1 where
  offsetDims := []
  collapsedSliceDims := [1]
  operandBatchingDims := [0]
  startIndicesBatchingDims := [0]
  startIndexMap := [1]
  indexVectorDim := 2
  sliceSizes := ![1, 1]
  wf := gather_S67536x1000_S67536x1x1_S67536x1_n_1_0_0_1_2_11_wf

class Facts : Prop extends Facts₀ where

variable [Facts]
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefStages.lean ====
/-
  The reference's run, stage by stage.
  The reference is a straight line of 141 host operations, each writing one buffer once. After the line every buffer
  holds its operation's function of the FINAL contents of the buffers it reads (single-assignment form), so by
  induction along the line each buffer's final contents are its stage — the operation's function of the earlier
  stages — as a function of the arguments; the last buffer's stage is the result, and the arguments are never written.
-/
import proofs.«415097_j5265629905347_2_alg».proof.Proof.RefList
import proofs.«415097_j5265629905347_2_alg».proof.Proof.RefRead
import proofs.«415097_j5265629905347_2_alg».proof.Proof.LibSsa
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The written buffers -/

local notation "OPS" => (Cert.ReferenceIdeal.ValueL.ops (F := Ideal))

/-- The buffer each operation writes, in program order. -/
private def W : List (Ref sig .tc) :=
  [main_cst, main_v0, main_cst_0, main_v1, main_v2, main_v3, main_cst_1, main_v4, main_v5, main_v6, main_cst_2, main_v7, main_v8, main_cst_3, main_call0_v0, main_call0_v1, main_v9, main_v10, main_v11, main_v12, main_c, main_v13, main_v14, main_c_4, main_v15, main_v16, main_v17, main_v18, main_v19, main_v20, main_v21, main_cst_5, main_v22, main_v23, main_v24, main_v25, main_v26, main_v27, main_cst_6, main_v28, main_v29, main_cst_7, main_call1_v0, main_call1_v1, main_v30, main_v31, main_cst_8, main_v32, main_v33, main_v34, main_v35, main_cst_9, main_v36, main_v37, main_v38, main_v39, main_v40, main_v41, main_v42, main_cst_10, main_v43, main_v44, main_v45, main_v46, main_v47, main_v48, main_v49, main_v50, main_cst_11, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_call2_cst, main_call2_v0, main_call2_cst_0, main_call2_v1, main_call2_v2, main_call2_v3, main_call2_v4, main_call2_v5, main_call2_v6, main_call2_cst_1, main_call2_v7, main_call2_v8, main_call2_v9, main_call2_v10, main_v80, main_v81, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v82, main_cst_12, main_v83, main_cst_13, main_v84, main_v85]

/-- The buffers are numbered in the order they are written: the operation at position `k` writes buffer `9 + k` (the nine
    arguments are buffers 0 to 8). -/
private theorem W_idx : W.map (fun r => r.idx.val) = List.range' 9 141 := by decide

/-- So a buffer numbered below `9 + k` is not written at position `k` or later. -/
private theorem nw (k : Nat) (x : Ref sig .tc) (h : x.idx.val < 9 + k) : x ∉ W.drop k := by
  intro hx
  have h1 : x.idx.val ∈ (W.drop k).map (fun r => r.idx.val) := List.mem_map_of_mem hx
  rw [List.map_drop, W_idx, List.drop_range', List.mem_range'_1] at h1
  omega

/-- Each operation writes exactly its buffer. -/
private theorem hW : Ssa.WritesOnly OPS W := by
  repeat (refine And.intro rfl ?_)
  exact trivial

/-! ## Operations of an inlined function

Such an operation is spelt over references that carry their buffer's type, and moves the contents along the equation
between the two types. When the carried type is the buffer's own the move is the identity, and the operation is the
plain one. -/

private theorem tref_nullary {y : Ref sig .tc} {dy uy} (v : y.ty.Contents (Elt Ideal)) :
    TRef.nullary (τ := τ) (TRef.of (T := y.ty) y rfl dy uy) v = StableHlo.nullary y v ⟨dy, uy⟩ := rfl

private theorem tref_unary {x y : Ref sig .tc} {dx ux dy uy} (f : x.ty.Contents (Elt Ideal) → y.ty.Contents (Elt Ideal)) :
    TRef.unary (τ := τ) (TRef.of (T := x.ty) x rfl dx ux) (TRef.of (T := y.ty) y rfl dy uy) f
      = StableHlo.unary x y f ⟨dx, ux⟩ ⟨dy, uy⟩ := rfl

private theorem tref_binary {a b y : Ref sig .tc} {da ua db ub dy uy}
    (f : a.ty.Contents (Elt Ideal) → b.ty.Contents (Elt Ideal) → y.ty.Contents (Elt Ideal)) :
    TRef.binary (τ := τ) (TRef.of (T := a.ty) a rfl da ua) (TRef.of (T := b.ty) b rfl db ub) (TRef.of (T := y.ty) y rfl dy uy) f
      = StableHlo.binary a b y f ⟨da, ua⟩ ⟨db, ub⟩ ⟨dy, uy⟩ := rfl

private theorem tref_ternary {c a b y : Ref sig .tc} {dc uc da ua db ub dy uy}
    (f : c.ty.Contents (Elt Ideal) → a.ty.Contents (Elt Ideal) → b.ty.Contents (Elt Ideal) → y.ty.Contents (Elt Ideal)) :
    TRef.ternary (τ := τ) (TRef.of (T := c.ty) c rfl dc uc) (TRef.of (T := a.ty) a rfl da ua) (TRef.of (T := b.ty) b rfl db ub)
        (TRef.of (T := y.ty) y rfl dy uy) f
      = StableHlo.ternary c a b y f ⟨dc, uc⟩ ⟨da, ua⟩ ⟨db, ub⟩ ⟨dy, uy⟩ := rfl

private theorem tref_reshape {x y : Ref sig .tc} {dx ux dy uy} (he : x.ty.elt = y.ty.elt) (hn : x.ty.shape.ShapeCasts y.ty.shape) :
    TRef.reshape (τ := τ) (Val := Elt Ideal) (TRef.of (T := x.ty) x rfl dx ux) (TRef.of (T := y.ty) y rfl dy uy) he hn
      = StableHlo.reshape x y he hn ⟨dx, ux⟩ ⟨dy, uy⟩ := rfl

/-! ## The arguments: never written -/

private theorem arg0 (c : Dev nD) : after OPS (launchContents m c) (Proc.devRef .tc main_arg0) = m ((c.tc : Thread nD τ).loc main_arg0) :=
  Ssa.after_arg OPS W hW (launchContents m c) main_arg0 (nw 0 main_arg0 (by decide))
private theorem arg1 (c : Dev nD) : after OPS (launchContents m c) (Proc.devRef .tc main_arg1) = m ((c.tc : Thread nD τ).loc main_arg1) :=
  Ssa.after_arg OPS W hW (launchContents m c) main_arg1 (nw 0 main_arg1 (by decide))
private theorem arg2 (c : Dev nD) : after OPS (launchContents m c) (Proc.devRef .tc main_arg2) = m ((c.tc : Thread nD τ).loc main_arg2) :=
  Ssa.after_arg OPS W hW (launchContents m c) main_arg2 (nw 0 main_arg2 (by decide))
private theorem arg3 (c : Dev nD) : after OPS (launchContents m c) (Proc.devRef .tc main_arg3) = m ((c.tc : Thread nD τ).loc main_arg3) :=
  Ssa.after_arg OPS W hW (launchContents m c) main_arg3 (nw 0 main_arg3 (by decide))
private theorem arg4 (c : Dev nD) : after OPS (launchContents m c) (Proc.devRef .tc main_arg4) = m ((c.tc : Thread nD τ).loc main_arg4) :=
  Ssa.after_arg OPS W hW (launchContents m c) main_arg4 (nw 0 main_arg4 (by decide))
private theorem arg5 (c : Dev nD) : after OPS (launchContents m c) (Proc.devRef .tc main_arg5) = m ((c.tc : Thread nD τ).loc main_arg5) :=
  Ssa.after_arg OPS W hW (launchContents m c) main_arg5 (nw 0 main_arg5 (by decide))
private theorem arg6 (c : Dev nD) : after OPS (launchContents m c) (Proc.devRef .tc main_arg6) = m ((c.tc : Thread nD τ).loc main_arg6) :=
  Ssa.after_arg OPS W hW (launchContents m c) main_arg6 (nw 0 main_arg6 (by decide))
private theorem arg7 (c : Dev nD) : after OPS (launchContents m c) (Proc.devRef .tc main_arg7) = m ((c.tc : Thread nD τ).loc main_arg7) :=
  Ssa.after_arg OPS W hW (launchContents m c) main_arg7 (nw 0 main_arg7 (by decide))
private theorem arg8 (c : Dev nD) : after OPS (launchContents m c) (Proc.devRef .tc main_arg8) = m ((c.tc : Thread nD τ).loc main_arg8) :=
  Ssa.after_arg OPS W hW (launchContents m c) main_arg8 (nw 0 main_arg8 (by decide))

/-! ## The stages, in program order -/

private theorem stage_main_cst (c : Dev nD) : after OPS (launchContents m c) (Proc.devRef .tc main_cst) = ReadP.val_main_cst (F := Ideal) :=
  (Ssa.ssa_nullary OPS W hW (launchContents m c) 0 main_cst _ _ rfl (nw 1 main_cst (by decide))).trans rfl
private theorem stage_main_v0 (c : Dev nD) : after OPS (launchContents m c) (Proc.devRef .tc main_v0) = ReadP.val_main_v0 (F := Ideal) :=
  (Ssa.ssa_unary OPS W hW (launchContents m c) 1 main_cst main_v0 _ _ _ rfl (nw 2 main_v0 (by decide)) (nw 1 main_cst (by decide))).trans (by rewrite [stage_main_cst m c]; rfl)
private theorem stage_main_cst_0 (c : Dev nD) : after OPS (launchContents m c) (Proc.devRef .tc main_cst_0) = ReadP.val_main_cst_0 (F := Ideal) :=
  (Ssa.ssa_nullary OPS W hW (launchContents m c) 2 main_cst_0 _ _ rfl (nw 3 main_cst_0 (by decide))).trans rfl
private theorem stage_main_v1 (c : Dev nD) : after OPS (launchContents m c) (Proc.devRef .tc main_v1) = ReadP.val_main_v1 (F := Ideal) :=
  (Ssa.ssa_unary OPS W hW (launchContents m c) 3 main_cst_0 main_v1 _ _ _ rfl (nw 4 main_v1 (by decide)) (nw 3 main_cst_0 (by decide))).trans (by rewrite [stage_main_cst_0 m c]; rfl)
private theorem stage_main_v2 (c : Dev nD) : after OPS (launchContents m c) (Proc.devRef .tc main_v2) = ReadP.val_main_v2 (F := Ideal) (m ((c.tc : Thread nD τ).loc main_arg8)) :=
  (Ssa.ssa_unary OPS W hW (launchContents m c) 4 main_arg8 main_v2 _ _ _ rfl (nw 5 main_v2 (by decide)) (nw 4 main_arg8 (by decide))).trans (by rewrite [arg8 m c]; rfl)
private theorem stage_main_v3 (c : Dev nD) : after OPS (launchContents m c) (Proc.devRef .tc main_v3) = ReadP.val_main_v3 (F := Ideal) (m ((c.tc : Thread nD τ).loc main_arg8)) :=
  (Ssa.ssa_ternary OPS W hW (launchContents m c) 5 main_v1 main_v2 main_v0 main_v3 _ _ _ _ _ rfl (nw 6 main_v3 (by decide)) (nw 5 main_v1 (by decide)) (nw 5 main_v2 (by decide)) (nw 5 main_v0 (by decide))).trans (by rewrite [stage_main_v1 m c, stage_main_v2 m c, stage_main_v0 m c]; rfl)
private theorem stage_main_cst_1 (c : Dev nD) : after OPS (launchContents m c) (Proc.devRef .tc main_cst_1) = ReadP.val_main_cst_1 (F := Ideal) :=
  (Ssa.ssa_nullary OPS W hW (launchContents m c) 6 main_cst_1 _ _ rfl (nw 7 main_cst_1 (by decide))).trans rfl
private theorem stage_main_v4 (c : Dev nD) : after OPS (launchContents m c) (Proc.devRef .tc main_v4) = ReadP.val_main_v4 (F := Ideal) :=
  (Ssa.ssa_unary OPS W hW (launchContents m c) 7 main_cst_1 main_v4 _ _ _ rfl (nw 8 main_v4 (by decide)) (nw 7 main_cst_1 (by decide))).trans (by rewrite [stage_main_cst_1 m c]; rfl)
private theorem stage_main_v5 (c : Dev nD) : after OPS (launchContents m c) (Proc.devRef .tc main_v5) = ReadP.val_main_v5 (F := Ideal) (m ((c.tc : Thread nD τ).loc main_arg8)) :=
  (Ssa.ssa_unary OPS W hW (launchContents m c) 8 main_arg8 main_v5 _ _ _ rfl (nw 9 main_v5 (by decide)) (nw 8 main_arg8 (by decide))).trans (by rewrite [arg8 m c]; rfl)
private theorem stage_main_v6 (c : Dev nD) : after OPS (launchContents m c) (Proc.devRef .tc main_v6) = ReadP.val_main_v6 (F := Ideal) (m ((c.tc : Thread nD τ).loc main_arg0)) (m ((c.tc : Thread nD τ).loc main_arg8)) :=
  (Ssa.ssa_ternary OPS W hW (launchContents m c) 9 main_v4 main_v5 main_arg0 main_v6 _ _ _ _ _ rfl (nw 10 main_v6 (by decide)) (nw 9 main_v4 (by decide)) (nw 9 main_v5 (by decide)) (nw 9 main_arg0 (by decide))).trans (by rewrite [stage_main_v4 m c, stage_main_v5 m c, arg0 m c]; rfl)
private theorem stage_main_cst_2 (c : Dev nD) : after OPS (launchContents m c) (Proc.devRef .tc main_cst_2) = ReadP.val_main_cst_2 (F := Ideal) :=
  (Ssa.ssa_nullary OPS W hW (launchContents m c) 10 main_cst_2 _ _ rfl (nw 11 main_cst_2 (by decide))).trans rfl
private theorem stage_main_v7 (c : Dev nD) : after OPS (launchContents m c) (Proc.devRef .tc main_v7) = ReadP.val_main_v7 (F := Ideal) :=
  (Ssa.ssa_unary OPS W hW (launchContents m c) 11 main_cst_2 main_v7 _ _ _ rfl (nw 12 main_v7 (by decide)) (nw 11 main_cst_2 (by decide))).trans (by rewrite [stage_main_cst_2 m c]; rfl)
private theorem stage_main_v8 (c : Dev nD) : after OPS (launchContents m c) (Proc.devRef .tc main_v8) = ReadP.val_main_v8 (F := Ideal) (m ((c.tc : Thread nD τ).loc main_arg8)) :=
  (Ssa.ssa_binary OPS W hW (launchContents m c) 12 main_v3 main_v7 main_v8 _ _ _ _ rfl (nw 13 main_v8 (by decide)) (nw 12 main_v3 (by decide)) (nw 12 main_v7 (by decide))).trans (by rewrite [stage_main_v3 m c, stage_main_v7 m c]; rfl)
private theorem stage_main_cst_3 (c : Dev nD) : after OPS (launchContents m c) (Proc.devRef .tc main_cst_3) = ReadP.val_main_cst_3 (F := Ideal) :=
  (Ssa.ssa_nullary OPS W hW (launchContents m c) 13 main_cst_3 _ _ rfl (nw 14 main_cst_3 (by decide))).trans rfl
private theorem stage_main_call0_v0 (c : Dev nD) : after OPS (launchContents m c) (Proc.devRef .tc main_call0_v0) = ReadP.val_main_call0_v0 (F := Ideal) :=
  (Ssa.ssa_unary OPS W hW (launchContents m c) 14 main_cst_3 main_call0_v0 _ _ _ (Eq.trans rfl (congrArg (· :: List.drop (14 + 1) OPS) (tref_unary _))) (nw 15 main_call0_v0 (by decide)) (nw 14 main_cst_3 (by decide))).trans (by rewrite [stage_main_cst_3 m c]; rfl)
private theorem stage_main_call0_v1 (c : Dev nD) : after OPS (launchContents m c) (Proc.devRef .tc main_call0_v1) = ReadP.val_main_call0_v1 (F := Ideal) :=
  (Ssa.ssa_unary OPS W hW (launchContents m c) 15 main_call0_v0 main_call0_v1 _ _ _ (Eq.trans rfl (congrArg (· :: List.drop (15 + 1) OPS) (tref_unary _))) (nw 16 main_call0_v1 (by decide)) (nw 15 main_call0_v0 (by decide))).trans (by rewrite [stage_main_call0_v0 m c]; rfl)
private theorem stage_main_v9 (c : Dev nD) : after OPS (launchContents m c) (Proc.devRef .tc main_v9) = ReadP.val_main_v9 (F := Ideal) (m ((c.tc : Thread nD τ).loc main_arg8)) :=
  (Ssa.ssa_ternary OPS W hW (launchContents m c) 16 main_v8 main_call0_v1 main_v3 main_v9 _ _ _ _ _ (Eq.trans rfl (congrArg (· :: List.drop (16 + 1) OPS) (tref_ternary _))) (nw 17 main_v9 (by decide)) (nw 16 main_v8 (by decide)) (nw 16 main_call0_v1 (by decide)) (nw 16 main_v3 (by decide))).trans (by rewrite [stage_main_v8 m c, stage_main_call0_v1 m c, stage_main_v3 m c]; rfl)
private theorem stage_main_v10 (c : Dev nD) : after OPS (launchContents m c) (Proc.devRef .tc main_v10) = ReadP.val_main_v10 (F := Ideal) (m ((c.tc : Thread nD τ).loc main_arg8)) :=
  (Ssa.ssa_unary OPS W hW (launchContents m c) 17 main_v9 main_v10 _ _ _ rfl (nw 18 main_v10 (by decide)) (nw 17 main_v9 (by decide))).trans (by rewrite [stage_main_v9 m c]; rfl)
private theorem stage_main_v11 (c : Dev nD) : after OPS (launchContents m c) (Proc.devRef .tc main_v11) = ReadP.val_main_v11 (F := Ideal) (m ((c.tc : Thread nD τ).loc main_arg8)) :=
  (Ssa.ssa_unary OPS W hW (launchContents m c) 18 main_v10 main_v11 _ _ _ rfl (nw 19 main_v11 (by decide)) (nw 18 main_v10 (by decide))).trans (by rewrite [stage_main_v10 m c]; rfl)
private theorem stage_main_v12 (c : Dev nD) : after OPS (launchContents m c) (Proc.devRef .tc main_v12) = ReadP.val_main_v12 (F := Ideal) (m ((c.tc : Thread nD τ).loc main_arg0)) (m ((c.tc : Thread nD τ).loc main_arg8)) :=
  (Ssa.ssa_binary OPS W hW (launchContents m c) 19 main_v6 main_v11 main_v12 _ _ _ _ rfl (nw 20 main_v12 (by decide)) (nw 19 main_v6 (by decide)) (nw 19 main_v11 (by decide))).trans (by rewrite [stage_main_v6 m c, stage_main_v11 m c]; rfl)
private theorem stage_main_c (c : Dev nD) : after OPS (launchContents m c) (Proc.devRef .tc main_c) = ReadP.val_main_c (F := Ideal) :=
  (Ssa.ssa_nullary OPS W hW (launchContents m c) 20 main_c _ _ rfl (nw 21 main_c (by decide))).trans rfl
private theorem stage_main_v13 (c : Dev nD) : after OPS (launchContents m c) (Proc.devRef .tc main_v13) = ReadP.val_main_v13 (F := Ideal) :=
  (Ssa.ssa_unary OPS W hW (launchContents m c) 21 main_c main_v13 _ _ _ rfl (nw 22 main_v13 (by decide)) (nw 21 main_c (by decide))).trans (by rewrite [stage_main_c m c]; rfl)
private theorem stage_main_v14 (c : Dev nD) : after OPS (launchContents m c) (Proc.devRef .tc main_v14) = ReadP.val_main_v14 (F := Ideal) (m ((c.tc : Thread nD τ).loc main_arg8)) :=
  (Ssa.ssa_binary OPS W hW (launchContents m c) 22 main_arg8 main_v13 main_v14 _ _ _ _ rfl (nw 23 main_v14 (by decide)) (nw 22 main_arg8 (by decide)) (nw 22 main_v13 (by decide))).trans (by rewrite [arg8 m c, stage_main_v13 m c]; rfl)
private theorem stage_main_c_4 (c : Dev nD) : after OPS (launchContents m c) (Proc.devRef .tc main_c_4) = ReadP.val_main_c_4 (F := Ideal) :=
  (Ssa.ssa_nullary OPS W hW (launchContents m c) 23 main_c_4 _ _ rfl (nw 24 main_c_4 (by decide))).trans rfl
private theorem stage_main_v15 (c : Dev nD) : after OPS (launchContents m c) (Proc.devRef .tc main_v15) = ReadP.val_main_v15 (F := Ideal) :=
  (Ssa.ssa_unary OPS W hW (launchContents m c) 24 main_c_4 main_v15 _ _ _ rfl (nw 25 main_v15 (by decide)) (nw 24 main_c_4 (by decide))).trans (by rewrite [stage_main_c_4 m c]; rfl)
private theorem stage_main_v16 (c : Dev nD) : after OPS (launchContents m c) (Proc.devRef .tc main_v16) = ReadP.val_main_v16 (F := Ideal) (m ((c.tc : Thread nD τ).loc main_arg8)) :=
  (Ssa.ssa_binary OPS W hW (launchContents m c) 25 main_arg8 main_v15 main_v16 _ _ _ _ rfl (nw 26 main_v16 (by decide)) (nw 25 main_arg8 (by decide)) (nw 25 main_v15 (by decide))).trans (by rewrite [arg8 m c, stage_main_v15 m c]; rfl)
private theorem stage_main_v17 (c : Dev nD) : after OPS (launchContents m c) (Proc.devRef .tc main_v17) = ReadP.val_main_v17 (F := Ideal) (m ((c.tc : Thread nD τ).loc main_arg8)) :=
  (Ssa.ssa_ternary OPS W hW (launchContents m c) 26 main_v14 main_v16 main_arg8 main_v17 _ _ _ _ _ rfl (nw 27 main_v17 (by decide)) (nw 26 main_v14 (by decide)) (nw 26 main_v16 (by decide)) (nw 26 main_arg8 (by decide))).trans (by rewrite [stage_main_v14 m c, stage_main_v16 m c, arg8 m c]; rfl)
private theorem stage_main_v18 (c : Dev nD) : after OPS (launchContents m c) (Proc.devRef .tc main_v18) = ReadP.val_main_v18 (F := Ideal) (m ((c.tc : Thread nD τ).loc main_arg8)) :=
  (Ssa.ssa_unary OPS W hW (launchContents m c) 27 main_v17 main_v18 _ _ _ rfl (nw 28 main_v18 (by decide)) (nw 27 main_v17 (by decide))).trans (by rewrite [stage_main_v17 m c]; rfl)
private theorem stage_main_v19 (c : Dev nD) : after OPS (launchContents m c) (Proc.devRef .tc main_v19) = ReadP.val_main_v19 (F := Ideal) (m ((c.tc : Thread nD τ).loc main_arg0)) (m ((c.tc : Thread nD τ).loc main_arg8)) :=
  (Ssa.ssa_binary OPS W hW (launchContents m c) 28 main_v12 main_v18 main_v19 _ _ _ _ rfl (nw 29 main_v19 (by decide)) (nw 28 main_v12 (by decide)) (nw 28 main_v18 (by decide))).trans (by rewrite [stage_main_v12 m c, stage_main_v18 m c]; rfl)
private theorem stage_main_v20 (c : Dev nD) : after OPS (launchContents m c) (Proc.devRef .tc main_v20) = ReadP.val_main_v20 (F := Ideal) (m ((c.tc : Thread nD τ).loc main_arg0)) (m ((c.tc : Thread nD τ).loc main_arg8)) :=
  (Ssa.ssa_binary OPS W hW (launchContents m c) 29 main_arg0 main_v19 main_v20 _ _ _ _ rfl (nw 30 main_v20 (by decide)) (nw 29 main_arg0 (by decide)) (nw 29 main_v19 (by decide))).trans (by rewrite [arg0 m c, stage_main_v19 m c]; rfl)
private theorem stage_main_v21 (c : Dev nD) : after OPS (launchContents m c) (Proc.devRef .tc main_v21) = ReadP.val_main_v21 (F := Ideal) (m ((c.tc : Thread nD τ).loc main_arg0)) (m ((c.tc : Thread nD τ).loc main_arg8)) :=
  (Ssa.ssa_binary OPS W hW (launchContents m c) 30 main_v20 main_v20 main_v21 _ _ _ _ rfl (nw 31 main_v21 (by decide)) (nw 30 main_v20 (by decide)) (nw 30 main_v20 (by decide))).trans (by rewrite [stage_main_v20 m c]; rfl)
private theorem stage_main_cst_5 (c : Dev nD) : after OPS (launchContents m c) (Proc.devRef .tc main_cst_5) = ReadP.val_main_cst_5 (F := Ideal) :=
  (Ssa.ssa_nullary OPS W hW (launchContents m c) 31 main_cst_5 _ _ rfl (nw 32 main_cst_5 (by decide))).trans rfl
private theorem stage_main_v22 (c : Dev nD) : after OPS (launchContents m c) (Proc.devRef .tc main_v22) = ReadP.val_main_v22 (F := Ideal) :=
  (Ssa.ssa_unary OPS W hW (launchContents m c) 32 main_cst_5 main_v22 _ _ _ rfl (nw 33 main_v22 (by decide)) (nw 32 main_cst_5 (by decide))).trans (by rewrite [stage_main_cst_5 m c]; rfl)
private theorem stage_main_v23 (c : Dev nD) : after OPS (launchContents m c) (Proc.devRef .tc main_v23) = ReadP.val_main_v23 (F := Ideal) (m ((c.tc : Thread nD τ).loc main_arg8)) :=
  (Ssa.ssa_unary OPS W hW (launchContents m c) 33 main_arg8 main_v23 _ _ _ rfl (nw 34 main_v23 (by decide)) (nw 33 main_arg8 (by decide))).trans (by rewrite [arg8 m c]; rfl)
private theorem stage_main_v24 (c : Dev nD) : after OPS (launchContents m c) (Proc.devRef .tc main_v24) = ReadP.val_main_v24 (F := Ideal) (m ((c.tc : Thread nD τ).loc main_arg0)) (m ((c.tc : Thread nD τ).loc main_arg8)) :=
  (Ssa.ssa_ternary OPS W hW (launchContents m c) 34 main_v22 main_v23 main_v21 main_v24 _ _ _ _ _ rfl (nw 35 main_v24 (by decide)) (nw 34 main_v22 (by decide)) (nw 34 main_v23 (by decide)) (nw 34 main_v21 (by decide))).trans (by rewrite [stage_main_v22 m c, stage_main_v23 m c, stage_main_v21 m c]; rfl)
private theorem stage_main_v25 (c : Dev nD) : after OPS (launchContents m c) (Proc.devRef .tc main_v25) = ReadP.val_main_v25 (F := Ideal) (m ((c.tc : Thread nD τ).loc main_arg8)) :=
  (Ssa.ssa_unary OPS W hW (launchContents m c) 35 main_v9 main_v25 _ _ _ rfl (nw 36 main_v25 (by decide)) (nw 35 main_v9 (by decide))).trans (by rewrite [stage_main_v9 m c]; rfl)
private theorem stage_main_v26 (c : Dev nD) : after OPS (launchContents m c) (Proc.devRef .tc main_v26) = ReadP.val_main_v26 (F := Ideal) (m ((c.tc : Thread nD τ).loc main_arg8)) :=
  (Ssa.ssa_unary OPS W hW (launchContents m c) 36 main_v25 main_v26 _ _ _ rfl (nw 37 main_v26 (by decide)) (nw 36 main_v25 (by decide))).trans (by rewrite [stage_main_v25 m c]; rfl)
private theorem stage_main_v27 (c : Dev nD) : after OPS (launchContents m c) (Proc.devRef .tc main_v27) = ReadP.val_main_v27 (F := Ideal) (m ((c.tc : Thread nD τ).loc main_arg0)) (m ((c.tc : Thread nD τ).loc main_arg8)) :=
  (Ssa.ssa_binary OPS W hW (launchContents m c) 37 main_v24 main_v26 main_v27 _ _ _ _ rfl (nw 38 main_v27 (by decide)) (nw 37 main_v24 (by decide)) (nw 37 main_v26 (by decide))).trans (by rewrite [stage_main_v24 m c, stage_main_v26 m c]; rfl)
private theorem stage_main_cst_6 (c : Dev nD) : after OPS (launchContents m c) (Proc.devRef .tc main_cst_6) = ReadP.val_main_cst_6 (F := Ideal) :=
  (Ssa.ssa_nullary OPS W hW (launchContents m c) 38 main_cst_6 _ _ rfl (nw 39 main_cst_6 (by decide))).trans rfl
private theorem stage_main_v28 (c : Dev nD) : after OPS (launchContents m c) (Proc.devRef .tc main_v28) = ReadP.val_main_v28 (F := Ideal) :=
  (Ssa.ssa_unary OPS W hW (launchContents m c) 39 main_cst_6 main_v28 _ _ _ rfl (nw 40 main_v28 (by decide)) (nw 39 main_cst_6 (by decide))).trans (by rewrite [stage_main_cst_6 m c]; rfl)
private theorem stage_main_v29 (c : Dev nD) : after OPS (launchContents m c) (Proc.devRef .tc main_v29) = ReadP.val_main_v29 (F := Ideal) (m ((c.tc : Thread nD τ).loc main_arg0)) (m ((c.tc : Thread nD τ).loc main_arg8)) :=
  (Ssa.ssa_binary OPS W hW (launchContents m c) 40 main_v27 main_v28 main_v29 _ _ _ _ rfl (nw 41 main_v29 (by decide)) (nw 40 main_v27 (by decide)) (nw 40 main_v28 (by decide))).trans (by rewrite [stage_main_v27 m c, stage_main_v28 m c]; rfl)
private theorem stage_main_cst_7 (c : Dev nD) : after OPS (launchContents m c) (Proc.devRef .tc main_cst_7) = ReadP.val_main_cst_7 (F := Ideal) :=
  (Ssa.ssa_nullary OPS W hW (launchContents m c) 41 main_cst_7 _ _ rfl (nw 42 main_cst_7 (by decide))).trans rfl
private theorem stage_main_call1_v0 (c : Dev nD) : after OPS (launchContents m c) (Proc.devRef .tc main_call1_v0) = ReadP.val_main_call1_v0 (F := Ideal) :=
  (Ssa.ssa_unary OPS W hW (launchContents m c) 42 main_cst_7 main_call1_v0 _ _ _ (Eq.trans rfl (congrArg (· :: List.drop (42 + 1) OPS) (tref_unary _))) (nw 43 main_call1_v0 (by decide)) (nw 42 main_cst_7 (by decide))).trans (by rewrite [stage_main_cst_7 m c]; rfl)
private theorem stage_main_call1_v1 (c : Dev nD) : after OPS (launchContents m c) (Proc.devRef .tc main_call1_v1) = ReadP.val_main_call1_v1 (F := Ideal) :=
  (Ssa.ssa_unary OPS W hW (launchContents m c) 43 main_call1_v0 main_call1_v1 _ _ _ (Eq.trans rfl (congrArg (· :: List.drop (43 + 1) OPS) (tref_unary _))) (nw 44 main_call1_v1 (by decide)) (nw 43 main_call1_v0 (by decide))).trans (by rewrite [stage_main_call1_v0 m c]; rfl)
private theorem stage_main_v30 (c : Dev nD) : after OPS (launchContents m c) (Proc.devRef .tc main_v30) = ReadP.val_main_v30 (F := Ideal) (m ((c.tc : Thread nD τ).loc main_arg0)) (m ((c.tc : Thread nD τ).loc main_arg8)) :=
  (Ssa.ssa_ternary OPS W hW (launchContents m c) 44 main_v29 main_call1_v1 main_v27 main_v30 _ _ _ _ _ (Eq.trans rfl (congrArg (· :: List.drop (44 + 1) OPS) (tref_ternary _))) (nw 45 main_v30 (by decide)) (nw 44 main_v29 (by decide)) (nw 44 main_call1_v1 (by decide)) (nw 44 main_v27 (by decide))).trans (by rewrite [stage_main_v29 m c, stage_main_call1_v1 m c, stage_main_v27 m c]; rfl)
private theorem stage_main_v31 (c : Dev nD) : after OPS (launchContents m c) (Proc.devRef .tc main_v31) = ReadP.val_main_v31 (F := Ideal) (m ((c.tc : Thread nD τ).loc main_arg7)) (m ((c.tc : Thread nD τ).loc main_arg8)) :=
  (Ssa.ssa_binary OPS W hW (launchContents m c) 45 main_v3 main_arg7 main_v31 _ _ _ _ rfl (nw 46 main_v31 (by decide)) (nw 45 main_v3 (by decide)) (nw 45 main_arg7 (by decide))).trans (by rewrite [stage_main_v3 m c, arg7 m c]; rfl)
private theorem stage_main_cst_8 (c : Dev nD) : after OPS (launchContents m c) (Proc.devRef .tc main_cst_8) = ReadP.val_main_cst_8 (F := Ideal) :=
  (Ssa.ssa_nullary OPS W hW (launchContents m c) 46 main_cst_8 _ _ rfl (nw 47 main_cst_8 (by decide))).trans rfl
private theorem stage_main_v32 (c : Dev nD) : after OPS (launchContents m c) (Proc.devRef .tc main_v32) = ReadP.val_main_v32 (F := Ideal) :=
  (Ssa.ssa_unary OPS W hW (launchContents m c) 47 main_cst_8 main_v32 _ _ _ rfl (nw 48 main_v32 (by decide)) (nw 47 main_cst_8 (by decide))).trans (by rewrite [stage_main_cst_8 m c]; rfl)
private theorem stage_main_v33 (c : Dev nD) : after OPS (launchContents m c) (Proc.devRef .tc main_v33) = ReadP.val_main_v33 (F := Ideal) (m ((c.tc : Thread nD τ).loc main_arg7)) (m ((c.tc : Thread nD τ).loc main_arg8)) :=
  (Ssa.ssa_binary OPS W hW (launchContents m c) 48 main_v31 main_v32 main_v33 _ _ _ _ rfl (nw 49 main_v33 (by decide)) (nw 48 main_v31 (by decide)) (nw 48 main_v32 (by decide))).trans (by rewrite [stage_main_v31 m c, stage_main_v32 m c]; rfl)
private theorem stage_main_v34 (c : Dev nD) : after OPS (launchContents m c) (Proc.devRef .tc main_v34) = ReadP.val_main_v34 (F := Ideal) (m ((c.tc : Thread nD τ).loc main_arg7)) (m ((c.tc : Thread nD τ).loc main_arg8)) :=
  (Ssa.ssa_binary OPS W hW (launchContents m c) 49 main_v3 main_v33 main_v34 _ _ _ _ rfl (nw 50 main_v34 (by decide)) (nw 49 main_v3 (by decide)) (nw 49 main_v33 (by decide))).trans (by rewrite [stage_main_v3 m c, stage_main_v33 m c]; rfl)
private theorem stage_main_v35 (c : Dev nD) : after OPS (launchContents m c) (Proc.devRef .tc main_v35) = ReadP.val_main_v35 (F := Ideal) (m ((c.tc : Thread nD τ).loc main_arg7)) (m ((c.tc : Thread nD τ).loc main_arg8)) :=
  (Ssa.ssa_unary OPS W hW (launchContents m c) 50 main_v34 main_v35 _ _ _ rfl (nw 51 main_v35 (by decide)) (nw 50 main_v34 (by decide))).trans (by rewrite [stage_main_v34 m c]; rfl)
private theorem stage_main_cst_9 (c : Dev nD) : after OPS (launchContents m c) (Proc.devRef .tc main_cst_9) = ReadP.val_main_cst_9 (F := Ideal) :=
  (Ssa.ssa_nullary OPS W hW (launchContents m c) 51 main_cst_9 _ _ rfl (nw 52 main_cst_9 (by decide))).trans rfl
private theorem stage_main_v36 (c : Dev nD) : after OPS (launchContents m c) (Proc.devRef .tc main_v36) = ReadP.val_main_v36 (F := Ideal) :=
  (Ssa.ssa_unary OPS W hW (launchContents m c) 52 main_cst_9 main_v36 _ _ _ rfl (nw 53 main_v36 (by decide)) (nw 52 main_cst_9 (by decide))).trans (by rewrite [stage_main_cst_9 m c]; rfl)
private theorem stage_main_v37 (c : Dev nD) : after OPS (launchContents m c) (Proc.devRef .tc main_v37) = ReadP.val_main_v37 (F := Ideal) (m ((c.tc : Thread nD τ).loc main_arg7)) (m ((c.tc : Thread nD τ).loc main_arg8)) :=
  (Ssa.ssa_binary OPS W hW (launchContents m c) 53 main_v36 main_v35 main_v37 _ _ _ _ rfl (nw 54 main_v37 (by decide)) (nw 53 main_v36 (by decide)) (nw 53 main_v35 (by decide))).trans (by rewrite [stage_main_v36 m c, stage_main_v35 m c]; rfl)
private theorem stage_main_v38 (c : Dev nD) : after OPS (launchContents m c) (Proc.devRef .tc main_v38) = ReadP.val_main_v38 (F := Ideal) (m ((c.tc : Thread nD τ).loc main_arg7)) (m ((c.tc : Thread nD τ).loc main_arg8)) :=
  (Ssa.ssa_binary OPS W hW (launchContents m c) 54 main_v35 main_v37 main_v38 _ _ _ _ rfl (nw 55 main_v38 (by decide)) (nw 54 main_v35 (by decide)) (nw 54 main_v37 (by decide))).trans (by rewrite [stage_main_v35 m c, stage_main_v37 m c]; rfl)
private theorem stage_main_v39 (c : Dev nD) : after OPS (launchContents m c) (Proc.devRef .tc main_v39) = ReadP.val_main_v39 (F := Ideal) (m ((c.tc : Thread nD τ).loc main_arg0)) (m ((c.tc : Thread nD τ).loc main_arg6)) (m ((c.tc : Thread nD τ).loc main_arg8)) :=
  (Ssa.ssa_binary OPS W hW (launchContents m c) 55 main_arg6 main_v12 main_v39 _ _ _ _ rfl (nw 56 main_v39 (by decide)) (nw 55 main_arg6 (by decide)) (nw 55 main_v12 (by decide))).trans (by rewrite [arg6 m c, stage_main_v12 m c]; rfl)
private theorem stage_main_v40 (c : Dev nD) : after OPS (launchContents m c) (Proc.devRef .tc main_v40) = ReadP.val_main_v40 (F := Ideal) (m ((c.tc : Thread nD τ).loc main_arg0)) (m ((c.tc : Thread nD τ).loc main_arg6)) (m ((c.tc : Thread nD τ).loc main_arg8)) :=
  (Ssa.ssa_binary OPS W hW (launchContents m c) 56 main_v39 main_v39 main_v40 _ _ _ _ rfl (nw 57 main_v40 (by decide)) (nw 56 main_v39 (by decide)) (nw 56 main_v39 (by decide))).trans (by rewrite [stage_main_v39 m c]; rfl)
private theorem stage_main_v41 (c : Dev nD) : after OPS (launchContents m c) (Proc.devRef .tc main_v41) = ReadP.val_main_v41 (F := Ideal) (m ((c.tc : Thread nD τ).loc main_arg7)) (m ((c.tc : Thread nD τ).loc main_arg8)) :=
  (Ssa.ssa_unary OPS W hW (launchContents m c) 57 main_v38 main_v41 _ _ _ rfl (nw 58 main_v41 (by decide)) (nw 57 main_v38 (by decide))).trans (by rewrite [stage_main_v38 m c]; rfl)
private theorem stage_main_v42 (c : Dev nD) : after OPS (launchContents m c) (Proc.devRef .tc main_v42) = ReadP.val_main_v42 (F := Ideal) (m ((c.tc : Thread nD τ).loc main_arg0)) (m ((c.tc : Thread nD τ).loc main_arg6)) (m ((c.tc : Thread nD τ).loc main_arg7)) (m ((c.tc : Thread nD τ).loc main_arg8)) :=
  (Ssa.ssa_binary OPS W hW (launchContents m c) 58 main_v41 main_v40 main_v42 _ _ _ _ rfl (nw 59 main_v42 (by decide)) (nw 58 main_v41 (by decide)) (nw 58 main_v40 (by decide))).trans (by rewrite [stage_main_v41 m c, stage_main_v40 m c]; rfl)
private theorem stage_main_cst_10 (c : Dev nD) : after OPS (launchContents m c) (Proc.devRef .tc main_cst_10) = ReadP.val_main_cst_10 (F := Ideal) :=
  (Ssa.ssa_nullary OPS W hW (launchContents m c) 59 main_cst_10 _ _ rfl (nw 60 main_cst_10 (by decide))).trans rfl
private theorem stage_main_v43 (c : Dev nD) : after OPS (launchContents m c) (Proc.devRef .tc main_v43) = ReadP.val_main_v43 (F := Ideal) :=
  (Ssa.ssa_unary OPS W hW (launchContents m c) 60 main_cst_10 main_v43 _ _ _ rfl (nw 61 main_v43 (by decide)) (nw 60 main_cst_10 (by decide))).trans (by rewrite [stage_main_cst_10 m c]; rfl)
private theorem stage_main_v44 (c : Dev nD) : after OPS (launchContents m c) (Proc.devRef .tc main_v44) = ReadP.val_main_v44 (F := Ideal) (m ((c.tc : Thread nD τ).loc main_arg7)) (m ((c.tc : Thread nD τ).loc main_arg8)) :=
  (Ssa.ssa_binary OPS W hW (launchContents m c) 61 main_v43 main_v35 main_v44 _ _ _ _ rfl (nw 62 main_v44 (by decide)) (nw 61 main_v43 (by decide)) (nw 61 main_v35 (by decide))).trans (by rewrite [stage_main_v43 m c, stage_main_v35 m c]; rfl)
private theorem stage_main_v45 (c : Dev nD) : after OPS (launchContents m c) (Proc.devRef .tc main_v45) = ReadP.val_main_v45 (F := Ideal) (m ((c.tc : Thread nD τ).loc main_arg7)) (m ((c.tc : Thread nD τ).loc main_arg8)) :=
  (Ssa.ssa_unary OPS W hW (launchContents m c) 62 main_v44 main_v45 _ _ _ rfl (nw 63 main_v45 (by decide)) (nw 62 main_v44 (by decide))).trans (by rewrite [stage_main_v44 m c]; rfl)
private theorem stage_main_v46 (c : Dev nD) : after OPS (launchContents m c) (Proc.devRef .tc main_v46) = ReadP.val_main_v46 (F := Ideal) (m ((c.tc : Thread nD τ).loc main_arg5)) (m ((c.tc : Thread nD τ).loc main_arg7)) (m ((c.tc : Thread nD τ).loc main_arg8)) :=
  (Ssa.ssa_binary OPS W hW (launchContents m c) 63 main_arg5 main_v45 main_v46 _ _ _ _ rfl (nw 64 main_v46 (by decide)) (nw 63 main_arg5 (by decide)) (nw 63 main_v45 (by decide))).trans (by rewrite [arg5 m c, stage_main_v45 m c]; rfl)
private theorem stage_main_v47 (c : Dev nD) : after OPS (launchContents m c) (Proc.devRef .tc main_v47) = ReadP.val_main_v47 (F := Ideal) (m ((c.tc : Thread nD τ).loc main_arg7)) (m ((c.tc : Thread nD τ).loc main_arg8)) :=
  (Ssa.ssa_unary OPS W hW (launchContents m c) 64 main_v35 main_v47 _ _ _ rfl (nw 65 main_v47 (by decide)) (nw 64 main_v35 (by decide))).trans (by rewrite [stage_main_v35 m c]; rfl)
private theorem stage_main_v48 (c : Dev nD) : after OPS (launchContents m c) (Proc.devRef .tc main_v48) = ReadP.val_main_v48 (F := Ideal) (m ((c.tc : Thread nD τ).loc main_arg0)) (m ((c.tc : Thread nD τ).loc main_arg7)) (m ((c.tc : Thread nD τ).loc main_arg8)) :=
  (Ssa.ssa_binary OPS W hW (launchContents m c) 65 main_v30 main_v47 main_v48 _ _ _ _ rfl (nw 66 main_v48 (by decide)) (nw 65 main_v30 (by decide)) (nw 65 main_v47 (by decide))).trans (by rewrite [stage_main_v30 m c, stage_main_v47 m c]; rfl)
private theorem stage_main_v49 (c : Dev nD) : after OPS (launchContents m c) (Proc.devRef .tc main_v49) = ReadP.val_main_v49 (F := Ideal) (m ((c.tc : Thread nD τ).loc main_arg0)) (m ((c.tc : Thread nD τ).loc main_arg5)) (m ((c.tc : Thread nD τ).loc main_arg7)) (m ((c.tc : Thread nD τ).loc main_arg8)) :=
  (Ssa.ssa_binary OPS W hW (launchContents m c) 66 main_v46 main_v48 main_v49 _ _ _ _ rfl (nw 67 main_v49 (by decide)) (nw 66 main_v46 (by decide)) (nw 66 main_v48 (by decide))).trans (by rewrite [stage_main_v46 m c, stage_main_v48 m c]; rfl)
private theorem stage_main_v50 (c : Dev nD) : after OPS (launchContents m c) (Proc.devRef .tc main_v50) = ReadP.val_main_v50 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 67 main_v49 main_v42 main_v50 _ _ _ _ rfl (nw 68 main_v50 (by decide)) (nw 67 main_v49 (by decide)) (nw 67 main_v42 (by decide))).trans (by rewrite [stage_main_v49 m c, stage_main_v42 m c]; rfl)
private theorem stage_main_cst_11 (c : Dev nD) : after OPS (launchContents m c) (Proc.devRef .tc main_cst_11) = ReadP.val_main_cst_11 (F := Ideal) :=
  (Ssa.ssa_nullary OPS W hW (launchContents m c) 68 main_cst_11 _ _ rfl (nw 69 main_cst_11 (by decide))).trans rfl
private theorem stage_main_v51 (c : Dev nD) : after OPS (launchContents m c) (Proc.devRef .tc main_v51) = ReadP.val_main_v51 (F := Ideal) :=
  (Ssa.ssa_unary OPS W hW (launchContents m c) 69 main_cst_11 main_v51 _ _ _ rfl (nw 70 main_v51 (by decide)) (nw 69 main_cst_11 (by decide))).trans (by rewrite [stage_main_cst_11 m c]; rfl)
private theorem stage_main_v52 (c : Dev nD) : after OPS (launchContents m c) (Proc.devRef .tc main_v52) = ReadP.val_main_v52 (F := Ideal) (m ((c.tc : Thread nD τ).loc main_arg7)) (m ((c.tc : Thread nD τ).loc main_arg8)) :=
  (Ssa.ssa_binary OPS W hW (launchContents m c) 70 main_v51 main_v35 main_v52 _ _ _ _ rfl (nw 71 main_v52 (by decide)) (nw 70 main_v51 (by decide)) (nw 70 main_v35 (by decide))).trans (by rewrite [stage_main_v51 m c, stage_main_v35 m c]; rfl)
private theorem stage_main_v53 (c : Dev nD) : after OPS (launchContents m c) (Proc.devRef .tc main_v53) = ReadP.val_main_v53 (F := Ideal) (m ((c.tc : Thread nD τ).loc main_arg7)) (m ((c.tc : Thread nD τ).loc main_arg8)) :=
  (Ssa.ssa_unary OPS W hW (launchContents m c) 71 main_v52 main_v53 _ _ _ rfl (nw 72 main_v53 (by decide)) (nw 71 main_v52 (by decide))).trans (by rewrite [stage_main_v52 m c]; rfl)
private theorem stage_main_v54 (c : Dev nD) : after OPS (launchContents m c) (Proc.devRef .tc main_v54) = ReadP.val_main_v54 (F := Ideal) (m ((c.tc : Thread nD τ).loc main_arg6)) (m ((c.tc : Thread nD τ).loc main_arg7)) (m ((c.tc : Thread nD τ).loc main_arg8)) :=
  (Ssa.ssa_binary OPS W hW (launchContents m c) 72 main_arg6 main_v53 main_v54 _ _ _ _ rfl (nw 73 main_v54 (by decide)) (nw 72 main_arg6 (by decide)) (nw 72 main_v53 (by decide))).trans (by rewrite [arg6 m c, stage_main_v53 m c]; rfl)
private theorem stage_main_v55 (c : Dev nD) : after OPS (launchContents m c) (Proc.devRef .tc main_v55) = ReadP.val_main_v55 (F := Ideal) (m ((c.tc : Thread nD τ).loc main_arg7)) (m ((c.tc : Thread nD τ).loc main_arg8)) :=
  (Ssa.ssa_unary OPS W hW (launchContents m c) 73 main_v35 main_v55 _ _ _ rfl (nw 74 main_v55 (by decide)) (nw 73 main_v35 (by decide))).trans (by rewrite [stage_main_v35 m c]; rfl)
private theorem stage_main_v56 (c : Dev nD) : after OPS (launchContents m c) (Proc.devRef .tc main_v56) = ReadP.val_main_v56 (F := Ideal) (m ((c.tc : Thread nD τ).loc main_arg0)) (m ((c.tc : Thread nD τ).loc main_arg7)) (m ((c.tc : Thread nD τ).loc main_arg8)) :=
  (Ssa.ssa_binary OPS W hW (launchContents m c) 74 main_v12 main_v55 main_v56 _ _ _ _ rfl (nw 75 main_v56 (by decide)) (nw 74 main_v12 (by decide)) (nw 74 main_v55 (by decide))).trans (by rewrite [stage_main_v12 m c, stage_main_v55 m c]; rfl)
private theorem stage_main_v57 (c : Dev nD) : after OPS (launchContents m c) (Proc.devRef .tc main_v57) = ReadP.val_main_v57 (F := Ideal) (m ((c.tc : Thread nD τ).loc main_arg0)) (m ((c.tc : Thread nD τ).loc main_arg6)) (m ((c.tc : Thread nD τ).loc main_arg7)) (m ((c.tc : Thread nD τ).loc main_arg8)) :=
  (Ssa.ssa_binary OPS W hW (launchContents m c) 75 main_v54 main_v56 main_v57 _ _ _ _ rfl (nw 76 main_v57 (by decide)) (nw 75 main_v54 (by decide)) (nw 75 main_v56 (by decide))).trans (by rewrite [stage_main_v54 m c, stage_main_v56 m c]; rfl)
private theorem stage_main_v58 (c : Dev nD) : after OPS (launchContents m c) (Proc.devRef .tc main_v58) = ReadP.val_main_v58 (F := Ideal) (m ((c.tc : Thread nD τ).loc main_arg7)) (m ((c.tc : Thread nD τ).loc main_arg8)) :=
  (Ssa.ssa_binary OPS W hW (launchContents m c) 76 main_arg7 main_v3 main_v58 _ _ _ _ rfl (nw 77 main_v58 (by decide)) (nw 76 main_arg7 (by decide)) (nw 76 main_v3 (by decide))).trans (by rewrite [arg7 m c, stage_main_v3 m c]; rfl)
private theorem stage_main_v59 (c : Dev nD) : after OPS (launchContents m c) (Proc.devRef .tc main_v59) = ReadP.val_main_v59 (F := Ideal) (m ((c.tc : Thread nD τ).loc main_arg0)) (m ((c.tc : Thread nD τ).loc main_arg6)) (m ((c.tc : Thread nD τ).loc main_arg7)) (m ((c.tc : Thread nD τ).loc main_arg8)) :=
  (Ssa.ssa_unary OPS W hW (launchContents m c) 77 main_v57 main_v59 _ _ _ rfl (nw 78 main_v59 (by decide)) (nw 77 main_v57 (by decide))).trans (by rewrite [stage_main_v57 m c]; rfl)
private theorem stage_main_v60 (c : Dev nD) : after OPS (launchContents m c) (Proc.devRef .tc main_v60) = ReadP.val_main_v60 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 78 main_v50 main_v60 _ _ _ rfl (nw 79 main_v60 (by decide)) (nw 78 main_v50 (by decide))).trans (by rewrite [stage_main_v50 m c]; rfl)
private theorem stage_main_v61 (c : Dev nD) : after OPS (launchContents m c) (Proc.devRef .tc main_v61) = ReadP.val_main_v61 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 79 main_v60 main_v61 _ _ _ rfl (nw 80 main_v61 (by decide)) (nw 79 main_v60 (by decide))).trans (by rewrite [stage_main_v60 m c]; rfl)
private theorem stage_main_v62 (c : Dev nD) : after OPS (launchContents m c) (Proc.devRef .tc main_v62) = ReadP.val_main_v62 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 80 main_v61 main_arg1 main_v62 _ _ _ _ rfl (nw 81 main_v62 (by decide)) (nw 80 main_v61 (by decide)) (nw 80 main_arg1 (by decide))).trans (by rewrite [stage_main_v61 m c, arg1 m c]; rfl)
private theorem stage_main_v63 (c : Dev nD) : after OPS (launchContents m c) (Proc.devRef .tc main_v63) = ReadP.val_main_v63 (F := Ideal) (m ((c.tc : Thread nD τ).loc main_arg0)) (m ((c.tc : Thread nD τ).loc main_arg6)) (m ((c.tc : Thread nD τ).loc main_arg7)) (m ((c.tc : Thread nD τ).loc main_arg8)) :=
  (Ssa.ssa_unary OPS W hW (launchContents m c) 81 main_v59 main_v63 _ _ _ rfl (nw 82 main_v63 (by decide)) (nw 81 main_v59 (by decide))).trans (by rewrite [stage_main_v59 m c]; rfl)
private theorem stage_main_v64 (c : Dev nD) : after OPS (launchContents m c) (Proc.devRef .tc main_v64) = ReadP.val_main_v64 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 82 main_v63 main_v62 main_v64 _ _ _ _ rfl (nw 83 main_v64 (by decide)) (nw 82 main_v63 (by decide)) (nw 82 main_v62 (by decide))).trans (by rewrite [stage_main_v63 m c, stage_main_v62 m c]; rfl)
private theorem stage_main_v65 (c : Dev nD) : after OPS (launchContents m c) (Proc.devRef .tc main_v65) = ReadP.val_main_v65 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) :=
  (Ssa.ssa_reshape OPS W hW (launchContents m c) 83 main_v64 main_v65 rfl shapeCasts_S2x1000x1024_S2000x1024 _ _ rfl (nw 84 main_v65 (by decide)) (nw 83 main_v64 (by decide))).trans (by rewrite [stage_main_v64 m c]; rfl)
private theorem stage_main_v66 (c : Dev nD) : after OPS (launchContents m c) (Proc.devRef .tc main_v66) = ReadP.val_main_v66 (F := Ideal) :=
  (Ssa.ssa_nullary OPS W hW (launchContents m c) 84 main_v66 _ _ rfl (nw 85 main_v66 (by decide))).trans rfl
private theorem stage_main_v67 (c : Dev nD) : after OPS (launchContents m c) (Proc.devRef .tc main_v67) = ReadP.val_main_v67 (F := Ideal) :=
  (Ssa.ssa_reshape OPS W hW (launchContents m c) 85 main_v66 main_v67 rfl shapeCasts_S1000_S1x1000 _ _ rfl (nw 86 main_v67 (by decide)) (nw 85 main_v66 (by decide))).trans (by rewrite [stage_main_v66 m c]; rfl)
private theorem stage_main_v68 (c : Dev nD) : after OPS (launchContents m c) (Proc.devRef .tc main_v68) = ReadP.val_main_v68 (F := Ideal) :=
  (Ssa.ssa_unary OPS W hW (launchContents m c) 86 main_v67 main_v68 _ _ _ rfl (nw 87 main_v68 (by decide)) (nw 86 main_v67 (by decide))).trans (by rewrite [stage_main_v67 m c]; rfl)
private theorem stage_main_v69 (c : Dev nD) : after OPS (launchContents m c) (Proc.devRef .tc main_v69) = ReadP.val_main_v69 (F := Ideal) :=
  (Ssa.ssa_reshape OPS W hW (launchContents m c) 87 main_v68 main_v69 rfl shapeCasts_S2x1000_S2000 _ _ rfl (nw 88 main_v69 (by decide)) (nw 87 main_v68 (by decide))).trans (by rewrite [stage_main_v68 m c]; rfl)
private theorem stage_main_v70 (c : Dev nD) : after OPS (launchContents m c) (Proc.devRef .tc main_v70) = ReadP.val_main_v70 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 88 main_arg0 main_v65 main_v70 _ _ _ _ rfl (nw 89 main_v70 (by decide)) (nw 88 main_arg0 (by decide)) (nw 88 main_v65 (by decide))).trans (by rewrite [arg0 m c, stage_main_v65 m c]; rfl)
private theorem stage_main_v71 (c : Dev nD) : after OPS (launchContents m c) (Proc.devRef .tc main_v71) = ReadP.val_main_v71 (F := Ideal) (m ((c.tc : Thread nD τ).loc main_arg8)) :=
  (Ssa.ssa_binary OPS W hW (launchContents m c) 89 main_arg8 main_v69 main_v71 _ _ _ _ rfl (nw 90 main_v71 (by decide)) (nw 89 main_arg8 (by decide)) (nw 89 main_v69 (by decide))).trans (by rewrite [arg8 m c, stage_main_v69 m c]; rfl)
private theorem stage_main_v72 (c : Dev nD) : after OPS (launchContents m c) (Proc.devRef .tc main_v72) = ReadP.val_main_v72 (F := Ideal) (m ((c.tc : Thread nD τ).loc main_arg2)) :=
  (Ssa.ssa_unary OPS W hW (launchContents m c) 90 main_arg2 main_v72 _ _ _ rfl (nw 91 main_v72 (by decide)) (nw 90 main_arg2 (by decide))).trans (by rewrite [arg2 m c]; rfl)
private theorem stage_main_v73 (c : Dev nD) : after OPS (launchContents m c) (Proc.devRef .tc main_v73) = ReadP.val_main_v73 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 91 main_v70 main_v72 main_v73 _ _ _ _ rfl (nw 92 main_v73 (by decide)) (nw 91 main_v70 (by decide)) (nw 91 main_v72 (by decide))).trans (by rewrite [stage_main_v70 m c, stage_main_v72 m c]; rfl)
private theorem stage_main_v74 (c : Dev nD) : after OPS (launchContents m c) (Proc.devRef .tc main_v74) = ReadP.val_main_v74 (F := Ideal) (m ((c.tc : Thread nD τ).loc main_arg3)) :=
  (Ssa.ssa_unary OPS W hW (launchContents m c) 92 main_arg3 main_v74 _ _ _ rfl (nw 93 main_v74 (by decide)) (nw 92 main_arg3 (by decide))).trans (by rewrite [arg3 m c]; rfl)
private theorem stage_main_v75 (c : Dev nD) : after OPS (launchContents m c) (Proc.devRef .tc main_v75) = ReadP.val_main_v75 (F := Ideal) (m ((c.tc : Thread nD τ).loc main_arg3)) :=
  (Ssa.ssa_unary OPS W hW (launchContents m c) 93 main_v74 main_v75 _ _ _ rfl (nw 94 main_v75 (by decide)) (nw 93 main_v74 (by decide))).trans (by rewrite [stage_main_v74 m c]; rfl)
private theorem stage_main_v76 (c : Dev nD) : after OPS (launchContents m c) (Proc.devRef .tc main_v76) = ReadP.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 94 main_v73 main_v75 main_v76 _ _ _ _ rfl (nw 95 main_v76 (by decide)) (nw 94 main_v73 (by decide)) (nw 94 main_v75 (by decide))).trans (by rewrite [stage_main_v73 m c, stage_main_v75 m c]; rfl)
private theorem stage_main_v77 (c : Dev nD) : after OPS (launchContents m c) (Proc.devRef .tc main_v77) = ReadP.val_main_v77 (F := Ideal) (m ((c.tc : Thread nD τ).loc main_arg4)) :=
  (Ssa.ssa_unary OPS W hW (launchContents m c) 95 main_arg4 main_v77 _ _ _ rfl (nw 96 main_v77 (by decide)) (nw 95 main_arg4 (by decide))).trans (by rewrite [arg4 m c]; rfl)
private theorem stage_main_v78 (c : Dev nD) : after OPS (launchContents m c) (Proc.devRef .tc main_v78) = ReadP.val_main_v78 (F := Ideal) (m ((c.tc : Thread nD τ).loc main_arg4)) :=
  (Ssa.ssa_unary OPS W hW (launchContents m c) 96 main_v77 main_v78 _ _ _ rfl (nw 97 main_v78 (by decide)) (nw 96 main_v77 (by decide))).trans (by rewrite [stage_main_v77 m c]; rfl)
private theorem stage_main_v79 (c : Dev nD) : after OPS (launchContents m c) (Proc.devRef .tc main_v79) = ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 97 main_v76 main_v78 main_v79 _ _ _ _ rfl (nw 98 main_v79 (by decide)) (nw 97 main_v76 (by decide)) (nw 97 main_v78 (by decide))).trans (by rewrite [stage_main_v76 m c, stage_main_v78 m c]; rfl)
private theorem stage_main_call2_cst (c : Dev nD) : after OPS (launchContents m c) (Proc.devRef .tc main_call2_cst) = ReadP.val_main_call2_cst (F := Ideal) :=
  (Ssa.ssa_nullary OPS W hW (launchContents m c) 98 main_call2_cst _ _ (Eq.trans rfl (congrArg (· :: List.drop (98 + 1) OPS) (tref_nullary _))) (nw 99 main_call2_cst (by decide))).trans rfl
private theorem stage_main_call2_v0 (c : Dev nD) : after OPS (launchContents m c) (Proc.devRef .tc main_call2_v0) = ReadP.val_main_call2_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 99 main_v79 main_call2_cst main_call2_v0 _ _ _ _ (Eq.trans rfl (congrArg (· :: List.drop (99 + 1) OPS) (tref_binary _))) (nw 100 main_call2_v0 (by decide)) (nw 99 main_v79 (by decide)) (nw 99 main_call2_cst (by decide))).trans (by rewrite [stage_main_v79 m c, stage_main_call2_cst m c]; rfl)
private theorem stage_main_call2_cst_0 (c : Dev nD) : after OPS (launchContents m c) (Proc.devRef .tc main_call2_cst_0) = ReadP.val_main_call2_cst_0 (F := Ideal) :=
  (Ssa.ssa_nullary OPS W hW (launchContents m c) 100 main_call2_cst_0 _ _ (Eq.trans rfl (congrArg (· :: List.drop (100 + 1) OPS) (tref_nullary _))) (nw 101 main_call2_cst_0 (by decide))).trans rfl
private theorem stage_main_call2_v1 (c : Dev nD) : after OPS (launchContents m c) (Proc.devRef .tc main_call2_v1) = ReadP.val_main_call2_v1 (F := Ideal) :=
  (Ssa.ssa_unary OPS W hW (launchContents m c) 101 main_call2_cst_0 main_call2_v1 _ _ _ (Eq.trans rfl (congrArg (· :: List.drop (101 + 1) OPS) (tref_unary _))) (nw 102 main_call2_v1 (by decide)) (nw 101 main_call2_cst_0 (by decide))).trans (by rewrite [stage_main_call2_cst_0 m c]; rfl)
private theorem stage_main_call2_v2 (c : Dev nD) : after OPS (launchContents m c) (Proc.devRef .tc main_call2_v2) = ReadP.val_main_call2_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 102 main_call2_v1 main_call2_v0 main_call2_v2 _ _ _ _ (Eq.trans rfl (congrArg (· :: List.drop (102 + 1) OPS) (tref_binary _))) (nw 103 main_call2_v2 (by decide)) (nw 102 main_call2_v1 (by decide)) (nw 102 main_call2_v0 (by decide))).trans (by rewrite [stage_main_call2_v1 m c, stage_main_call2_v0 m c]; rfl)
private theorem stage_main_call2_v3 (c : Dev nD) : after OPS (launchContents m c) (Proc.devRef .tc main_call2_v3) = ReadP.val_main_call2_v3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 103 main_call2_v2 main_call2_v3 _ _ _ (Eq.trans rfl (congrArg (· :: List.drop (103 + 1) OPS) (tref_unary _))) (nw 104 main_call2_v3 (by decide)) (nw 103 main_call2_v2 (by decide))).trans (by rewrite [stage_main_call2_v2 m c]; rfl)
private theorem stage_main_call2_v4 (c : Dev nD) : after OPS (launchContents m c) (Proc.devRef .tc main_call2_v4) = ReadP.val_main_call2_v4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 104 main_call2_v3 main_call2_v4 _ _ _ (Eq.trans rfl (congrArg (· :: List.drop (104 + 1) OPS) (tref_unary _))) (nw 105 main_call2_v4 (by decide)) (nw 104 main_call2_v3 (by decide))).trans (by rewrite [stage_main_call2_v3 m c]; rfl)
private theorem stage_main_call2_v5 (c : Dev nD) : after OPS (launchContents m c) (Proc.devRef .tc main_call2_v5) = ReadP.val_main_call2_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 105 main_v79 main_call2_v4 main_call2_v5 _ _ _ _ (Eq.trans rfl (congrArg (· :: List.drop (105 + 1) OPS) (tref_binary _))) (nw 106 main_call2_v5 (by decide)) (nw 105 main_v79 (by decide)) (nw 105 main_call2_v4 (by decide))).trans (by rewrite [stage_main_v79 m c, stage_main_call2_v4 m c]; rfl)
private theorem stage_main_call2_v6 (c : Dev nD) : after OPS (launchContents m c) (Proc.devRef .tc main_call2_v6) = ReadP.val_main_call2_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 106 main_call2_v5 main_call2_v6 _ _ _ (Eq.trans rfl (congrArg (· :: List.drop (106 + 1) OPS) (tref_unary _))) (nw 107 main_call2_v6 (by decide)) (nw 106 main_call2_v5 (by decide))).trans (by rewrite [stage_main_call2_v5 m c]; rfl)
private theorem stage_main_call2_cst_1 (c : Dev nD) : after OPS (launchContents m c) (Proc.devRef .tc main_call2_cst_1) = ReadP.val_main_call2_cst_1 (F := Ideal) :=
  (Ssa.ssa_nullary OPS W hW (launchContents m c) 107 main_call2_cst_1 _ _ (Eq.trans rfl (congrArg (· :: List.drop (107 + 1) OPS) (tref_nullary _))) (nw 108 main_call2_cst_1 (by decide))).trans rfl
private theorem stage_main_call2_v7 (c : Dev nD) : after OPS (launchContents m c) (Proc.devRef .tc main_call2_v7) = ReadP.val_main_call2_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 108 main_call2_v6 main_call2_cst_1 main_call2_v7 _ _ _ _ (Eq.trans rfl (congrArg (· :: List.drop (108 + 1) OPS) (tref_binary _))) (nw 109 main_call2_v7 (by decide)) (nw 108 main_call2_v6 (by decide)) (nw 108 main_call2_cst_1 (by decide))).trans (by rewrite [stage_main_call2_v6 m c, stage_main_call2_cst_1 m c]; rfl)
private theorem stage_main_call2_v8 (c : Dev nD) : after OPS (launchContents m c) (Proc.devRef .tc main_call2_v8) = ReadP.val_main_call2_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 109 main_call2_v7 main_call2_v8 _ _ _ (Eq.trans rfl (congrArg (· :: List.drop (109 + 1) OPS) (tref_unary _))) (nw 110 main_call2_v8 (by decide)) (nw 109 main_call2_v7 (by decide))).trans (by rewrite [stage_main_call2_v7 m c]; rfl)
private theorem stage_main_call2_v9 (c : Dev nD) : after OPS (launchContents m c) (Proc.devRef .tc main_call2_v9) = ReadP.val_main_call2_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 110 main_call2_v8 main_call2_v9 _ _ _ (Eq.trans rfl (congrArg (· :: List.drop (110 + 1) OPS) (tref_unary _))) (nw 111 main_call2_v9 (by decide)) (nw 110 main_call2_v8 (by decide))).trans (by rewrite [stage_main_call2_v8 m c]; rfl)
private theorem stage_main_call2_v10 (c : Dev nD) : after OPS (launchContents m c) (Proc.devRef .tc main_call2_v10) = ReadP.val_main_call2_v10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 111 main_call2_v9 main_call2_v10 _ _ _ (Eq.trans rfl (congrArg (· :: List.drop (111 + 1) OPS) (tref_unary _))) (nw 112 main_call2_v10 (by decide)) (nw 111 main_call2_v9 (by decide))).trans (by rewrite [stage_main_call2_v9 m c]; rfl)
private theorem stage_main_v80 (c : Dev nD) : after OPS (launchContents m c) (Proc.devRef .tc main_v80) = ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 112 main_call2_v5 main_call2_v10 main_v80 _ _ _ _ (Eq.trans rfl (congrArg (· :: List.drop (112 + 1) OPS) (tref_binary _))) (nw 113 main_v80 (by decide)) (nw 112 main_call2_v5 (by decide)) (nw 112 main_call2_v10 (by decide))).trans (by rewrite [stage_main_call2_v5 m c, stage_main_call2_v10 m c]; rfl)
private theorem stage_main_v81 (c : Dev nD) : after OPS (launchContents m c) (Proc.devRef .tc main_v81) = ReadP.val_main_v81 (F := Ideal) (m ((c.tc : Thread nD τ).loc main_arg8)) :=
  (Ssa.ssa_unary OPS W hW (launchContents m c) 113 main_v71 main_v81 _ _ _ rfl (nw 114 main_v81 (by decide)) (nw 113 main_v71 (by decide))).trans (by rewrite [stage_main_v71 m c]; rfl)
private theorem stage_main_call3_c (c : Dev nD) : after OPS (launchContents m c) (Proc.devRef .tc main_call3_c) = ReadP.val_main_call3_c (F := Ideal) :=
  (Ssa.ssa_nullary OPS W hW (launchContents m c) 114 main_call3_c _ _ (Eq.trans rfl (congrArg (· :: List.drop (114 + 1) OPS) (tref_nullary _))) (nw 115 main_call3_c (by decide))).trans rfl
private theorem stage_main_call3_v0 (c : Dev nD) : after OPS (launchContents m c) (Proc.devRef .tc main_call3_v0) = ReadP.val_main_call3_v0 (F := Ideal) :=
  (Ssa.ssa_unary OPS W hW (launchContents m c) 115 main_call3_c main_call3_v0 _ _ _ (Eq.trans rfl (congrArg (· :: List.drop (115 + 1) OPS) (tref_unary _))) (nw 116 main_call3_v0 (by decide)) (nw 115 main_call3_c (by decide))).trans (by rewrite [stage_main_call3_c m c]; rfl)
private theorem stage_main_call3_v1 (c : Dev nD) : after OPS (launchContents m c) (Proc.devRef .tc main_call3_v1) = ReadP.val_main_call3_v1 (F := Ideal) (m ((c.tc : Thread nD τ).loc main_arg8)) :=
  (Ssa.ssa_binary OPS W hW (launchContents m c) 116 main_v81 main_call3_v0 main_call3_v1 _ _ _ _ (Eq.trans rfl (congrArg (· :: List.drop (116 + 1) OPS) (tref_binary _))) (nw 117 main_call3_v1 (by decide)) (nw 116 main_v81 (by decide)) (nw 116 main_call3_v0 (by decide))).trans (by rewrite [stage_main_v81 m c, stage_main_call3_v0 m c]; rfl)
private theorem stage_main_call3_c_0 (c : Dev nD) : after OPS (launchContents m c) (Proc.devRef .tc main_call3_c_0) = ReadP.val_main_call3_c_0 (F := Ideal) :=
  (Ssa.ssa_nullary OPS W hW (launchContents m c) 117 main_call3_c_0 _ _ (Eq.trans rfl (congrArg (· :: List.drop (117 + 1) OPS) (tref_nullary _))) (nw 118 main_call3_c_0 (by decide))).trans rfl
private theorem stage_main_call3_v2 (c : Dev nD) : after OPS (launchContents m c) (Proc.devRef .tc main_call3_v2) = ReadP.val_main_call3_v2 (F := Ideal) :=
  (Ssa.ssa_unary OPS W hW (launchContents m c) 118 main_call3_c_0 main_call3_v2 _ _ _ (Eq.trans rfl (congrArg (· :: List.drop (118 + 1) OPS) (tref_unary _))) (nw 119 main_call3_v2 (by decide)) (nw 118 main_call3_c_0 (by decide))).trans (by rewrite [stage_main_call3_c_0 m c]; rfl)
private theorem stage_main_call3_v3 (c : Dev nD) : after OPS (launchContents m c) (Proc.devRef .tc main_call3_v3) = ReadP.val_main_call3_v3 (F := Ideal) (m ((c.tc : Thread nD τ).loc main_arg8)) :=
  (Ssa.ssa_binary OPS W hW (launchContents m c) 119 main_v81 main_call3_v2 main_call3_v3 _ _ _ _ (Eq.trans rfl (congrArg (· :: List.drop (119 + 1) OPS) (tref_binary _))) (nw 120 main_call3_v3 (by decide)) (nw 119 main_v81 (by decide)) (nw 119 main_call3_v2 (by decide))).trans (by rewrite [stage_main_v81 m c, stage_main_call3_v2 m c]; rfl)
private theorem stage_main_call3_v4 (c : Dev nD) : after OPS (launchContents m c) (Proc.devRef .tc main_call3_v4) = ReadP.val_main_call3_v4 (F := Ideal) (m ((c.tc : Thread nD τ).loc main_arg8)) :=
  (Ssa.ssa_ternary OPS W hW (launchContents m c) 120 main_call3_v1 main_call3_v3 main_v81 main_call3_v4 _ _ _ _ _ (Eq.trans rfl (congrArg (· :: List.drop (120 + 1) OPS) (tref_ternary _))) (nw 121 main_call3_v4 (by decide)) (nw 120 main_call3_v1 (by decide)) (nw 120 main_call3_v3 (by decide)) (nw 120 main_v81 (by decide))).trans (by rewrite [stage_main_call3_v1 m c, stage_main_call3_v3 m c, stage_main_v81 m c]; rfl)
private theorem stage_main_call3_v5 (c : Dev nD) : after OPS (launchContents m c) (Proc.devRef .tc main_call3_v5) = ReadP.val_main_call3_v5 (F := Ideal) (m ((c.tc : Thread nD τ).loc main_arg8)) :=
  (Ssa.ssa_reshape OPS W hW (launchContents m c) 121 main_call3_v4 main_call3_v5 rfl shapeCasts_S67536x1_S67536x1x1 _ _ (Eq.trans rfl (congrArg (· :: List.drop (121 + 1) OPS) (tref_reshape _ _))) (nw 122 main_call3_v5 (by decide)) (nw 121 main_call3_v4 (by decide))).trans (by rewrite [stage_main_call3_v4 m c]; rfl)
private theorem stage_main_call3_c_1 (c : Dev nD) : after OPS (launchContents m c) (Proc.devRef .tc main_call3_c_1) = ReadP.val_main_call3_c_1 (F := Ideal) :=
  (Ssa.ssa_nullary OPS W hW (launchContents m c) 122 main_call3_c_1 _ _ (Eq.trans rfl (congrArg (· :: List.drop (122 + 1) OPS) (tref_nullary _))) (nw 123 main_call3_c_1 (by decide))).trans rfl
private theorem stage_main_call3_c_2 (c : Dev nD) : after OPS (launchContents m c) (Proc.devRef .tc main_call3_c_2) = ReadP.val_main_call3_c_2 (F := Ideal) :=
  (Ssa.ssa_nullary OPS W hW (launchContents m c) 123 main_call3_c_2 _ _ (Eq.trans rfl (congrArg (· :: List.drop (123 + 1) OPS) (tref_nullary _))) (nw 124 main_call3_c_2 (by decide))).trans rfl
private theorem stage_main_call3_v6 (c : Dev nD) : after OPS (launchContents m c) (Proc.devRef .tc main_call3_v6) = ReadP.val_main_call3_v6 (F := Ideal) :=
  (Ssa.ssa_unary OPS W hW (launchContents m c) 124 main_call3_c_2 main_call3_v6 _ _ _ (Eq.trans rfl (congrArg (· :: List.drop (124 + 1) OPS) (tref_unary _))) (nw 125 main_call3_v6 (by decide)) (nw 124 main_call3_c_2 (by decide))).trans (by rewrite [stage_main_call3_c_2 m c]; rfl)
private theorem stage_main_call3_v7 (c : Dev nD) : after OPS (launchContents m c) (Proc.devRef .tc main_call3_v7) = ReadP.val_main_call3_v7 (F := Ideal) (m ((c.tc : Thread nD τ).loc main_arg8)) :=
  (Ssa.ssa_binary OPS W hW (launchContents m c) 125 main_call3_v5 main_call3_v6 main_call3_v7 _ _ _ _ (Eq.trans rfl (congrArg (· :: List.drop (125 + 1) OPS) (tref_binary _))) (nw 126 main_call3_v7 (by decide)) (nw 125 main_call3_v5 (by decide)) (nw 125 main_call3_v6 (by decide))).trans (by rewrite [stage_main_call3_v5 m c, stage_main_call3_v6 m c]; rfl)
private theorem stage_main_call3_v8 (c : Dev nD) : after OPS (launchContents m c) (Proc.devRef .tc main_call3_v8) = ReadP.val_main_call3_v8 (F := Ideal) :=
  (Ssa.ssa_unary OPS W hW (launchContents m c) 126 main_call3_c_1 main_call3_v8 _ _ _ (Eq.trans rfl (congrArg (· :: List.drop (126 + 1) OPS) (tref_unary _))) (nw 127 main_call3_v8 (by decide)) (nw 126 main_call3_c_1 (by decide))).trans (by rewrite [stage_main_call3_c_1 m c]; rfl)
private theorem stage_main_call3_v9 (c : Dev nD) : after OPS (launchContents m c) (Proc.devRef .tc main_call3_v9) = ReadP.val_main_call3_v9 (F := Ideal) :=
  (Ssa.ssa_unary OPS W hW (launchContents m c) 127 main_call3_v8 main_call3_v9 _ _ _ (Eq.trans rfl (congrArg (· :: List.drop (127 + 1) OPS) (tref_unary _))) (nw 128 main_call3_v9 (by decide)) (nw 127 main_call3_v8 (by decide))).trans (by rewrite [stage_main_call3_v8 m c]; rfl)
private theorem stage_main_call3_v10 (c : Dev nD) : after OPS (launchContents m c) (Proc.devRef .tc main_call3_v10) = ReadP.val_main_call3_v10 (F := Ideal) (m ((c.tc : Thread nD τ).loc main_arg8)) :=
  (Ssa.ssa_binary OPS W hW (launchContents m c) 128 main_call3_v5 main_call3_v9 main_call3_v10 _ _ _ _ (Eq.trans rfl (congrArg (· :: List.drop (128 + 1) OPS) (tref_binary _))) (nw 129 main_call3_v10 (by decide)) (nw 128 main_call3_v5 (by decide)) (nw 128 main_call3_v9 (by decide))).trans (by rewrite [stage_main_call3_v5 m c, stage_main_call3_v9 m c]; rfl)
private theorem stage_main_call3_v11 (c : Dev nD) : after OPS (launchContents m c) (Proc.devRef .tc main_call3_v11) = ReadP.val_main_call3_v11 (F := Ideal) (m ((c.tc : Thread nD τ).loc main_arg8)) :=
  (Ssa.ssa_binary OPS W hW (launchContents m c) 129 main_call3_v7 main_call3_v10 main_call3_v11 _ _ _ _ (Eq.trans rfl (congrArg (· :: List.drop (129 + 1) OPS) (tref_binary _))) (nw 130 main_call3_v11 (by decide)) (nw 129 main_call3_v7 (by decide)) (nw 129 main_call3_v10 (by decide))).trans (by rewrite [stage_main_call3_v7 m c, stage_main_call3_v10 m c]; rfl)
private theorem stage_main_call3_c_3 (c : Dev nD) : after OPS (launchContents m c) (Proc.devRef .tc main_call3_c_3) = ReadP.val_main_call3_c_3 (F := Ideal) :=
  (Ssa.ssa_nullary OPS W hW (launchContents m c) 130 main_call3_c_3 _ _ (Eq.trans rfl (congrArg (· :: List.drop (130 + 1) OPS) (tref_nullary _))) (nw 131 main_call3_c_3 (by decide))).trans rfl
private theorem stage_main_call3_v12 (c : Dev nD) : after OPS (launchContents m c) (Proc.devRef .tc main_call3_v12) = ReadP.val_main_call3_v12 (F := Ideal) (m ((c.tc : Thread nD τ).loc main_arg8)) :=
  (Ssa.ssa_binary OPS W hW (launchContents m c) 131 main_call3_v11 main_call3_c_3 main_call3_v12 _ _ _ _ (Eq.trans rfl (congrArg (· :: List.drop (131 + 1) OPS) (tref_binary _))) (nw 132 main_call3_v12 (by decide)) (nw 131 main_call3_v11 (by decide)) (nw 131 main_call3_c_3 (by decide))).trans (by rewrite [stage_main_call3_v11 m c, stage_main_call3_c_3 m c]; rfl)
private theorem stage_main_call3_v13 (c : Dev nD) : after OPS (launchContents m c) (Proc.devRef .tc main_call3_v13) = ReadP.val_main_call3_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 132 main_v80 main_call3_v5 main_call3_v13 _ _ _ _ (Eq.trans rfl (congrArg (· :: List.drop (132 + 1) OPS) (tref_binary _))) (nw 133 main_call3_v13 (by decide)) (nw 132 main_v80 (by decide)) (nw 132 main_call3_v5 (by decide))).trans (by rewrite [stage_main_v80 m c, stage_main_call3_v5 m c]; rfl)
private theorem stage_main_call3_cst (c : Dev nD) : after OPS (launchContents m c) (Proc.devRef .tc main_call3_cst) = ReadP.val_main_call3_cst (F := Ideal) :=
  (Ssa.ssa_nullary OPS W hW (launchContents m c) 133 main_call3_cst _ _ (Eq.trans rfl (congrArg (· :: List.drop (133 + 1) OPS) (tref_nullary _))) (nw 134 main_call3_cst (by decide))).trans rfl
private theorem stage_main_call3_v14 (c : Dev nD) : after OPS (launchContents m c) (Proc.devRef .tc main_call3_v14) = ReadP.val_main_call3_v14 (F := Ideal) :=
  (Ssa.ssa_unary OPS W hW (launchContents m c) 134 main_call3_cst main_call3_v14 _ _ _ (Eq.trans rfl (congrArg (· :: List.drop (134 + 1) OPS) (tref_unary _))) (nw 135 main_call3_v14 (by decide)) (nw 134 main_call3_cst (by decide))).trans (by rewrite [stage_main_call3_cst m c]; rfl)
private theorem stage_main_v82 (c : Dev nD) : after OPS (launchContents m c) (Proc.devRef .tc main_v82) = ReadP.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_ternary OPS W hW (launchContents m c) 135 main_call3_v12 main_call3_v13 main_call3_v14 main_v82 _ _ _ _ _ (Eq.trans rfl (congrArg (· :: List.drop (135 + 1) OPS) (tref_ternary _))) (nw 136 main_v82 (by decide)) (nw 135 main_call3_v12 (by decide)) (nw 135 main_call3_v13 (by decide)) (nw 135 main_call3_v14 (by decide))).trans (by rewrite [stage_main_call3_v12 m c, stage_main_call3_v13 m c, stage_main_call3_v14 m c]; rfl)
private theorem stage_main_cst_12 (c : Dev nD) : after OPS (launchContents m c) (Proc.devRef .tc main_cst_12) = ReadP.val_main_cst_12 (F := Ideal) :=
  (Ssa.ssa_nullary OPS W hW (launchContents m c) 136 main_cst_12 _ _ rfl (nw 137 main_cst_12 (by decide))).trans rfl
private theorem stage_main_v83 (c : Dev nD) : after OPS (launchContents m c) (Proc.devRef .tc main_v83) = ReadP.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 137 main_v82 main_cst_12 main_v83 _ _ _ _ rfl (nw 138 main_v83 (by decide)) (nw 137 main_v82 (by decide)) (nw 137 main_cst_12 (by decide))).trans (by rewrite [stage_main_v82 m c, stage_main_cst_12 m c]; rfl)
private theorem stage_main_cst_13 (c : Dev nD) : after OPS (launchContents m c) (Proc.devRef .tc main_cst_13) = ReadP.val_main_cst_13 (F := Ideal) :=
  (Ssa.ssa_nullary OPS W hW (launchContents m c) 138 main_cst_13 _ _ rfl (nw 139 main_cst_13 (by decide))).trans rfl
private theorem stage_main_v84 (c : Dev nD) : after OPS (launchContents m c) (Proc.devRef .tc main_v84) = ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_binary OPS W hW (launchContents m c) 139 main_v83 main_cst_13 main_v84 _ _ _ _ rfl (nw 140 main_v84 (by decide)) (nw 139 main_v83 (by decide)) (nw 139 main_cst_13 (by decide))).trans (by rewrite [stage_main_v83 m c, stage_main_cst_13 m c]; rfl)
private theorem stage_main_v85 (c : Dev nD) : after OPS (launchContents m c) (Proc.devRef .tc main_v85) = ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Ssa.ssa_unary OPS W hW (launchContents m c) 140 main_v84 main_v85 _ _ _ rfl (nw 141 main_v85 (by decide)) (nw 140 main_v84 (by decide))).trans (by rewrite [stage_main_v84 m c]; rfl)

/-! ## The result -/

/-- After the line the result buffer holds the last stage of the arguments. -/
theorem last_stage (c : Dev nD) :
    after (Cert.ReferenceIdeal.ValueL.ops (F := Ideal)) (launchContents m c) (Proc.devRef .tc main_v85)
      = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  stage_main_v85 m c

/-- The run, read: the result at the last stage of the arguments, the arguments unchanged. -/
theorem run : θ_run defs (onTc (τ := τ) (main (F := Ideal))) ⟨m, fun _ => 0, ρ⟩ fun r => ∀ c : Dev nD,
      r.2.mem ((c.tc : Thread nD τ).loc main_v85)
        = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v85).trans (last_stage m c),
      (h c main_arg0).trans (arg0 m c), (h c main_arg1).trans (arg1 m c), (h c main_arg2).trans (arg2 m c),
      (h c main_arg3).trans (arg3 m c), (h c main_arg4).trans (arg4 m c), (h c main_arg5).trans (arg5 m c),
      (h c main_arg6).trans (arg6 m c), (h c main_arg7).trans (arg7 m c), (h c main_arg8).trans (arg8 m c)⟩)
    (run_seq Cert.ReferenceIdeal.ValueL.scopedRefs_eq Cert.ReferenceIdeal.ValueL.scopedSems_eq defs main
      (fun _ => Cert.ReferenceIdeal.ValueL.ops) Cert.ReferenceIdeal.ValueL.main_eq
      (fun _ => Cert.ReferenceIdeal.ValueL.ops_sub) m ρ)

end Cert.ReferenceIdeal.Stages

end
-- ==== Proof.Chain.lean ====
/-
  The host arithmetic the two programs share, each step as one function of the values going in, spelt with the
  operations the programs print: the class counts (a scatter-add of ones by label), the count clamped to one for an
  empty class, the class mean (sum over clamped count), the variance with its replacement of non-positive entries by
  1e-10, the mixing weight cnt / (cnt + amount_prior + 1e-10), the new covariance and mean, and the augmented rows
  new_mean + new_cov * eps laid out as 2000 rows, with their labels 0..999 twice.
  The kernel's program and the reference differ only in what they feed in (how the class sums and the variance are
  obtained) and in how the loss is taken off the rows; the steps here are common to both.
-/
import proofs.«415097_j5265629905347_2_alg».proof.KernelIdeal

noncomputable section

namespace Cert.KernelIdeal.Chain

open Cert.KernelIdeal Idealize.ShloMosaic

variable {F : FTy → Type} [FloatOps F]
-- the shape facts the program states (broadcasts, reshapes, the scatter's dimension numbers)
variable [Facts]
open Facts₀ Facts

/-- The contents of a buffer of shape `s` and element type `e`. -/
abbrev Arr (F : FTy → Type) [FloatOps F] (s : Shape) (e : EltTy) : Type := (⟨s, e⟩ : BufTy).Contents (Elt F)

/-- The class counts: ones scattered and added by label. -/
def cnt (lbl : Arr F S65536 .i32) : Arr F S1000 .f32 :=
  Host.scatterAdd scatter_S1000_S65536x1_S65536_n_0_0_1
    (broadcastInDim S1000 ![] bcast_S_S1000 (constant S_ .f32 0x00000000#32))
    (broadcastInDim S65536x1 ![0] bcast_S65536_S65536x1_0 lbl)
    (broadcastInDim S65536 ![] bcast_S_S65536 (constant S_ .f32 0x3F800000#32))

/-- The count, with an empty class's zero replaced by one. -/
def cntc (n : Arr F S1000 .f32) : Arr F S1000 .f32 :=
  select (cmpf .oeq n (broadcastInDim S1000 ![] bcast_S_S1000 (constant S_ .f32 0x00000000#32)))
    (broadcastInDim S1000 ![] bcast_S_S1000 (id (constant S_ .f32 0x3F800000#32))) n

/-- A per-class value repeated along the 1024 features. -/
def rep (v : Arr F S1000 .f32) : Arr F S1000x1024 .f32 :=
  broadcastInDim S1000x1024 ![0, 1] bcast_S1000x1_S1000x1024_0_1 (broadcastInDim S1000x1 ![0] bcast_S1000_S1000x1_0 v)

/-- The class mean: the class sum over the clamped count. -/
def ave (sum : Arr F S1000x1024 .f32) (cc : Arr F S1000 .f32) : Arr F S1000x1024 .f32 := Host.divf sum (rep cc)

/-- The replacement of the entries a mask selects by 1e-10. -/
def guard (mask : Arr F S1000x1024 .i1) (v : Arr F S1000x1024 .f32) : Arr F S1000x1024 .f32 :=
  select mask (broadcastInDim S1000x1024 ![] bcast_S_S1000x1024 (id (constant S_ .f32 0x2EDBE6FF#32))) v

/-- A whole array of zeros. -/
def zeros : Arr F S1000x1024 .f32 := broadcastInDim S1000x1024 ![] bcast_S_S1000x1024 (constant S_ .f32 0x00000000#32)

/-- The kernel's variance: mean of squares minus squared mean, entries `≤ 0` replaced. -/
def varK (sumsq sum : Arr F S1000x1024 .f32) (cc : Arr F S1000 .f32) : Arr F S1000x1024 .f32 :=
  guard (cmpf .ole (subf (Host.divf sumsq (rep cc)) (mulf (ave sum cc) (ave sum cc))) zeros)
    (subf (Host.divf sumsq (rep cc)) (mulf (ave sum cc) (ave sum cc)))

/-- The reference's variance: the centred sum of squares over the clamped count, entries `= 0` replaced. -/
def varR (censq : Arr F S1000x1024 .f32) (cc : Arr F S1000 .f32) : Arr F S1000x1024 .f32 :=
  guard (cmpf .oeq (Host.divf censq (rep cc)) zeros) (Host.divf censq (rep cc))

/-- The mixing weight cnt / (cnt + amount_prior + 1e-10), as a column. -/
def wcol (n amount : Arr F S1000 .f32) : Arr F S1000x1 .f32 :=
  broadcastInDim S1000x1 ![0] bcast_S1000_S1000x1_0
    (Host.divf n (addf (addf n amount) (broadcastInDim S1000 ![] bcast_S_S1000 (constant S_ .f32 0x2EDBE6FF#32))))

/-- A column of ones. -/
def ones1 : Arr F S1000x1 .f32 := broadcastInDim S1000x1 ![] bcast_S_S1000x1 (constant S_ .f32 0x3F800000#32)

/-- A column repeated along the 1024 features. -/
def rep1 (v : Arr F S1000x1 .f32) : Arr F S1000x1024 .f32 := broadcastInDim S1000x1024 ![0, 1] bcast_S1000x1_S1000x1024_0_1 v

/-- The new covariance: cov_prior (1 - w) + var w + w (1 - w) (ave_prior - ave)². -/
def newCov (w : Arr F S1000x1 .f32) (a v cov avep : Arr F S1000x1024 .f32) : Arr F S1000x1024 .f32 :=
  addf (addf (mulf cov (rep1 (subf ones1 w))) (mulf v (rep1 w)))
    (mulf (rep1 (mulf w (subf ones1 w))) (mulf (subf avep a) (subf avep a)))

/-- The new mean: ave_prior (1 - w) + ave w. -/
def newAve (w : Arr F S1000x1 .f32) (a avep : Arr F S1000x1024 .f32) : Arr F S1000x1024 .f32 :=
  addf (mulf avep (rep1 (subf ones1 w))) (mulf a (rep1 w))

/-- One array repeated as the two augmentation slabs. -/
def twice (v : Arr F S1000x1024 .f32) : Arr F S2x1000x1024 .f32 :=
  broadcastInDim S2x1000x1024 ![0, 1, 2] bcast_S1x1000x1024_S2x1000x1024_0_1_2
    (broadcastInDim S1x1000x1024 ![1, 2] bcast_S1000x1024_S1x1000x1024_1_2 v)

/-- The augmented rows: new_mean + new_cov * eps, the two slabs laid out as 2000 rows. -/
def aug (nAve nCov : Arr F S1000x1024 .f32) (eps : Arr F S2x1000x1024 .f32) : Arr F S2000x1024 .f32 :=
  shapeCast S2000x1024 (addf (twice nAve) (mulf (twice nCov) eps)) shapeCasts_S2x1000x1024_S2000x1024

/-- The augmented rows from the statistics and the priors. -/
def augOf (n : Arr F S1000 .f32) (a v : Arr F S1000x1024 .f32) (amount : Arr F S1000 .f32) (cov avep : Arr F S1000x1024 .f32)
    (eps : Arr F S2x1000x1024 .f32) : Arr F S2000x1024 .f32 :=
  aug (newAve (wcol n amount) a avep) (newCov (wcol n amount) a v cov avep) eps

/-- The augmented rows' labels: 0..999 twice, as a column. -/
def augLabels : Arr F S2000x1 .i32 :=
  shapeCast S2000x1 (shapeCast S2000 (broadcastInDim S2x1000 ![0, 1] bcast_S1x1000_S2x1000_0_1
    (shapeCast S1x1000 (iotaInDim S1000 32 0) shapeCasts_S1000_S1x1000)) shapeCasts_S2x1000_S2000) shapeCasts_S2000_S2000x1

end Cert.KernelIdeal.Chain

end
-- ==== Proof.Rows.lean ====
/-
  Row numbers, and reading an array at an index.
  The first pass walks the 65536 data rows as 2 halves of 128 blocks of 256 rows: row (j, i, y) is (128 j + i) 256 + y.
  The second pass walks the 2000 augmented rows as 2 blocks of 1000: row (s, y) is 1000 s + y.
-/
import Idealize.ShloMosaic.Lib.ValueIdx

namespace Cert.Spec

open Idealize.ShloMosaic

/-- Data row (j, i, y): half j, block i of the half, row y of the block. -/
def row (j : Fin 2) (i : Fin 128) (y : Fin 256) : Fin 65536 := ⟨(j.val * 128 + i.val) * 256 + y.val, by omega⟩

/-- Augmented row (s, y): slab s, class y. -/
def arow (s : Fin 2) (y : Fin 1000) : Fin 2000 := ⟨s.val * 1000 + y.val, by omega⟩

/-- An array of extended reals of shape `S`, read at an index. -/
abbrev rd (S : Shape) (v : S.Idx → EReal) (i : S.Idx) : EReal := v i

/-- An array of 32-bit words of shape `S`, read at an index. -/
abbrev rdi (S : Shape) (v : S.Idx → BitVec 32) (i : S.Idx) : BitVec 32 := v i

end Cert.Spec
-- ==== Proof.KernelHost.lean ====
/-
  The host side of the kernel's program, read back through the buffer contents at each boundary.
  Before the first pass: the labels as a row and as a column, the bias fc_b - ba as a row, the weights transposed.
  Between the passes: the two halves' class sums and sums of squares are added, the statistics and the augmented rows
  are computed from them (the shared chain), and the first pass's loss partials are added.
  After the second pass: its two partials are added, the two losses added, and the total divided by 67536.
-/
import proofs.«415097_j5265629905347_2_alg».proof.Proof.Gen.KernelIdeal.Frame
import proofs.«415097_j5265629905347_2_alg».proof.Proof.Chain
import proofs.«415097_j5265629905347_2_alg».proof.Proof.Rows
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A buffer that no operation of a stretch writes holds after the stretch what it held before. -/
private theorem keep {ops : List (HloOp τ sig (Elt Ideal))} {V : Valuation τ sig (Elt Ideal)} {b : Ref sig .tc}
    (h : ops.Forall fun op => (Proc.devRef .tc b : DevRef τ sig) ∉ op.writes) :
    StableHlo.after ops V (Proc.devRef .tc b) = V (Proc.devRef .tc b) :=
  StableHlo.after_of_forall_not_mem (b := Proc.devRef .tc b) _ _ (List.forall_iff_forall_mem.mp h)

/-- Each operation of the stretch writes one buffer, and it is another one. -/
local macro "not_written" : tactic =>
  `(tactic| (
    simp only [hostOps0, hostOps1, hostOps1_1, hostOps1_2, hostOps1_3, hostOps1_4, hostOps2, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-! ## What the first pass finds -/

theorem V1_arg0 (c : Dev nD) : V1 m ρ c main_arg0 = m ((c : Thread nD τ).loc main_arg0) :=
  (keep (by not_written)).trans rfl

private theorem V1_v0_eq (c : Dev nD) :
    (V1 m ρ c main_v0 : S1x65536.Idx → BitVec 32)
      = shapeCast S1x65536 (m ((c : Thread nD τ).loc main_arg8)) shapeCasts_S65536_S1x65536 := by
  show StableHlo.after hostOps0 (W0 m ρ c) (Proc.devRef .tc main_v0) = _
  dsimp only [hostOps0]
  after_results
  rfl

theorem V1_v0 (c : Dev nD) (n : Fin 65536) :
    Cert.Spec.rdi S1x65536 (V1 m ρ c main_v0) (ix2 (0 : Fin 1) n) = Cert.Spec.rdi S65536 (m ((c : Thread nD τ).loc main_arg8)) (ix1 n) := by
  show (V1 m ρ c main_v0 : S1x65536.Idx → BitVec 32) (ix2 (0 : Fin 1) n) = _
  rw [V1_v0_eq]
  refine shapeCast_apply (s := S65536) (t := S1x65536) _ _ _ (ix1 n) ?_
  rw [Shape.rowMajor_val_two, Shape.rowMajor_val_one]
  show n.val = (0 : Fin 1).val * 65536 + n.val
  simp

private theorem V1_v1_eq (c : Dev nD) :
    (V1 m ρ c main_v1 : S65536x1.Idx → BitVec 32)
      = shapeCast S65536x1 (m ((c : Thread nD τ).loc main_arg8)) shapeCasts_S65536_S65536x1 := by
  show StableHlo.after hostOps0 (W0 m ρ c) (Proc.devRef .tc main_v1) = _
  dsimp only [hostOps0]
  after_results
  rfl

theorem V1_v1 (c : Dev nD) (n : Fin 65536) :
    Cert.Spec.rdi S65536x1 (V1 m ρ c main_v1) (ix2 n (0 : Fin 1)) = Cert.Spec.rdi S65536 (m ((c : Thread nD τ).loc main_arg8)) (ix1 n) := by
  show (V1 m ρ c main_v1 : S65536x1.Idx → BitVec 32) (ix2 n (0 : Fin 1)) = _
  rw [V1_v1_eq]
  refine shapeCast_apply (s := S65536) (t := S65536x1) _ _ _ (ix1 n) ?_
  rw [Shape.rowMajor_val_two, Shape.rowMajor_val_one]
  show n.val = n.val * 1 + (0 : Fin 1).val
  simp

private theorem V1_v5_eq (c : Dev nD) :
    (V1 m ρ c main_v5 : Chain.Arr Ideal S1024x1000 .bf16)
      = (truncf (F := Ideal) .bf16 (transpose S1024x1000 [1, 0] (m ((c : Thread nD τ).loc main_arg2) : Chain.Arr Ideal S1000x1024 .f32)
          transposes_S1000x1024_S1024x1000_1_0) bitsLt_bf16_f32 : FVec Ideal S1024x1000 .bf16) := by
  show StableHlo.after hostOps0 (W0 m ρ c) (Proc.devRef .tc main_v5) = _
  dsimp only [hostOps0]
  after_results <;> rfl

theorem V1_v5 (c : Dev nD) (a : Fin 1024) (k : Fin 1000) :
    Cert.Spec.rd S1024x1000 (V1 m ρ c main_v5) (ix2 a k) = Cert.Spec.rd S1000x1024 (m ((c : Thread nD τ).loc main_arg2)) (ix2 k a) := by
  show (V1 m ρ c main_v5 : Chain.Arr Ideal S1024x1000 .bf16) (ix2 a k) = _
  rw [V1_v5_eq]
  refine (truncf_apply (φ := .f32) (ψ := .bf16) _ bitsLt_bf16_f32 _).trans ?_
  exact transpose_apply (s := S1000x1024) (t := S1024x1000) _ _ _ _ (ix2 k a)
    fun b => match b with | ⟨0, _⟩ => rfl | ⟨1, _⟩ => rfl

private theorem V1_v3_eq (c : Dev nD) :
    (V1 m ρ c main_v3 : Chain.Arr Ideal S1x1000 .f32)
      = shapeCast S1x1000 (subf (F := Ideal) (m ((c : Thread nD τ).loc main_arg3) : FVec Ideal S1000 .f32)
          (m ((c : Thread nD τ).loc main_arg4) : FVec Ideal S1000 .f32) : FVec Ideal S1000 .f32) shapeCasts_S1000_S1x1000 := by
  show StableHlo.after hostOps0 (W0 m ρ c) (Proc.devRef .tc main_v3) = _
  dsimp only [hostOps0]
  after_results <;> rfl

theorem V1_v3 (c : Dev nD) (k : Fin 1000) :
    Cert.Spec.rd S1x1000 (V1 m ρ c main_v3) (ix2 (0 : Fin 1) k)
      = Cert.Spec.rd S1000 (m ((c : Thread nD τ).loc main_arg3)) (ix1 k) - Cert.Spec.rd S1000 (m ((c : Thread nD τ).loc main_arg4)) (ix1 k) := by
  show (V1 m ρ c main_v3 : Chain.Arr Ideal S1x1000 .f32) (ix2 (0 : Fin 1) k) = _
  rw [V1_v3_eq]
  refine (shapeCast_apply (s := S1000) (t := S1x1000) _ _ _ (ix1 k) ?_).trans (subf_apply _ _ _)
  rw [Shape.rowMajor_val_two, Shape.rowMajor_val_one]
  show k.val = (0 : Fin 1).val * 1000 + k.val
  simp

/-! ## What the second pass finds -/

theorem V7_v5 (c : Dev nD) : V7 m ρ c main_v5 = V1 m ρ c main_v5 :=
  calc W7 m ρ c (Proc.devRef .tc main_v5)
    _ = W6 m ρ c (Proc.devRef .tc main_v5) := keep (by not_written)
    _ = W5 m ρ c (Proc.devRef .tc main_v5) := keep (by not_written)
    _ = W4 m ρ c (Proc.devRef .tc main_v5) := keep (by not_written)
    _ = W3 m ρ c (Proc.devRef .tc main_v5) := keep (by not_written)
    _ = W2 m ρ c (Proc.devRef .tc main_v5) := keep (by not_written)
    _ = W1 m ρ c (Proc.devRef .tc main_v5) := (W2_arr m ρ c 3).trans (((dat0 (V1 m ρ) c).arrAt_in 3 rfl _).trans (A_eq0 (V1 m ρ) c 3))

theorem V7_v3 (c : Dev nD) : V7 m ρ c main_v3 = V1 m ρ c main_v3 :=
  calc W7 m ρ c (Proc.devRef .tc main_v3)
    _ = W6 m ρ c (Proc.devRef .tc main_v3) := keep (by not_written)
    _ = W5 m ρ c (Proc.devRef .tc main_v3) := keep (by not_written)
    _ = W4 m ρ c (Proc.devRef .tc main_v3) := keep (by not_written)
    _ = W3 m ρ c (Proc.devRef .tc main_v3) := keep (by not_written)
    _ = W2 m ρ c (Proc.devRef .tc main_v3) := keep (by not_written)
    _ = W1 m ρ c (Proc.devRef .tc main_v3) := (W2_arr m ρ c 4).trans (((dat0 (V1 m ρ) c).arrAt_in 4 rfl _).trans (A_eq0 (V1 m ρ) c 4))

theorem V7_v66 (c : Dev nD) : V7 m ρ c main_v66 = Chain.augLabels (F := Ideal) := by
  show StableHlo.after hostOps1_4 (W6 m ρ c) (Proc.devRef .tc main_v66) = _
  dsimp only [hostOps1_4]
  after_results <;> rfl

/-- The two halves' class sums added. -/
abbrev sumK (c : Dev nD) : Chain.Arr Ideal S1000x1024 .f32 :=
  Host.reduceAdd (F := Ideal) ((dat0 (F := Ideal) (V1 m ρ) c).arrAt 5 cfg0.N) (constant S_ .f32 0x00000000#32) reducesTo_S2x1000x1024_S1000x1024_d0 h_S_

/-- The two halves' class sums of squares added. -/
abbrev sumsqK (c : Dev nD) : Chain.Arr Ideal S1000x1024 .f32 :=
  Host.reduceAdd (F := Ideal) ((dat0 (F := Ideal) (V1 m ρ) c).arrAt 6 cfg0.N) (constant S_ .f32 0x00000000#32) reducesTo_S2x1000x1024_S1000x1024_d0 h_S_

/-! ## The stretches between the passes, each read over arbitrary contents before it -/

section Stretches
variable (V : Valuation τ sig (Elt Ideal))

/-- The first stretch leaves the class counts of the labels it finds. -/
private theorem s1_v13 :
    StableHlo.after hostOps1 V (Proc.devRef .tc main_v13) = Chain.cnt (F := Ideal) (V (Proc.devRef .tc main_arg8)) := by
  dsimp only [hostOps1]
  after_results <;> rfl

/-- It leaves the sum over the two halves of each of the first pass's three outputs. -/
private theorem s1_v7 :
    StableHlo.after hostOps1 V (Proc.devRef .tc main_v7)
      = Host.reduceAdd (F := Ideal) (V (Proc.devRef .tc main_v6_0)) (constant S_ .f32 0x00000000#32) reducesTo_S2x1000x1024_S1000x1024_d0 h_S_ := by
  dsimp only [hostOps1]
  after_results <;> rfl

private theorem s1_v8 :
    StableHlo.after hostOps1 V (Proc.devRef .tc main_v8)
      = Host.reduceAdd (F := Ideal) (V (Proc.devRef .tc main_v6_1)) (constant S_ .f32 0x00000000#32) reducesTo_S2x1000x1024_S1000x1024_d0 h_S_ := by
  dsimp only [hostOps1]
  after_results <;> rfl

private theorem s1_v9 :
    StableHlo.after hostOps1 V (Proc.devRef .tc main_v9)
      = Host.reduceAdd (F := Ideal) (V (Proc.devRef .tc main_v6_2)) (constant S_ .f32 0x00000000#32) reducesTo_S2x1x1_S_d0_1_2 h_S_ := by
  dsimp only [hostOps1]
  after_results <;> rfl

/-- It leaves the mask of the empty classes and the constant one. -/
private theorem s1_v15 :
    StableHlo.after hostOps1 V (Proc.devRef .tc main_v15)
      = cmpf (F := Ideal) .oeq (Chain.cnt (F := Ideal) (V (Proc.devRef .tc main_arg8)))
          (broadcastInDim S1000 ![] bcast_S_S1000 (constant S_ .f32 0x00000000#32)) := by
  dsimp only [hostOps1]
  after_results <;> rfl

private theorem s1_cst5 :
    StableHlo.after hostOps1 V (Proc.devRef .tc main_cst_5) = constant (F := Ideal) S_ .f32 0x3F800000#32 := by
  dsimp only [hostOps1]
  after_results <;> rfl

/-- The second stretch replaces an empty class's count by one. -/
private theorem s2_v16 :
    StableHlo.after hostOps1_1 V (Proc.devRef .tc main_v16)
      = select (V (Proc.devRef .tc main_v15))
          (broadcastInDim S1000 ![] bcast_S_S1000 (id (V (Proc.devRef .tc main_cst_5)))) (V (Proc.devRef .tc main_v13)) := by
  dsimp only [hostOps1_1]
  after_results <;> (try simp only [StableHlo.TRef.ofBuf, StableHlo.TRef.toBuf, cast_eq]) <;> rfl

end Stretches

/-- The mean of squares minus the squared mean: the variance before its non-positive entries are replaced. -/
private def rawVar (sumsq sum : Chain.Arr Ideal S1000x1024 .f32) (cc : Chain.Arr Ideal S1000 .f32) : FVec Ideal S1000x1024 .f32 :=
  subf (Host.divf sumsq (Chain.rep cc)) (mulf (Chain.ave sum cc) (Chain.ave sum cc))

/-- The mask of the entries that are not positive. -/
private def nonpos (v : FVec Ideal S1000x1024 .f32) : Chain.Arr Ideal S1000x1024 .i1 := cmpf .ole v (Chain.zeros (F := Ideal))

private theorem varK_eq (sumsq sum : Chain.Arr Ideal S1000x1024 .f32) (cc : Chain.Arr Ideal S1000 .f32) :
    Chain.varK sumsq sum cc = Chain.guard (nonpos (rawVar sumsq sum cc)) (rawVar sumsq sum cc) := rfl

section Stretches2
variable (V : Valuation τ sig (Elt Ideal))

/-- The third stretch leaves the class mean, -/
private theorem s3_v19 :
    StableHlo.after hostOps1_2 V (Proc.devRef .tc main_v19)
      = Chain.ave (F := Ideal) (V (Proc.devRef .tc main_v7)) (V (Proc.devRef .tc main_v16)) := by
  dsimp only [hostOps1_2]
  after_results <;> rfl

/-- the mean of squares minus the squared mean, -/
private theorem s3_v24 :
    StableHlo.after hostOps1_2 V (Proc.devRef .tc main_v24)
      = rawVar (V (Proc.devRef .tc main_v8)) (V (Proc.devRef .tc main_v7)) (V (Proc.devRef .tc main_v16)) := by
  dsimp only [hostOps1_2]
  after_results <;> rfl

/-- the mask of its entries that are not positive, -/
private theorem s3_v26 :
    StableHlo.after hostOps1_2 V (Proc.devRef .tc main_v26)
      = nonpos (rawVar (V (Proc.devRef .tc main_v8)) (V (Proc.devRef .tc main_v7)) (V (Proc.devRef .tc main_v16))) := by
  dsimp only [hostOps1_2]
  after_results <;> rfl

/-- and the constant that replaces them. -/
private theorem s3_cst7 :
    StableHlo.after hostOps1_2 V (Proc.devRef .tc main_cst_7) = constant (F := Ideal) S_ .f32 0x2EDBE6FF#32 := by
  dsimp only [hostOps1_2]
  after_results <;> rfl

/-- The fourth stretch makes the replacement. -/
private theorem s4_v27 :
    StableHlo.after hostOps1_3 V (Proc.devRef .tc main_v27)
      = select (V (Proc.devRef .tc main_v26))
          (broadcastInDim S1000x1024 ![] bcast_S_S1000x1024 (id (V (Proc.devRef .tc main_cst_7)))) (V (Proc.devRef .tc main_v24)) := by
  dsimp only [hostOps1_3]
  after_results <;> (try simp only [StableHlo.TRef.ofBuf, StableHlo.TRef.toBuf, cast_eq]) <;> rfl

end Stretches2

section Stretches3
variable (V : Valuation τ sig (Elt Ideal))

/-- The last stretch mixes the statistics with the priors and lays the augmented rows out. -/
private theorem s5_v61 :
    StableHlo.after hostOps1_4 V (Proc.devRef .tc main_v61)
      = Chain.augOf (F := Ideal) (V (Proc.devRef .tc main_v13)) (V (Proc.devRef .tc main_v19)) (V (Proc.devRef .tc main_v27))
          (V (Proc.devRef .tc main_arg7)) (V (Proc.devRef .tc main_arg5)) (V (Proc.devRef .tc main_arg6))
          (V (Proc.devRef .tc main_arg1)) := by
  dsimp only [hostOps1_4]
  after_results_simp <;> rfl

end Stretches3

section Stretches4
variable (V : Valuation τ sig (Elt Ideal))

/-- The stretch after the second pass adds its two partials, adds the first pass's loss, and divides by the number of rows. -/
private theorem s6_v70 :
    StableHlo.after hostOps2 V (Proc.devRef .tc main_v70)
      = Host.divf (F := Ideal)
          (addf (F := Ideal) (V (Proc.devRef .tc main_v9) : FVec Ideal S_ .f32)
            (Host.reduceAdd (F := Ideal) (V (Proc.devRef .tc main_v67)) (constant S_ .f32 0x00000000#32) reducesTo_S2x1x1_S_d0_1_2 h_S_))
          (constant S_ .f32 0x4783E800#32) := by
  dsimp only [hostOps2]
  after_results <;> rfl

end Stretches4

/-! ## The buffers the later stretches read, at each boundary back to the launch -/

section Walk
variable (c : Dev nD)

/-- A buffer that neither the first stretch nor the first pass writes holds at the first pass's exit what it held at the launch. -/
private theorem at2_of_ne (b : Ref sig .tc) (hne : ∀ w, Pipeline.arrRef spec0 w ≠ b)
    (h0 : (hostOps0 : List (HloOp τ sig (Elt Ideal))).Forall fun op => (Proc.devRef .tc b : DevRef τ sig) ∉ op.writes) :
    W2 m ρ c (Proc.devRef .tc b) = W0 m ρ c (Proc.devRef .tc b) :=
  (W2_of_ne m ρ c b hne).trans (keep h0)

/-- A buffer that none of the four stretches after the first pass writes holds before the last stretch what it held at the
    first pass's exit. -/
private theorem at6_of_keep (b : Ref sig .tc)
    (h1 : (hostOps1 : List (HloOp τ sig (Elt Ideal))).Forall fun op => (Proc.devRef .tc b : DevRef τ sig) ∉ op.writes)
    (h2 : (hostOps1_1 : List (HloOp τ sig (Elt Ideal))).Forall fun op => (Proc.devRef .tc b : DevRef τ sig) ∉ op.writes)
    (h3 : (hostOps1_2 : List (HloOp τ sig (Elt Ideal))).Forall fun op => (Proc.devRef .tc b : DevRef τ sig) ∉ op.writes)
    (h4 : (hostOps1_3 : List (HloOp τ sig (Elt Ideal))).Forall fun op => (Proc.devRef .tc b : DevRef τ sig) ∉ op.writes) :
    W6 m ρ c (Proc.devRef .tc b) = W2 m ρ c (Proc.devRef .tc b) :=
  (keep h4).trans ((keep h3).trans ((keep h2).trans (keep h1)))

private theorem at6_arg1 : W6 m ρ c (Proc.devRef .tc main_arg1) = m ((c : Thread nD τ).loc main_arg1) :=
  (at6_of_keep m ρ c main_arg1 (by not_written) (by not_written) (by not_written) (by not_written)).trans
    ((at2_of_ne m ρ c main_arg1 (by decide) (by not_written)).trans rfl)
private theorem at6_arg5 : W6 m ρ c (Proc.devRef .tc main_arg5) = m ((c : Thread nD τ).loc main_arg5) :=
  (at6_of_keep m ρ c main_arg5 (by not_written) (by not_written) (by not_written) (by not_written)).trans
    ((at2_of_ne m ρ c main_arg5 (by decide) (by not_written)).trans rfl)
private theorem at6_arg6 : W6 m ρ c (Proc.devRef .tc main_arg6) = m ((c : Thread nD τ).loc main_arg6) :=
  (at6_of_keep m ρ c main_arg6 (by not_written) (by not_written) (by not_written) (by not_written)).trans
    ((at2_of_ne m ρ c main_arg6 (by decide) (by not_written)).trans rfl)
private theorem at6_arg7 : W6 m ρ c (Proc.devRef .tc main_arg7) = m ((c : Thread nD τ).loc main_arg7) :=
  (at6_of_keep m ρ c main_arg7 (by not_written) (by not_written) (by not_written) (by not_written)).trans
    ((at2_of_ne m ρ c main_arg7 (by decide) (by not_written)).trans rfl)

private theorem at2_arg8 : W2 m ρ c (Proc.devRef .tc main_arg8) = m ((c : Thread nD τ).loc main_arg8) :=
  (at2_of_ne m ρ c main_arg8 (by decide) (by not_written)).trans rfl

/-- After the first stretch: the class counts, the three sums over the halves, the mask of the empty classes, the constant one. -/
private theorem at3_v13 : W3 m ρ c (Proc.devRef .tc main_v13) = Chain.cnt (F := Ideal) (m ((c : Thread nD τ).loc main_arg8)) := by
  show StableHlo.after hostOps1 (W2 m ρ c) (Proc.devRef .tc main_v13) = _
  rw [s1_v13, at2_arg8]

private theorem at3_v7 : W3 m ρ c (Proc.devRef .tc main_v7) = sumK m ρ c := by
  show StableHlo.after hostOps1 (W2 m ρ c) (Proc.devRef .tc main_v7) = _
  rw [s1_v7]
  exact congrArg (fun x => Host.reduceAdd (F := Ideal) x (constant S_ .f32 0x00000000#32) reducesTo_S2x1000x1024_S1000x1024_d0 h_S_)
    (W2_arr m ρ c 5)

private theorem at3_v8 : W3 m ρ c (Proc.devRef .tc main_v8) = sumsqK m ρ c := by
  show StableHlo.after hostOps1 (W2 m ρ c) (Proc.devRef .tc main_v8) = _
  rw [s1_v8]
  exact congrArg (fun x => Host.reduceAdd (F := Ideal) x (constant S_ .f32 0x00000000#32) reducesTo_S2x1000x1024_S1000x1024_d0 h_S_)
    (W2_arr m ρ c 6)

private theorem at3_v9 :
    W3 m ρ c (Proc.devRef .tc main_v9)
      = Host.reduceAdd (F := Ideal) ((dat0 (F := Ideal) (V1 m ρ) c).arrAt 7 cfg0.N) (constant S_ .f32 0x00000000#32) reducesTo_S2x1x1_S_d0_1_2 h_S_ := by
  show StableHlo.after hostOps1 (W2 m ρ c) (Proc.devRef .tc main_v9) = _
  rw [s1_v9]
  exact congrArg (fun x => Host.reduceAdd (F := Ideal) x (constant S_ .f32 0x00000000#32) reducesTo_S2x1x1_S_d0_1_2 h_S_)
    (W2_arr m ρ c 7)

private theorem at3_v15 :
    W3 m ρ c (Proc.devRef .tc main_v15)
      = cmpf (F := Ideal) .oeq (Chain.cnt (F := Ideal) (m ((c : Thread nD τ).loc main_arg8)))
          (broadcastInDim S1000 ![] bcast_S_S1000 (constant S_ .f32 0x00000000#32)) := by
  show StableHlo.after hostOps1 (W2 m ρ c) (Proc.devRef .tc main_v15) = _
  rw [s1_v15, at2_arg8]

private theorem at3_cst5 : W3 m ρ c (Proc.devRef .tc main_cst_5) = constant (F := Ideal) S_ .f32 0x3F800000#32 :=
  s1_cst5 _

/-- After the second stretch: the clamped counts; the counts and the sums as they were. -/
private theorem at4_v16 :
    W4 m ρ c (Proc.devRef .tc main_v16) = Chain.cntc (F := Ideal) (Chain.cnt (m ((c : Thread nD τ).loc main_arg8))) := by
  show StableHlo.after hostOps1_1 (W3 m ρ c) (Proc.devRef .tc main_v16) = _
  rw [s2_v16, at3_v15, at3_cst5, at3_v13]
  rfl

private theorem at4_v13 : W4 m ρ c (Proc.devRef .tc main_v13) = Chain.cnt (F := Ideal) (m ((c : Thread nD τ).loc main_arg8)) :=
  (keep (by not_written)).trans (at3_v13 m ρ c)
private theorem at4_v7 : W4 m ρ c (Proc.devRef .tc main_v7) = sumK m ρ c := (keep (by not_written)).trans (at3_v7 m ρ c)
private theorem at4_v8 : W4 m ρ c (Proc.devRef .tc main_v8) = sumsqK m ρ c := (keep (by not_written)).trans (at3_v8 m ρ c)

/-- After the third stretch: the class mean, the raw variance, its mask, the replacing constant; the counts as they were. -/
private theorem at5_v19 :
    W5 m ρ c (Proc.devRef .tc main_v19)
      = Chain.ave (F := Ideal) (sumK m ρ c) (Chain.cntc (Chain.cnt (m ((c : Thread nD τ).loc main_arg8)))) := by
  show StableHlo.after hostOps1_2 (W4 m ρ c) (Proc.devRef .tc main_v19) = _
  rw [s3_v19, at4_v7, at4_v16]

private theorem at5_v24 :
    W5 m ρ c (Proc.devRef .tc main_v24)
      = rawVar (sumsqK m ρ c) (sumK m ρ c) (Chain.cntc (Chain.cnt (m ((c : Thread nD τ).loc main_arg8)))) := by
  show StableHlo.after hostOps1_2 (W4 m ρ c) (Proc.devRef .tc main_v24) = _
  rw [s3_v24, at4_v8, at4_v7, at4_v16]

private theorem at5_v26 :
    W5 m ρ c (Proc.devRef .tc main_v26)
      = nonpos (rawVar (sumsqK m ρ c) (sumK m ρ c) (Chain.cntc (Chain.cnt (m ((c : Thread nD τ).loc main_arg8))))) := by
  show StableHlo.after hostOps1_2 (W4 m ρ c) (Proc.devRef .tc main_v26) = _
  rw [s3_v26, at4_v8, at4_v7, at4_v16]

private theorem at5_cst7 : W5 m ρ c (Proc.devRef .tc main_cst_7) = constant (F := Ideal) S_ .f32 0x2EDBE6FF#32 :=
  s3_cst7 _

private theorem at5_v13 : W5 m ρ c (Proc.devRef .tc main_v13) = Chain.cnt (F := Ideal) (m ((c : Thread nD τ).loc main_arg8)) :=
  (keep (by not_written)).trans (at4_v13 m ρ c)

/-- After the fourth stretch: the variance; the mean and the counts as they were. -/
private theorem at6_v27 :
    W6 m ρ c (Proc.devRef .tc main_v27)
      = Chain.varK (F := Ideal) (sumsqK m ρ c) (sumK m ρ c) (Chain.cntc (Chain.cnt (m ((c : Thread nD τ).loc main_arg8)))) := by
  show StableHlo.after hostOps1_3 (W5 m ρ c) (Proc.devRef .tc main_v27) = _
  rw [s4_v27, at5_v26, at5_cst7, at5_v24, varK_eq]
  rfl

private theorem at6_v19 :
    W6 m ρ c (Proc.devRef .tc main_v19)
      = Chain.ave (F := Ideal) (sumK m ρ c) (Chain.cntc (Chain.cnt (m ((c : Thread nD τ).loc main_arg8)))) :=
  (keep (by not_written)).trans (at5_v19 m ρ c)

private theorem at6_v13 : W6 m ρ c (Proc.devRef .tc main_v13) = Chain.cnt (F := Ideal) (m ((c : Thread nD τ).loc main_arg8)) :=
  (keep (by not_written)).trans (at5_v13 m ρ c)

/-- The first pass's loss, summed over the halves by the first stretch, is still there after the second pass. -/
private theorem at8_v9 :
    W8 m ρ c (Proc.devRef .tc main_v9)
      = Host.reduceAdd (F := Ideal) ((dat0 (F := Ideal) (V1 m ρ) c).arrAt 7 cfg0.N) (constant S_ .f32 0x00000000#32) reducesTo_S2x1x1_S_d0_1_2 h_S_ :=
  (W8_of_ne m ρ c main_v9 (by decide)).trans ((keep (by not_written)).trans ((keep (by not_written)).trans
    ((keep (by not_written)).trans ((keep (by not_written)).trans (at3_v9 m ρ c)))))

end Walk

/-- The augmented rows the second pass reads: the shared chain at the kernel's class sums and its variance. -/
theorem V7_v61 (c : Dev nD) :
    V7 m ρ c main_v61
      = Chain.augOf (F := Ideal) (Chain.cnt (m ((c : Thread nD τ).loc main_arg8)))
          (Chain.ave (sumK m ρ c) (Chain.cntc (Chain.cnt (m ((c : Thread nD τ).loc main_arg8)))))
          (Chain.varK (sumsqK m ρ c) (sumK m ρ c) (Chain.cntc (Chain.cnt (m ((c : Thread nD τ).loc main_arg8)))))
          (m ((c : Thread nD τ).loc main_arg7)) (m ((c : Thread nD τ).loc main_arg5)) (m ((c : Thread nD τ).loc main_arg6))
          (m ((c : Thread nD τ).loc main_arg1)) := by
  show StableHlo.after hostOps1_4 (W6 m ρ c) (Proc.devRef .tc main_v61) = _
  rw [s5_v61, at6_v13, at6_v19, at6_v27, at6_arg7, at6_arg5, at6_arg6, at6_arg1]

/-! ## The result -/

theorem W9_v70 (c : Dev nD) :
    W9 m ρ c (Proc.devRef .tc main_v70)
      = Host.divf (F := Ideal)
          (addf (Host.reduceAdd (F := Ideal) ((dat0 (F := Ideal) (V1 m ρ) c).arrAt 7 cfg0.N) (constant S_ .f32 0x00000000#32) reducesTo_S2x1x1_S_d0_1_2 h_S_)
                (Host.reduceAdd (F := Ideal) ((dat1 (F := Ideal) (V7 m ρ) c).arrAt 4 cfg1.N) (constant S_ .f32 0x00000000#32) reducesTo_S2x1x1_S_d0_1_2 h_S_))
          (constant S_ .f32 0x4783E800#32) := by
  show StableHlo.after hostOps2 (W8 m ρ c) (Proc.devRef .tc main_v70) = _
  have h67 : W8 m ρ c (Proc.devRef .tc main_v67) = (dat1 (F := Ideal) (V7 m ρ) c).arrAt 4 cfg1.N := W8_arr m ρ c 4
  rw [s6_v70, at8_v9, h67]

end Cert.KernelIdeal.Host

end
-- ==== Proof.Region0Pieces.lean ====
/-
  What the first kernel's body leaves in its three output buffers, case by case, as values.
  At the first block of a half (case A) the body stores zeros, reads them back, and adds this block's contribution:
  the class sums get 0 + onehotᵀ·x, the class sums of squares 0 + onehotᵀ·x², the loss 0 + (0 - Σ selected
  log-probabilities). At every other block (case B) the same contributions are added to what the buffers held.
  Each is the body's one covering store read back; the arithmetic itself stays folded in the body's payloads.
-/
import proofs.«415097_j5265629905347_2_alg».proof.Proof.Gen.KernelIdeal.Frame
import Idealize.ShloMosaic.Lib.Pipeline.Value
import Idealize.ShloMosaic.Lib.Tactic

noncomputable section

namespace Cert.KernelIdeal.R0

open Cert.KernelIdeal Cert.KernelIdeal.Gen
open Idealize.ShloMosaic Idealize.ShloMosaic.TcCoe Idealize.SL.Sem

variable {F : FTy → Type} [FloatOps F]

/-- The zero offsets of a rank-3 and of a rank-2 whole-block access, as the constant function. -/
private theorem hz3 : (![0, 0, 0] : Fin 3 → Nat) = fun _ => 0 := funext fun a => by fin_cases a <;> rfl
private theorem hz2 : (![0, 0] : Fin 2 → Nat) = fun _ => 0 := funext fun a => by fin_cases a <;> rfl

theorem out_A_5 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : cond0_0 i)
    (x0 : Vec F S256x1024 .f32) (x1 : Vec F S1x256 .i32) (x2 : Vec F S256x1 .i32) (x3 : Vec F S1024x1000 .bf16) (x4 : Vec F S1x1000 .f32) :
    out0_A_5 c i arg2 harg2 arg3 harg3 arg4 harg4 arg5 harg5 arg6 harg6 arg7 harg7 arg8 harg8 arg9 harg9 hc0 x0 x1 x2 x3 x4 = k0_pay7 x0 x1 k0_pay2 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1000x1024) hz3, View.readCov_unit_zero (S := S1x1000x1024) _ hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

theorem out_A_6 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : cond0_0 i)
    (x0 : Vec F S256x1024 .f32) (x1 : Vec F S1x256 .i32) (x2 : Vec F S256x1 .i32) (x3 : Vec F S1024x1000 .bf16) (x4 : Vec F S1x1000 .f32) :
    out0_A_6 c i arg2 harg2 arg3 harg3 arg4 harg4 arg5 harg5 arg6 harg6 arg7 harg7 arg8 harg8 arg9 harg9 hc0 x0 x1 x2 x3 x4 = k0_pay8 x0 x1 k0_pay3 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1000x1024) hz3, View.readCov_unit_zero (S := S1x1000x1024) _ hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

theorem out_A_7 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : cond0_0 i)
    (x0 : Vec F S256x1024 .f32) (x1 : Vec F S1x256 .i32) (x2 : Vec F S256x1 .i32) (x3 : Vec F S1024x1000 .bf16) (x4 : Vec F S1x1000 .f32) :
    out0_A_7 c i arg2 harg2 arg3 harg3 arg4 harg4 arg5 harg5 arg6 harg6 arg7 harg7 arg8 harg8 arg9 harg9 hc0 x0 x1 x2 x3 x4 = k0_pay1 (k0_pay9 x0 x3) x4 x2 k0_pay4 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

theorem out_B_5 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : ¬cond0_0 i)
    (x0 : Vec F S256x1024 .f32) (x1 : Vec F S1x256 .i32) (x2 : Vec F S256x1 .i32) (x3 : Vec F S1024x1000 .bf16) (x4 : Vec F S1x1000 .f32) (xo5 : Vec F S1x1000x1024 .f32) (xo6 : Vec F S1x1000x1024 .f32) (xo7 : Vec F S1x1x1 .f32) :
    out0_B_5 c i arg2 harg2 arg3 harg3 arg4 harg4 arg5 harg5 arg6 harg6 arg7 harg7 arg8 harg8 arg9 harg9 hc0 x0 x1 x2 x3 x4 xo5 xo6 xo7 = k0_pay7 x0 x1 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

theorem out_B_6 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : ¬cond0_0 i)
    (x0 : Vec F S256x1024 .f32) (x1 : Vec F S1x256 .i32) (x2 : Vec F S256x1 .i32) (x3 : Vec F S1024x1000 .bf16) (x4 : Vec F S1x1000 .f32) (xo5 : Vec F S1x1000x1024 .f32) (xo6 : Vec F S1x1000x1024 .f32) (xo7 : Vec F S1x1x1 .f32) :
    out0_B_6 c i arg2 harg2 arg3 harg3 arg4 harg4 arg5 harg5 arg6 harg6 arg7 harg7 arg8 harg8 arg9 harg9 hc0 x0 x1 x2 x3 x4 xo5 xo6 xo7 = k0_pay8 x0 x1 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

theorem out_B_7 (c : Dev nD) (i : grid0.Coords) (arg2 : Memref sig .tc .vmem S256x1024 .f32) (harg2 : arg2.IsWhole) (arg3 : Memref sig .tc .vmem S1x256 .i32) (harg3 : arg3.IsWhole) (arg4 : Memref sig .tc .vmem S256x1 .i32) (harg4 : arg4.IsWhole) (arg5 : Memref sig .tc .vmem S1024x1000 .bf16) (harg5 : arg5.IsWhole) (arg6 : Memref sig .tc .vmem S1x1000 .f32) (harg6 : arg6.IsWhole) (arg7 : Memref sig .tc .vmem S1x1000x1024 .f32) (harg7 : arg7.IsWhole) (arg8 : Memref sig .tc .vmem S1x1000x1024 .f32) (harg8 : arg8.IsWhole) (arg9 : Memref sig .tc .vmem S1x1x1 .f32) (harg9 : arg9.IsWhole) (hc0 : ¬cond0_0 i)
    (x0 : Vec F S256x1024 .f32) (x1 : Vec F S1x256 .i32) (x2 : Vec F S256x1 .i32) (x3 : Vec F S1024x1000 .bf16) (x4 : Vec F S1x1000 .f32) (xo5 : Vec F S1x1000x1024 .f32) (xo6 : Vec F S1x1000x1024 .f32) (xo7 : Vec F S1x1x1 .f32) :
    out0_B_7 c i arg2 harg2 arg3 harg3 arg4 harg4 arg5 harg5 arg6 harg6 arg7 harg7 arg8 harg8 arg9 harg9 hc0 x0 x1 x2 x3 x4 xo5 xo6 xo7 = k0_pay1 (k0_pay9 x0 x3) x4 x2 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo5 xo6 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S256x1024) hz2, View.ld_unit_zero (S := S1x256) hz2, View.ld_unit_zero (S := S256x1) hz2, View.ld_unit_zero (S := S1024x1000) hz2, View.ld_unit_zero (S := S1x1000) hz2, View.ld_unit_zero (S := S1x1000x1024) hz3, View.ld_unit_zero (S := S1x1x1) hz3, shapeCast_self]

end Cert.KernelIdeal.R0

end
-- ==== Proof.Spec.lean ====
/-
  The shared vocabulary of this certificate's value proof, over the extended reals, and the laws that join the two
  programs. Nothing here mentions a program.

  A row of logits `z` has the log-probabilities `logp z k = (z k - M) - log (∑ exp (z k' - M))` with `M` the row's
  maximum (the fold of `max` from `⊥`). The kernel selects the label's entry by a one-hot weighted sum (`selOH`), the
  reference by indexing; for a label in range they agree, because `y * 0 = 0` and `y * 1 = y` for every extended real.
  No log-probability is `⊤` (`z k - M` is never `⊤`, and the log-sum-exp is `⊥` only when every `z k' - M` is),
  so negation distributes over sums of them: that is what lets the kernel negate block by block where the reference
  negates the total (`loss_assemble`).
  The second moment: over a finite set of finite numbers, the centred mean square equals the mean of squares minus the
  squared mean, and it is nonnegative, so testing it `≤ 0` and testing it `= 0` select the same entries (`var_identity`).
-/
import Idealize.ShloMosaic.PureOps.Ideal
import Idealize.ShloMosaic.PureOps.Ideal.Laws
import Idealize.ShloMosaic.Lib.ValueIdx

noncomputable section

namespace Cert.Spec

open Idealize.ShloMosaic

/-- The one-hot weight: `1` when the label word `l` is the class number `k`, else `0`. -/
def oh (l : BitVec 32) (k : Nat) : EReal := if l = BitVec.ofNat 32 k then 1 else 0

/-- A row's maximum: the fold of `max` from `⊥`. -/
def rowMax {n : Nat} (z : Fin n → EReal) : EReal := (Finset.univ : Finset (Fin n)).fold max ⊥ z

/-- The log-probability of class `k` in the row of logits `z`. -/
def logp {n : Nat} (z : Fin n → EReal) (k : Fin n) : EReal :=
  (z k - rowMax z) - Ideal.log (∑ k' : Fin n, Ideal.exp (z k' - rowMax z))

/-- The label's log-probability as the kernel takes it: the one-hot weighted sum over the classes. -/
def selOH {n : Nat} (z : Fin n → EReal) (l : BitVec 32) : EReal := ∑ k : Fin n, logp z k * oh l k.val

/-- One feature row's logits: the row times the weight matrix, plus the bias. -/
def logits (f : Fin 1024 → EReal) (w : Fin 1024 → Fin 1000 → EReal) (b : Fin 1000 → EReal) : Fin 1000 → EReal :=
  fun k => (∑ a : Fin 1024, f a * w a k) + b k

/-! ## Laws of the extended reals -/

/-- `max ⊥ M = M`: the reference takes the maximum of its row maximum with a row of `-∞`. -/
theorem max_bot_rowMax {n : Nat} (z : Fin n → EReal) : max ⊥ (rowMax z) = rowMax z := max_bot_left _

/-- Every entry of a row is at most the row's maximum. -/
private theorem le_rowMax {n : Nat} (z : Fin n → EReal) (k : Fin n) : z k ≤ rowMax z :=
  (Finset.le_fold_max (z k)).mpr (Or.inr ⟨k, Finset.mem_univ k, le_rfl⟩)

/-- The extended exponential is nonnegative. -/
private theorem exp_nonneg (x : EReal) : 0 ≤ Ideal.exp x := by
  induction x with
  | bot => simp
  | top => simp
  | coe r => rw [Ideal.exp_coe]; exact_mod_cast (Real.exp_pos r).le

/-- The extended exponential vanishes only at `⊥`. -/
private theorem exp_eq_zero {x : EReal} (h : Ideal.exp x = 0) : x = ⊥ := by
  induction x with
  | bot => rfl
  | top => simp at h
  | coe r => rw [Ideal.exp_coe] at h; exact absurd (by exact_mod_cast h) (Real.exp_pos r).ne'

/-- The extended logarithm is `⊥` only at arguments `≤ 0`. -/
private theorem log_eq_bot {x : EReal} (h : Ideal.log x = ⊥) : x ≤ 0 := by
  induction x with
  | bot => exact bot_le
  | top => simp at h
  | coe r =>
    rw [Ideal.log_coe] at h
    by_cases hr : r ≤ 0
    · exact_mod_cast hr
    · rw [if_neg hr] at h; exact absurd h (EReal.coe_ne_bot _)

/-- A difference `a - m` with `a ≤ m` is never `⊤`: at `a = ⊤` it is `⊤ - ⊤ = ⊥`, at `m = ⊥` it is `⊥ - ⊥ = ⊥`. -/
private theorem sub_ne_top_of_le {a m : EReal} (h : a ≤ m) : a - m ≠ ⊤ := by
  induction a with
  | bot => simp
  | top => rw [top_le_iff] at h; subst h; simp
  | coe r =>
    induction m with
    | bot => simp at h
    | top => simp
    | coe s => exact_mod_cast EReal.coe_ne_top (r - s)

/-- No log-probability is `⊤`. -/
theorem logp_ne_top {n : Nat} (z : Fin n → EReal) (k : Fin n) : logp z k ≠ ⊤ := by
  unfold logp
  have ha : z k - rowMax z ≠ ⊤ := sub_ne_top_of_le (le_rowMax z k)
  by_cases hL : Ideal.log (∑ k' : Fin n, Ideal.exp (z k' - rowMax z)) = ⊥
  · have hS : ∑ k' : Fin n, Ideal.exp (z k' - rowMax z) = 0 :=
      le_antisymm (log_eq_bot hL) (Finset.sum_nonneg (fun i _ => exp_nonneg _))
    have h0 : Ideal.exp (z k - rowMax z) = 0 :=
      (Finset.sum_eq_zero_iff_of_nonneg (fun i _ => exp_nonneg _)).mp hS k (Finset.mem_univ k)
    rw [exp_eq_zero h0, hL]; simp
  · intro h
    rw [sub_eq_add_neg] at h
    exact (EReal.add_ne_top ha (by rwa [Ne, EReal.neg_eq_top_iff])) h

/-- For a label in range the one-hot weighted sum is the label's entry. -/
theorem selOH_eq (z : Fin 1000 → EReal) (l : BitVec 32) (h : l.toNat < 1000) : selOH z l = logp z ⟨l.toNat, h⟩ := by
  unfold selOH
  rw [Finset.sum_eq_single (⟨l.toNat, h⟩ : Fin 1000)]
  · have : l = BitVec.ofNat 32 l.toNat := by simp
    simp only [oh]
    rw [if_pos this, mul_one]
  · intro k _ hk
    have hne : l ≠ BitVec.ofNat 32 k.val := by
      intro hl
      apply hk
      apply Fin.ext
      have hk' : k.val < 2 ^ 32 := lt_trans k.isLt (by norm_num)
      have : l.toNat = k.val := by rw [hl, BitVec.toNat_ofNat, Nat.mod_eq_of_lt hk']
      exact this.symm
    simp only [oh]
    rw [if_neg hne, mul_zero]
  · intro hk; exact absurd (Finset.mem_univ _) hk

/-- Subtracting a real bias after adding a real one is adding their difference, whatever the first summand. -/
theorem add_sub_assoc_real (d b a : EReal) (hb : b ≠ ⊤ ∧ b ≠ ⊥) (ha : a ≠ ⊤ ∧ a ≠ ⊥) : (d + b) - a = d + (b - a) := by
  rw [sub_eq_add_neg, sub_eq_add_neg, add_assoc]

/-- A finite sum of terms none of which is `⊤` is not `⊤`. -/
private theorem sum_ne_top {ι : Type*} (s : Finset ι) (f : ι → EReal) (h : ∀ i ∈ s, f i ≠ ⊤) :
    ∑ i ∈ s, f i ≠ ⊤ := by
  classical
  induction s using Finset.induction_on with
  | empty => simp
  | insert a s ha ih =>
    rw [Finset.sum_insert ha]
    exact EReal.add_ne_top (h a (Finset.mem_insert_self a s))
      (ih (fun i hi => h i (Finset.mem_insert_of_mem hi)))

/-- Negation distributes over a sum none of whose terms is `⊤`. -/
theorem neg_sum_of_ne_top {ι : Type*} (s : Finset ι) (f : ι → EReal) (h : ∀ i ∈ s, f i ≠ ⊤) :
    -(∑ i ∈ s, f i) = ∑ i ∈ s, -(f i) := by
  classical
  induction s using Finset.induction_on with
  | empty => simp
  | insert a s ha ih =>
    have hs : ∀ i ∈ s, f i ≠ ⊤ := fun i hi => h i (Finset.mem_insert_of_mem hi)
    rw [Finset.sum_insert ha, Finset.sum_insert ha,
      EReal.neg_add (Or.inr (sum_ne_top s f hs)) (Or.inl (h a (Finset.mem_insert_self a s))),
      sub_eq_add_neg, ih hs]

/-- A sum over `m` consecutive blocks of length `n` is the sum over the first `m * n` naturals. -/
private theorem sum_range_mul (g : ℕ → EReal) (m n : ℕ) :
    ∑ i ∈ Finset.range m, ∑ y ∈ Finset.range n, g (i * n + y) = ∑ r ∈ Finset.range (m * n), g r := by
  induction m with
  | zero => simp
  | succ m ih => rw [Finset.sum_range_succ, ih, Nat.succ_mul, Finset.sum_range_add]

/-- The same, with both block indices bounded naturals. -/
private theorem sum_fin_mul (g : ℕ → EReal) (m n : ℕ) :
    ∑ i : Fin m, ∑ y : Fin n, g (i.val * n + y.val) = ∑ r ∈ Finset.range (m * n), g r := by
  rw [← sum_range_mul, Finset.sum_range]
  refine Finset.sum_congr rfl (fun i _ => ?_)
  rw [Finset.sum_range]

/-- The loss, assembled two ways. The kernel: `2 × 128` blocks of 256 rows, each block's sum negated (`0 - ·`), the
    blocks added, then the two blocks of 1000 augmented rows likewise, and the total divided by 67536. The reference:
    the sum over all 67536 rows divided by 67536, then negated. Equal when no row's term is `⊤`. -/
theorem loss_assemble (f : Fin 67536 → EReal) (hf : ∀ r, f r ≠ ⊤) :
    Ideal.div
        ((0 + ∑ j : Fin 2, ∑ i : Fin 128, (0 - ∑ y : Fin 256, f ⟨(j.val * 128 + i.val) * 256 + y.val, by omega⟩))
          + (0 + ∑ s : Fin 2, (0 - ∑ y : Fin 1000, f ⟨65536 + s.val * 1000 + y.val, by omega⟩)))
        (Ideal.ofBits .f32 0x4783E800#32)
      = -(Ideal.div (0 + ∑ r : Fin 67536, f r) (Ideal.ofBits .f32 0x4783E800#32)) := by
  -- the divisor's pattern denotes the real 67536, so both divisions are products with `1 / 67536`
  have hc : Ideal.ofBits .f32 0x4783E800#32 = ((67536 : ℝ) : EReal) := by
    simp [Ideal.ofBits, Ideal.ieee, -EReal.coe_mul]; norm_num
  rw [hc, Ideal.div_coe (by norm_num), Ideal.div_coe (by norm_num)]
  simp only [zero_add, zero_sub]
  rw [← EReal.neg_mul]
  refine congrArg (fun t : EReal => t * (((1 / 67536 : ℝ) : ℝ) : EReal)) ?_
  -- no term is `⊤`, so every negation moves inside its sum, down to the single rows
  have hneg : ∀ {ι : Type} (s : Finset ι) (idx : ι → Fin 67536),
      -(∑ i ∈ s, f (idx i)) = ∑ i ∈ s, -(f (idx i)) :=
    fun s idx => neg_sum_of_ne_top s _ (fun i _ => hf _)
  simp only [hneg]
  -- the negated rows as a function of the row number; both sides are then sums of `g` over the same 67536 numbers:
  -- `256 * 256` block rows `(j * 128 + i) * 256 + y`, then `2 * 1000` rows `65536 + (s * 1000 + y)`
  let g : ℕ → EReal := fun r => if h : r < 67536 then -(f ⟨r, h⟩) else 0
  have hg : ∀ (r : ℕ) (h : r < 67536), -(f ⟨r, h⟩) = g r := by
    intro r h
    show -(f ⟨r, h⟩) = (if h' : r < 67536 then -(f ⟨r, h'⟩) else 0)
    rw [dif_pos h]
  have hR : ∑ r : Fin 67536, -(f r) = ∑ r ∈ Finset.range 67536, g r := by
    rw [Finset.sum_range]
    exact Finset.sum_congr rfl (fun r _ => hg r.val r.isLt)
  have hA : ∑ j : Fin 2, ∑ i : Fin 128, ∑ y : Fin 256, g ((j.val * 128 + i.val) * 256 + y.val)
      = ∑ r ∈ Finset.range 65536, g r := by
    rw [sum_fin_mul (fun t => ∑ y : Fin 256, g (t * 256 + y.val)) 2 128, Finset.sum_range,
      sum_fin_mul g 256 256]
  have hB : ∑ s : Fin 2, ∑ y : Fin 1000, g (65536 + s.val * 1000 + y.val)
      = ∑ r ∈ Finset.range 2000, g (65536 + r) := by
    simp only [Nat.add_assoc]
    exact sum_fin_mul (fun r => g (65536 + r)) 2 1000
  rw [hR]
  simp only [hg]
  rw [hA, hB, ← Finset.sum_range_add g 65536 2000]

/-- A one-hot weighted sum over rows is the sum over the rows of that class. -/
theorem sum_oh_mul {ι : Type*} [Fintype ι] [DecidableEq ι] (lab : ι → BitVec 32) (k : Nat) (x : ι → EReal) :
    ∑ n : ι, oh (lab n) k * x n = ∑ n ∈ Finset.univ.filter (fun n => lab n = BitVec.ofNat 32 k), x n := by
  rw [Finset.sum_filter]
  refine Finset.sum_congr rfl (fun n _ => ?_)
  unfold oh
  by_cases hn : lab n = BitVec.ofNat 32 k
  · rw [if_pos hn, if_pos hn, one_mul]
  · rw [if_neg hn, if_neg hn, zero_mul]

end Cert.Spec

end
-- ==== Proof.PayIdx.lean ====
/-
  The kernels' arithmetic read at an index, over the extended reals.
  The one-hot matrix times a block of rows, added to an accumulator, is at class c and feature a the accumulator there
  plus the sum over the block's rows of (1 if the row's label is c, else 0) times the row's entry; likewise for the
  squares. The loss step: the block's logits are the rows times the weights plus the bias; each row's log-probabilities
  are taken off its logits, the label's one selected by a one-hot weighted sum, the rows' selections summed, negated
  (0 - ·) and added to the accumulator. The second kernel does the loss step on a block of 1000 rows with no accumulator.
-/
import proofs.«415097_j5265629905347_2_alg».proof.Proof.Gen.KernelIdeal.Skeleton
import proofs.«415097_j5265629905347_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen
open Idealize.ShloMosaic Idealize.ShloMosaic.ValueIdx

/-! ## Layout operations at an index given by coordinates -/

section Layout
variable {α : Type}

/-- A column `[a, 1]` broadcast to `[a, b]` reads, at `(p, c)`, the column's entry of row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The one-hot weight -/

private theorem cmpi_eq_word (l k : BitVec 32) : IntOp.cmpi .eq l k = if l = k then 1#1 else 0#1 := by
  unfold IntOp.cmpi
  by_cases h : l = k
  · rw [if_pos h]; subst h; simp
  · rw [if_neg h]
    have hb : (l == k) = false := by simpa using h
    show BitVec.ofBool (l == k) = 0#1
    rw [hb]; rfl

/-- The comparison bit of two label words, widened and converted, is `1` when they are equal and `0` otherwise. -/
private theorem onehot_word (l k : BitVec 32) :
    (FloatOps.sitofp (F := Ideal) .f32 ((IntOp.cmpi .eq l k).setWidth 32) : Ideal .f32) = if l = k then 1 else 0 := by
  rw [cmpi_eq_word]
  show ((((if l = k then 1#1 else 0#1 : BitVec 1).setWidth 32).toInt : ℝ) : EReal) = _
  by_cases h : l = k
  · rw [if_pos h, if_pos h]
    have : ((1#1 : BitVec 1).setWidth 32).toInt = 1 := by decide
    rw [this]; simp
  · rw [if_neg h, if_neg h]
    have : ((0#1 : BitVec 1).setWidth 32).toInt = 0 := by decide
    rw [this]; simp

/-! ## Reductions along one axis, and the class-number vectors -/

/-- A sum along the lanes of an `[n, m]` block, at row `r`: the sum over the row's entries. -/
private theorem sum_lane {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- A sum down the rows of a column `[n, 1]`: the sum over the rows. -/
private theorem sum_rows {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (u : Fin 1) :
    multiReduction (F := Ideal) .add [0] ⟨1, ![1]⟩ src 0x00000000#32 h hφ hacc (ix1 u) = ∑ y : Fin n, src (ix2 y (0 : Fin 1)) := by
  refine (Ideal.multiReduction_add_single src 0x00000000#32 h hφ hacc (ix1 u)).trans ?_
  refine Finset.sum_congr rfl fun y _ => congrArg src ?_
  funext c
  match c with
  | ⟨0, _⟩ => rfl
  | ⟨1, _⟩ => exact Fin.ext (by have := u.isLt; show u.val = 0; omega)

/-- A maximum along the lanes of an `[n, m]` block from `-∞`, at row `r`: the row's maximum. -/
private theorem max_lane {n m : ℕ} (src : FVec Ideal ⟨2, ![n, m]⟩ .f32)
    (h : (⟨2, ![n, m]⟩ : Shape).Reduces [1] ⟨1, ![n]⟩) (hφ : FKind.Formats .f32)
    (hacc : (0xFF800000#32 : BitVec 32) = 0xFF800000#32) (r : Fin n) :
    multiReduction (F := Ideal) .maximumf [1] ⟨1, ![n]⟩ src 0xFF800000#32 h hφ hacc (ix1 r)
      = Cert.Spec.rowMax (fun k : Fin m => src (ix2 r k)) := by
  refine (Ideal.multiReduction_maximumf_single src 0xFF800000#32 h hφ hacc (ix1 r)).trans ?_
  have hb : (FloatOps.ofBits (F := Ideal) .f32 0xFF800000#32 : Ideal .f32) = (⊥ : EReal) := by
    show Ideal.ofBits .f32 0xFF800000#32 = ⊥
    simp [Ideal.ofBits, Ideal.ieee]
  have hs : (src ∘ h.lift (ix1 r)) = fun k : Fin m => src (ix2 r k) := by
    funext k
    refine congrArg src ?_
    funext c
    match c with
    | ⟨0, _⟩ => rfl
    | ⟨1, _⟩ => rfl
  rw [hb, hs]
  rfl

/-- The class numbers along the lanes of a `[1, m]` row. -/
private theorem iota_row_apply {m : ℕ} (h : (⟨2, ![1, m]⟩ : Shape).Iotas .tc 32 [1]) (u : Fin 1) (k : Fin m) :
    iota .tc ⟨2, ![1, m]⟩ 32 [1] h (ix2 u k) = BitVec.ofNat 32 k.val :=
  iota_single_apply .tc ⟨2, ![1, m]⟩ 32 1 h (ix2 u k)

/-- The class numbers down the rows of an `[m, 1]` column. -/
private theorem iota_col_apply {m : ℕ} (h : (⟨2, ![m, 1]⟩ : Shape).Iotas .tc 32 [0]) (k : Fin m) (u : Fin 1) :
    iota .tc ⟨2, ![m, 1]⟩ 32 [0] h (ix2 k u) = BitVec.ofNat 32 k.val :=
  iota_single_apply .tc ⟨2, ![m, 1]⟩ 32 0 h (ix2 k u)

/-! ### The product `S1000x256 · S256x1024` -/

private theorem lhs_oh_0 (i : S1000x1024.Idx) (q : dot_S1000x256_S256x1024_S1000x1024_1_0_0_1_n_n.contr.Idx) :
    (dot_S1000x256_S256x1024_S1000x1024_1_0_0_1_n_n.lhsIdx i q 0).val = (i 0).val := by
  unfold DotDims.lhsIdx
  rw [dif_neg (show ¬(0 : Fin S1000x256.rank) ∈ dot_S1000x256_S256x1024_S1000x1024_1_0_0_1_n_n.lhsBatch by decide), dif_pos (show (0 : Fin S1000x256.rank) ∈ dot_S1000x256_S256x1024_S1000x1024_1_0_0_1_n_n.lhsNonContracting by decide)]
  rfl
private theorem lhs_oh_1 (i : S1000x1024.Idx) (q : dot_S1000x256_S256x1024_S1000x1024_1_0_0_1_n_n.contr.Idx) :
    (dot_S1000x256_S256x1024_S1000x1024_1_0_0_1_n_n.lhsIdx i q 1).val = (q ⟨0, by decide⟩).val :=
  dot_S1000x256_S256x1024_S1000x1024_1_0_0_1_n_n.lhsIdx_val_of_single rfl i q
private theorem rhs_oh_0 (i : S1000x1024.Idx) (q : dot_S1000x256_S256x1024_S1000x1024_1_0_0_1_n_n.contr.Idx) :
    (dot_S1000x256_S256x1024_S1000x1024_1_0_0_1_n_n.rhsIdx i q 0).val = (q ⟨0, by decide⟩).val :=
  dot_S1000x256_S256x1024_S1000x1024_1_0_0_1_n_n.rhsIdx_val_of_single rfl i q
private theorem rhs_oh_1 (i : S1000x1024.Idx) (q : dot_S1000x256_S256x1024_S1000x1024_1_0_0_1_n_n.contr.Idx) :
    (dot_S1000x256_S256x1024_S1000x1024_1_0_0_1_n_n.rhsIdx i q 1).val = (i 1).val := by
  unfold DotDims.rhsIdx
  rw [dif_neg (show ¬(1 : Fin S256x1024.rank) ∈ dot_S1000x256_S256x1024_S1000x1024_1_0_0_1_n_n.rhsBatch by decide), dif_pos (show (1 : Fin S256x1024.rank) ∈ dot_S1000x256_S256x1024_S1000x1024_1_0_0_1_n_n.rhsNonContracting by decide)]
  rfl

/-- The product into the zero block, at row `p` and column `c`: the sum over the shared axis of the operands' products. -/
private theorem matmul_oh_apply (L : FVec Ideal S1000x256 .bf16) (R : FVec Ideal S256x1024 .bf16) (p : Fin 1000) (c : Fin 1024) :
    matmul dot_S1000x256_S256x1024_S1000x1024_1_0_0_1_n_n none L R (constant (F := Ideal) S1000x1024 .f32 0x00000000#32) (ix2 p c)
      = ∑ y : Fin 256, L (ix2 p y) * R (ix2 y c) := by
  simp only [matmul]
  rw [Ideal.matmul_constant_zero_apply, ← Equiv.sum_comp (contrEquiv1 dot_S1000x256_S256x1024_S1000x1024_1_0_0_1_n_n 256 rfl rfl).symm]
  refine Finset.sum_congr rfl fun k _ => ?_
  have hk := contrEquiv1_symm_val dot_S1000x256_S256x1024_S1000x1024_1_0_0_1_n_n 256 rfl rfl k
  have el : dot_S1000x256_S256x1024_S1000x1024_1_0_0_1_n_n.lhsIdx (ix2 p c) ((contrEquiv1 dot_S1000x256_S256x1024_S1000x1024_1_0_0_1_n_n 256 rfl rfl).symm k) = ix2 p k := funext fun a => Fin.ext (by
    match a with
    | ⟨0, _⟩ => exact lhs_oh_0 _ _
    | ⟨1, _⟩ => exact (lhs_oh_1 _ _).trans hk)
  have er : dot_S1000x256_S256x1024_S1000x1024_1_0_0_1_n_n.rhsIdx (ix2 p c) ((contrEquiv1 dot_S1000x256_S256x1024_S1000x1024_1_0_0_1_n_n 256 rfl rfl).symm k) = ix2 k c := funext fun a => Fin.ext (by
    match a with
    | ⟨0, _⟩ => exact (rhs_oh_0 _ _).trans hk
    | ⟨1, _⟩ => exact rhs_oh_1 _ _)
  rw [el, er]

/-! ### The product `S256x1024 · S1024x1000` -/

private theorem lhs_w_0 (i : S256x1000.Idx) (q : dot_S256x1024_S1024x1000_S256x1000_1_0_0_1_n_n.contr.Idx) :
    (dot_S256x1024_S1024x1000_S256x1000_1_0_0_1_n_n.lhsIdx i q 0).val = (i 0).val := by
  unfold DotDims.lhsIdx
  rw [dif_neg (show ¬(0 : Fin S256x1024.rank) ∈ dot_S256x1024_S1024x1000_S256x1000_1_0_0_1_n_n.lhsBatch by decide), dif_pos (show (0 : Fin S256x1024.rank) ∈ dot_S256x1024_S1024x1000_S256x1000_1_0_0_1_n_n.lhsNonContracting by decide)]
  rfl
private theorem lhs_w_1 (i : S256x1000.Idx) (q : dot_S256x1024_S1024x1000_S256x1000_1_0_0_1_n_n.contr.Idx) :
    (dot_S256x1024_S1024x1000_S256x1000_1_0_0_1_n_n.lhsIdx i q 1).val = (q ⟨0, by decide⟩).val :=
  dot_S256x1024_S1024x1000_S256x1000_1_0_0_1_n_n.lhsIdx_val_of_single rfl i q
private theorem rhs_w_0 (i : S256x1000.Idx) (q : dot_S256x1024_S1024x1000_S256x1000_1_0_0_1_n_n.contr.Idx) :
    (dot_S256x1024_S1024x1000_S256x1000_1_0_0_1_n_n.rhsIdx i q 0).val = (q ⟨0, by decide⟩).val :=
  dot_S256x1024_S1024x1000_S256x1000_1_0_0_1_n_n.rhsIdx_val_of_single rfl i q
private theorem rhs_w_1 (i : S256x1000.Idx) (q : dot_S256x1024_S1024x1000_S256x1000_1_0_0_1_n_n.contr.Idx) :
    (dot_S256x1024_S1024x1000_S256x1000_1_0_0_1_n_n.rhsIdx i q 1).val = (i 1).val := by
  unfold DotDims.rhsIdx
  rw [dif_neg (show ¬(1 : Fin S1024x1000.rank) ∈ dot_S256x1024_S1024x1000_S256x1000_1_0_0_1_n_n.rhsBatch by decide), dif_pos (show (1 : Fin S1024x1000.rank) ∈ dot_S256x1024_S1024x1000_S256x1000_1_0_0_1_n_n.rhsNonContracting by decide)]
  rfl

/-- The product into the zero block, at row `p` and column `c`: the sum over the shared axis of the operands' products. -/
private theorem matmul_w_apply (L : FVec Ideal S256x1024 .bf16) (R : FVec Ideal S1024x1000 .bf16) (p : Fin 256) (c : Fin 1000) :
    matmul dot_S256x1024_S1024x1000_S256x1000_1_0_0_1_n_n none L R (constant (F := Ideal) S256x1000 .f32 0x00000000#32) (ix2 p c)
      = ∑ y : Fin 1024, L (ix2 p y) * R (ix2 y c) := by
  simp only [matmul]
  rw [Ideal.matmul_constant_zero_apply, ← Equiv.sum_comp (contrEquiv1 dot_S256x1024_S1024x1000_S256x1000_1_0_0_1_n_n 1024 rfl rfl).symm]
  refine Finset.sum_congr rfl fun k _ => ?_
  have hk := contrEquiv1_symm_val dot_S256x1024_S1024x1000_S256x1000_1_0_0_1_n_n 1024 rfl rfl k
  have el : dot_S256x1024_S1024x1000_S256x1000_1_0_0_1_n_n.lhsIdx (ix2 p c) ((contrEquiv1 dot_S256x1024_S1024x1000_S256x1000_1_0_0_1_n_n 1024 rfl rfl).symm k) = ix2 p k := funext fun a => Fin.ext (by
    match a with
    | ⟨0, _⟩ => exact lhs_w_0 _ _
    | ⟨1, _⟩ => exact (lhs_w_1 _ _).trans hk)
  have er : dot_S256x1024_S1024x1000_S256x1000_1_0_0_1_n_n.rhsIdx (ix2 p c) ((contrEquiv1 dot_S256x1024_S1024x1000_S256x1000_1_0_0_1_n_n 1024 rfl rfl).symm k) = ix2 k c := funext fun a => Fin.ext (by
    match a with
    | ⟨0, _⟩ => exact (rhs_w_0 _ _).trans hk
    | ⟨1, _⟩ => exact rhs_w_1 _ _)
  rw [el, er]

/-! ### The product `S1000x1024 · S1024x1000` -/

private theorem lhs_aug_0 (i : S1000x1000.Idx) (q : dot_S1000x1024_S1024x1000_S1000x1000_1_0_0_1_n_n.contr.Idx) :
    (dot_S1000x1024_S1024x1000_S1000x1000_1_0_0_1_n_n.lhsIdx i q 0).val = (i 0).val := by
  unfold DotDims.lhsIdx
  rw [dif_neg (show ¬(0 : Fin S1000x1024.rank) ∈ dot_S1000x1024_S1024x1000_S1000x1000_1_0_0_1_n_n.lhsBatch by decide), dif_pos (show (0 : Fin S1000x1024.rank) ∈ dot_S1000x1024_S1024x1000_S1000x1000_1_0_0_1_n_n.lhsNonContracting by decide)]
  rfl
private theorem lhs_aug_1 (i : S1000x1000.Idx) (q : dot_S1000x1024_S1024x1000_S1000x1000_1_0_0_1_n_n.contr.Idx) :
    (dot_S1000x1024_S1024x1000_S1000x1000_1_0_0_1_n_n.lhsIdx i q 1).val = (q ⟨0, by decide⟩).val :=
  dot_S1000x1024_S1024x1000_S1000x1000_1_0_0_1_n_n.lhsIdx_val_of_single rfl i q
private theorem rhs_aug_0 (i : S1000x1000.Idx) (q : dot_S1000x1024_S1024x1000_S1000x1000_1_0_0_1_n_n.contr.Idx) :
    (dot_S1000x1024_S1024x1000_S1000x1000_1_0_0_1_n_n.rhsIdx i q 0).val = (q ⟨0, by decide⟩).val :=
  dot_S1000x1024_S1024x1000_S1000x1000_1_0_0_1_n_n.rhsIdx_val_of_single rfl i q
private theorem rhs_aug_1 (i : S1000x1000.Idx) (q : dot_S1000x1024_S1024x1000_S1000x1000_1_0_0_1_n_n.contr.Idx) :
    (dot_S1000x1024_S1024x1000_S1000x1000_1_0_0_1_n_n.rhsIdx i q 1).val = (i 1).val := by
  unfold DotDims.rhsIdx
  rw [dif_neg (show ¬(1 : Fin S1024x1000.rank) ∈ dot_S1000x1024_S1024x1000_S1000x1000_1_0_0_1_n_n.rhsBatch by decide), dif_pos (show (1 : Fin S1024x1000.rank) ∈ dot_S1000x1024_S1024x1000_S1000x1000_1_0_0_1_n_n.rhsNonContracting by decide)]
  rfl

/-- The product into the zero block, at row `p` and column `c`: the sum over the shared axis of the operands' products. -/
private theorem matmul_aug_apply (L : FVec Ideal S1000x1024 .bf16) (R : FVec Ideal S1024x1000 .bf16) (p : Fin 1000) (c : Fin 1000) :
    matmul dot_S1000x1024_S1024x1000_S1000x1000_1_0_0_1_n_n none L R (constant (F := Ideal) S1000x1000 .f32 0x00000000#32) (ix2 p c)
      = ∑ y : Fin 1024, L (ix2 p y) * R (ix2 y c) := by
  simp only [matmul]
  rw [Ideal.matmul_constant_zero_apply, ← Equiv.sum_comp (contrEquiv1 dot_S1000x1024_S1024x1000_S1000x1000_1_0_0_1_n_n 1024 rfl rfl).symm]
  refine Finset.sum_congr rfl fun k _ => ?_
  have hk := contrEquiv1_symm_val dot_S1000x1024_S1024x1000_S1000x1000_1_0_0_1_n_n 1024 rfl rfl k
  have el : dot_S1000x1024_S1024x1000_S1000x1000_1_0_0_1_n_n.lhsIdx (ix2 p c) ((contrEquiv1 dot_S1000x1024_S1024x1000_S1000x1000_1_0_0_1_n_n 1024 rfl rfl).symm k) = ix2 p k := funext fun a => Fin.ext (by
    match a with
    | ⟨0, _⟩ => exact lhs_aug_0 _ _
    | ⟨1, _⟩ => exact (lhs_aug_1 _ _).trans hk)
  have er : dot_S1000x1024_S1024x1000_S1000x1000_1_0_0_1_n_n.rhsIdx (ix2 p c) ((contrEquiv1 dot_S1000x1024_S1024x1000_S1000x1000_1_0_0_1_n_n 1024 rfl rfl).symm k) = ix2 k c := funext fun a => Fin.ext (by
    match a with
    | ⟨0, _⟩ => exact (rhs_aug_0 _ _).trans hk
    | ⟨1, _⟩ => exact rhs_aug_1 _ _)
  rw [el, er]

/-! ## The one-hot matrix times a block of rows -/

/-- The one-hot matrix of a block's labels, at class `c` and row `y`. -/
private theorem pay6_apply (x1 : Vec Ideal S1x256 .i32) (cc : Fin 1000) (y : Fin 256) :
    k0_pay6 (F := Ideal) x1 (ix2 cc y) = Cert.Spec.oh (x1 (ix2 (0 : Fin 1) y)) cc.val := by
  unfold k0_pay6
  dsimp only
  show FloatOps.sitofp (F := Ideal) .f32 ((IntOp.cmpi .eq
      (broadcastTo S1000x256 (iota .tc S1000x1 32 [0] iota_S1000x1_d0_w32) broadcasts_S1000x1_S1000x256 (ix2 cc y))
      (broadcastTo S1000x256 (shapeCast S1x256 x1 shapeCasts_S1x256_S1x256) broadcasts_S1x256_S1000x256 (ix2 cc y))).setWidth 32) = _
  rw [broadcastTo_a1_ab_apply, broadcastTo_1b_ab_apply, shapeCast_self, iota_col_apply, onehot_word]
  unfold Cert.Spec.oh
  by_cases hl : x1 (ix2 (0 : Fin 1) y) = BitVec.ofNat 32 cc.val
  · rw [if_pos hl, if_pos hl.symm]
  · rw [if_neg hl, if_neg (fun h => hl h.symm)]

theorem pay7_apply (x0 : Vec Ideal S256x1024 .f32) (x1 : Vec Ideal S1x256 .i32) (acc : Vec Ideal S1x1000x1024 .f32)
    (cc : Fin 1000) (a : Fin 1024) :
    k0_pay7 (F := Ideal) x0 x1 acc (ix3 (0 : Fin 1) cc a)
      = acc (ix3 (0 : Fin 1) cc a) + ∑ y : Fin 256, Cert.Spec.oh (x1 (ix2 (0 : Fin 1) y)) cc.val * x0 (ix2 y a) := by
  unfold k0_pay7
  rw [addf_apply, shapeCast_self, shapeCast_ab_1ab_apply, matmul_oh_apply]
  refine congrArg (acc (ix3 (0 : Fin 1) cc a) + ·) (Finset.sum_congr rfl fun y _ => ?_)
  rw [pay6_apply]
  rfl

theorem pay8_apply (x0 : Vec Ideal S256x1024 .f32) (x1 : Vec Ideal S1x256 .i32) (acc : Vec Ideal S1x1000x1024 .f32)
    (cc : Fin 1000) (a : Fin 1024) :
    k0_pay8 (F := Ideal) x0 x1 acc (ix3 (0 : Fin 1) cc a)
      = acc (ix3 (0 : Fin 1) cc a)
        + ∑ y : Fin 256, Cert.Spec.oh (x1 (ix2 (0 : Fin 1) y)) cc.val * (x0 (ix2 y a) * x0 (ix2 y a)) := by
  unfold k0_pay8
  rw [addf_apply, shapeCast_self, shapeCast_ab_1ab_apply, matmul_oh_apply]
  refine congrArg (acc (ix3 (0 : Fin 1) cc a) + ·) (Finset.sum_congr rfl fun y _ => ?_)
  rw [pay6_apply]
  rfl

/-! ## A row's log-probabilities, and the label's one -/

private theorem exp_apply {s : Shape} (a : FVec Ideal s .f32) (i : s.Idx) : exp a i = Ideal.exp (a i) := rfl
private theorem log_apply {s : Shape} (a : FVec Ideal s .f32) (i : s.Idx) : log a i = Ideal.log (a i) := rfl

/-- The block's log-probabilities as the kernel takes them — each row's maximum subtracted, then the logarithm of the
    row's sum of exponentials — are, at row `r` and class `k`, the log-probability of class `k` in row `r`. -/
private theorem logsoftmax_apply {n m : ℕ} (z : FVec Ideal ⟨2, ![n, m]⟩ .f32)
    (hR : (⟨2, ![n, m]⟩ : Shape).Reduces [1] ⟨1, ![n]⟩) (hC : (⟨1, ![n]⟩ : Shape).ShapeCasts ⟨2, ![n, 1]⟩)
    (hB : (⟨2, ![n, 1]⟩ : Shape).Broadcasts ⟨2, ![n, m]⟩) (hφ : FKind.Formats .f32)
    (hmax : (0xFF800000#32 : BitVec 32) = 0xFF800000#32) (hadd : (0x00000000#32 : BitVec 32) = 0x00000000#32)
    (r : Fin n) (k : Fin m) :
    subf (subf z (broadcastTo ⟨2, ![n, m]⟩ (shapeCast ⟨2, ![n, 1]⟩
            (multiReduction (F := Ideal) .maximumf [1] ⟨1, ![n]⟩ z 0xFF800000#32 hR hφ hmax) hC) hB))
        (broadcastTo ⟨2, ![n, m]⟩ (log (shapeCast ⟨2, ![n, 1]⟩ (multiReduction (F := Ideal) .add [1] ⟨1, ![n]⟩
            (exp (subf z (broadcastTo ⟨2, ![n, m]⟩ (shapeCast ⟨2, ![n, 1]⟩
              (multiReduction (F := Ideal) .maximumf [1] ⟨1, ![n]⟩ z 0xFF800000#32 hR hφ hmax) hC) hB)))
            0x00000000#32 hR hφ hadd) hC)) hB) (ix2 r k)
      = Cert.Spec.logp (fun k' : Fin m => z (ix2 r k')) k := by
  have hM : ∀ c : Fin m, broadcastTo ⟨2, ![n, m]⟩ (shapeCast ⟨2, ![n, 1]⟩
      (multiReduction (F := Ideal) .maximumf [1] ⟨1, ![n]⟩ z 0xFF800000#32 hR hφ hmax) hC) hB (ix2 r c)
        = Cert.Spec.rowMax (fun k' : Fin m => z (ix2 r k')) := by
    intro c
    rw [broadcastTo_a1_ab_apply, shapeCast_a_a1_apply, max_lane]
  rw [subf_apply, subf_apply, hM, broadcastTo_a1_ab_apply, log_apply, shapeCast_a_a1_apply, sum_lane]
  unfold Cert.Spec.logp
  refine congrArg (fun t : EReal => (z (ix2 r k) - Cert.Spec.rowMax (fun k' : Fin m => z (ix2 r k'))) - Ideal.log t) ?_
  refine Finset.sum_congr rfl fun k' _ => ?_
  rw [exp_apply, subf_apply, hM]

/-- The one-hot block of a column of labels against the class numbers, at row `r` and class `k`. -/
private theorem onehot_apply {n m : ℕ} (lab : IVec ⟨2, ![n, 1]⟩ 32)
    (hS : (⟨2, ![n, 1]⟩ : Shape).ShapeCasts ⟨2, ![n, 1]⟩) (hB : (⟨2, ![n, 1]⟩ : Shape).Broadcasts ⟨2, ![n, m]⟩)
    (hI : (⟨2, ![1, m]⟩ : Shape).Iotas .tc 32 [1]) (hBr : (⟨2, ![1, m]⟩ : Shape).Broadcasts ⟨2, ![n, m]⟩)
    (hlt : 1 < 32) (r : Fin n) (k : Fin m) :
    (sitofp .f32 (extui 32 (cmpi .eq (broadcastTo ⟨2, ![n, m]⟩ (shapeCast ⟨2, ![n, 1]⟩ lab hS) hB)
        (broadcastTo ⟨2, ![n, m]⟩ (iota .tc ⟨2, ![1, m]⟩ 32 [1] hI) hBr)) hlt) : FVec Ideal ⟨2, ![n, m]⟩ .f32) (ix2 r k)
      = Cert.Spec.oh (lab (ix2 r (0 : Fin 1))) k.val := by
  show FloatOps.sitofp (F := Ideal) .f32 ((IntOp.cmpi .eq
      (broadcastTo ⟨2, ![n, m]⟩ (shapeCast ⟨2, ![n, 1]⟩ lab hS) hB (ix2 r k))
      (broadcastTo ⟨2, ![n, m]⟩ (iota .tc ⟨2, ![1, m]⟩ 32 [1] hI) hBr (ix2 r k))).setWidth 32) = _
  rw [broadcastTo_a1_ab_apply, broadcastTo_1b_ab_apply, shapeCast_self, iota_row_apply, onehot_word]
  rfl

/-! ## The loss step -/

/-- The block's rows times the weights, at row `y` and class `k`. -/
private theorem pay9_apply (x0 : Vec Ideal S256x1024 .f32) (x3 : Vec Ideal S1024x1000 .bf16) (y : Fin 256) (k : Fin 1000) :
    k0_pay9 (F := Ideal) x0 x3 (ix2 y k) = ∑ a : Fin 1024, x0 (ix2 y a) * x3 (ix2 a k) := by
  unfold k0_pay9
  rw [shapeCast_self, matmul_w_apply]
  rfl

theorem pay1_apply (x0 : Vec Ideal S256x1024 .f32) (x3 : Vec Ideal S1024x1000 .bf16) (x4 : Vec Ideal S1x1000 .f32)
    (x2 : Vec Ideal S256x1 .i32) (acc : Vec Ideal S1x1x1 .f32) :
    k0_pay1 (F := Ideal) (k0_pay9 x0 x3) x4 x2 acc (ix3 (0 : Fin 1) (0 : Fin 1) (0 : Fin 1))
      = acc (ix3 (0 : Fin 1) (0 : Fin 1) (0 : Fin 1))
        + (0 - ∑ y : Fin 256, Cert.Spec.selOH
            (Cert.Spec.logits (fun a => x0 (ix2 y a)) (fun a k => x3 (ix2 a k)) (fun k => x4 (ix2 (0 : Fin 1) k)))
            (x2 (ix2 y (0 : Fin 1)))) := by
  have h0 : (Scalar.ofBits (F := Ideal) .f32 0x00000000#32 : Ideal .f32) = (0 : EReal) := Ideal.ofBits_zero_f32
  unfold k0_pay1
  rw [addf_apply, shapeCast_self, shapeCast_ab_1ab_apply, subf_apply, broadcast_apply, shapeCast_a_1a_apply, sum_rows, h0]
  refine congrArg (fun t : EReal => acc (ix3 (0 : Fin 1) (0 : Fin 1) (0 : Fin 1)) + (0 - t)) (Finset.sum_congr rfl fun y _ => ?_)
  rw [shapeCast_a_a1_apply, sum_lane]
  unfold Cert.Spec.selOH
  refine Finset.sum_congr rfl fun k _ => ?_
  rw [mulf_apply, logsoftmax_apply, onehot_apply]
  refine congrArg (fun z : Fin 1000 → EReal => Cert.Spec.logp z k * Cert.Spec.oh (x2 (ix2 y (0 : Fin 1))) k.val) (funext fun k' => ?_)
  rw [addf_apply, pay9_apply, broadcastTo_1b_ab_apply, shapeCast_self]
  rfl

theorem k1_pay1_apply (x0 : Vec Ideal S1000x1024 .f32) (x3 : Vec Ideal S1024x1000 .bf16) (x6 : Vec Ideal S1x1000 .f32)
    (x20 : Vec Ideal S1000x1 .i32) :
    k1_pay1 (F := Ideal) x0 x3 x6 x20 (ix3 (0 : Fin 1) (0 : Fin 1) (0 : Fin 1))
      = 0 - ∑ y : Fin 1000, Cert.Spec.selOH
            (Cert.Spec.logits (fun a => x0 (ix2 y a)) (fun a k => x3 (ix2 a k)) (fun k => x6 (ix2 (0 : Fin 1) k)))
            (x20 (ix2 y (0 : Fin 1))) := by
  have h0 : (Scalar.ofBits (F := Ideal) .f32 0x00000000#32 : Ideal .f32) = (0 : EReal) := Ideal.ofBits_zero_f32
  unfold k1_pay1
  rw [shapeCast_ab_1ab_apply, subf_apply, broadcast_apply, shapeCast_a_1a_apply, sum_rows, h0]
  refine congrArg (fun t : EReal => 0 - t) (Finset.sum_congr rfl fun y _ => ?_)
  rw [shapeCast_a_a1_apply, sum_lane]
  unfold Cert.Spec.selOH
  refine Finset.sum_congr rfl fun k _ => ?_
  rw [mulf_apply, logsoftmax_apply, onehot_apply]
  refine congrArg (fun z : Fin 1000 → EReal => Cert.Spec.logp z k * Cert.Spec.oh (x20 (ix2 y (0 : Fin 1))) k.val) (funext fun k' => ?_)
  rw [addf_apply, matmul_aug_apply, broadcastTo_1b_ab_apply]
  simp only [shapeCast_self]
  rfl

/-- The zero blocks the first point of a half stores are zero everywhere. -/
theorem pay2_apply (j : S1x1000x1024.Idx) : k0_pay2 (F := Ideal) j = 0 := Ideal.ofBits_zero_f32
theorem pay3_apply (j : S1x1000x1024.Idx) : k0_pay3 (F := Ideal) j = 0 := Ideal.ofBits_zero_f32
theorem pay4_apply (j : S1x1x1.Idx) : k0_pay4 (F := Ideal) j = 0 := Ideal.ofBits_zero_f32

end Cert.KernelIdeal.Pay

end
-- ==== Proof.Region0Fold.lean ====
/-
  What the first pass leaves in its three result arrays, from the arrays it finds on entry.
  The grid is 2 halves of 128 blocks of 256 rows; a half's three output blocks stay in their buffers across the half's
  128 points and are written back after its last point. By induction on the point, after block i of half j the buffers
  hold the sums over blocks 0..i of that half of each block's contribution, so the result arrays hold, at half j:
  the class sums  Σ_i Σ_y [label of row (j,i,y) = c] x(j,i,y)(a), the same of squares, and the loss partial
  Σ_i (0 - Σ_y selected log-probability of row (j,i,y)).
-/
import proofs.«415097_j5265629905347_2_alg».proof.Proof.Region0Pieces
import proofs.«415097_j5265629905347_2_alg».proof.Proof.PayIdx
import proofs.«415097_j5265629905347_2_alg».proof.Proof.Rows
import proofs.«415097_j5265629905347_2_alg».proof.Proof.Gen.KernelIdeal.Frame
import Idealize.ShloMosaic.Lib.Pipeline.Value
import Idealize.ShloMosaic.Lib.ValueIdx

noncomputable section

namespace Cert.KernelIdeal.R0F

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The grid has 256 points. -/
private theorem N256 : cfg0.N = 256 := N_0

/-- Where each window's block sits at point t: the data rows' block t, the label row's block t, the label column's
    block t, the whole weights and bias, and output block t / 128. -/
private theorem idx0 : ∀ t : Fin grid0.N, win0_0.index t 0 = t.val ∧ win0_0.index t 1 = 0 := by decide +kernel
private theorem idx1 : ∀ t : Fin grid0.N, win0_1.index t 0 = 0 ∧ win0_1.index t 1 = t.val := by decide +kernel
private theorem idx2 : ∀ t : Fin grid0.N, win0_2.index t 0 = t.val ∧ win0_2.index t 1 = 0 := by decide +kernel
private theorem idx3 : ∀ t : Fin grid0.N, win0_3.index t 0 = 0 ∧ win0_3.index t 1 = 0 := by decide +kernel
private theorem idx4 : ∀ t : Fin grid0.N, win0_4.index t 0 = 0 ∧ win0_4.index t 1 = 0 := by decide +kernel
private theorem idx5 : ∀ t : Fin grid0.N, win0_5.index t 0 = t.val / 128 ∧ win0_5.index t 1 = 0 ∧ win0_5.index t 2 = 0 := by decide +kernel
private theorem idx6 : ∀ t : Fin grid0.N, win0_6.index t 0 = t.val / 128 ∧ win0_6.index t 1 = 0 ∧ win0_6.index t 2 = 0 := by decide +kernel
private theorem idx7 : ∀ t : Fin grid0.N, win0_7.index t 0 = t.val / 128 ∧ win0_7.index t 1 = 0 ∧ win0_7.index t 2 = 0 := by decide +kernel

/-- Row y of block s of the 256 blocks of 256 data rows. -/
private def rowN (s : ℕ) (y : Fin 256) : Fin 65536 := ⟨(s % 256) * 256 + y.val, by omega⟩

/-- Block t of the data rows reads the array at rows 256 t + y. -/
private theorem blk0_apply (c : Dev nD) (t : Fin cfg0.N) (y : Fin 256) (a : Fin 1024) :
    (iblk0 (F := Ideal) V c 0 t : Vec Ideal S256x1024 .f32) (ix2 y a)
      = Cert.Spec.rd S65536x1024 (V c main_arg0) (ix2 (rowN t.val y) a) := by
  have ht : t.val < 256 := lt_of_lt_of_eq t.isLt N256
  have hi := idx0 t
  unfold iblk0
  rw [View.read_apply]
  show V c main_arg0 _ = V c main_arg0 _
  congr 1
  funext d
  apply Fin.ext
  match d with
  | ⟨0, _⟩ => show win0_0.index t 0 * 256 + 1 * y.val = (t.val % 256) * 256 + y.val; rw [hi.1]; omega
  | ⟨1, _⟩ => show win0_0.index t 1 * 1024 + 1 * a.val = a.val; rw [hi.2]; omega

/-- Block t of the label row reads it at columns 256 t + y. -/
private theorem blk1_apply (c : Dev nD) (t : Fin cfg0.N) (y : Fin 256) :
    (iblk0 (F := Ideal) V c 1 t : Vec Ideal S1x256 .i32) (ix2 (0 : Fin 1) y)
      = Cert.Spec.rdi S1x65536 (V c main_v0) (ix2 (0 : Fin 1) (rowN t.val y)) := by
  have ht : t.val < 256 := lt_of_lt_of_eq t.isLt N256
  have hi := idx1 t
  unfold iblk0
  rw [View.read_apply]
  show V c main_v0 _ = V c main_v0 _
  congr 1
  funext d
  apply Fin.ext
  match d with
  | ⟨0, _⟩ => show win0_1.index t 0 * 1 + 1 * 0 = 0; rw [hi.1]
  | ⟨1, _⟩ => show win0_1.index t 1 * 256 + 1 * y.val = (t.val % 256) * 256 + y.val; rw [hi.2]; omega

/-- Block t of the label column reads it at rows 256 t + y. -/
private theorem blk2_apply (c : Dev nD) (t : Fin cfg0.N) (y : Fin 256) :
    (iblk0 (F := Ideal) V c 2 t : Vec Ideal S256x1 .i32) (ix2 y (0 : Fin 1))
      = Cert.Spec.rdi S65536x1 (V c main_v1) (ix2 (rowN t.val y) (0 : Fin 1)) := by
  have ht : t.val < 256 := lt_of_lt_of_eq t.isLt N256
  have hi := idx2 t
  unfold iblk0
  rw [View.read_apply]
  show V c main_v1 _ = V c main_v1 _
  congr 1
  funext d
  apply Fin.ext
  match d with
  | ⟨0, _⟩ => show win0_2.index t 0 * 256 + 1 * y.val = (t.val % 256) * 256 + y.val; rw [hi.1]; omega
  | ⟨1, _⟩ => show win0_2.index t 1 * 1 + 1 * 0 = 0; rw [hi.2]

/-- The weights' one block is the whole array. -/
private theorem blk3_apply (c : Dev nD) (t : Fin cfg0.N) (a : Fin 1024) (k : Fin 1000) :
    (iblk0 (F := Ideal) V c 3 t : Vec Ideal S1024x1000 .bf16) (ix2 a k)
      = Cert.Spec.rd S1024x1000 (V c main_v5) (ix2 a k) := by
  have hi := idx3 t
  unfold iblk0
  rw [View.read_apply]
  show V c main_v5 _ = V c main_v5 _
  congr 1
  funext d
  apply Fin.ext
  match d with
  | ⟨0, _⟩ => show win0_3.index t 0 * 1024 + 1 * a.val = a.val; rw [hi.1]; omega
  | ⟨1, _⟩ => show win0_3.index t 1 * 1000 + 1 * k.val = k.val; rw [hi.2]; omega

/-- The bias's one block is the whole array. -/
private theorem blk4_apply (c : Dev nD) (t : Fin cfg0.N) (k : Fin 1000) :
    (iblk0 (F := Ideal) V c 4 t : Vec Ideal S1x1000 .f32) (ix2 (0 : Fin 1) k)
      = Cert.Spec.rd S1x1000 (V c main_v3) (ix2 (0 : Fin 1) k) := by
  have hi := idx4 t
  unfold iblk0
  rw [View.read_apply]
  show V c main_v3 _ = V c main_v3 _
  congr 1
  funext d
  apply Fin.ext
  match d with
  | ⟨0, _⟩ => show win0_4.index t 0 * 1 + 1 * 0 = 0; rw [hi.1]
  | ⟨1, _⟩ => show win0_4.index t 1 * 1000 + 1 * k.val = k.val; rw [hi.2]; omega

/-- Block s's contribution to the class sums at class cc and feature a. -/
private def M5 (c : Dev nD) (cc : Fin 1000) (a : Fin 1024) (s : ℕ) : EReal :=
  ∑ y : Fin 256, Cert.Spec.oh (Cert.Spec.rdi S1x65536 (V c main_v0) (ix2 (0 : Fin 1) (rowN s y))) cc.val
      * Cert.Spec.rd S65536x1024 (V c main_arg0) (ix2 (rowN s y) a)

/-- Block s's contribution to the class sums of squares. -/
private def M6 (c : Dev nD) (cc : Fin 1000) (a : Fin 1024) (s : ℕ) : EReal :=
  ∑ y : Fin 256, Cert.Spec.oh (Cert.Spec.rdi S1x65536 (V c main_v0) (ix2 (0 : Fin 1) (rowN s y))) cc.val
      * (Cert.Spec.rd S65536x1024 (V c main_arg0) (ix2 (rowN s y) a)
          * Cert.Spec.rd S65536x1024 (V c main_arg0) (ix2 (rowN s y) a))

/-- Block s's contribution to the loss partial. -/
private def M7 (c : Dev nD) (s : ℕ) : EReal :=
  0 - ∑ y : Fin 256, Cert.Spec.selOH
    (Cert.Spec.logits (fun a => Cert.Spec.rd S65536x1024 (V c main_arg0) (ix2 (rowN s y) a))
      (fun a k => Cert.Spec.rd S1024x1000 (V c main_v5) (ix2 a k))
      (fun k => Cert.Spec.rd S1x1000 (V c main_v3) (ix2 (0 : Fin 1) k)))
    (Cert.Spec.rdi S65536x1 (V c main_v1) (ix2 (rowN s y) (0 : Fin 1)))

/-- One point's update of the class sums: the accumulator plus the point's block contribution. -/
private theorem step5 (c : Dev nD) (t : Fin cfg0.N) (acc : Vec Ideal S1x1000x1024 .f32) (cc : Fin 1000) (a : Fin 1024) :
    k0_pay7 (F := Ideal) (iblk0 V c 0 t) (iblk0 V c 1 t) acc (ix3 (0 : Fin 1) cc a)
      = acc (ix3 (0 : Fin 1) cc a) + M5 V c cc a t.val := by
  refine (Pay.pay7_apply (iblk0 V c 0 t) (iblk0 V c 1 t) acc cc a).trans ?_
  unfold M5
  refine congrArg (fun z => acc (ix3 (0 : Fin 1) cc a) + z) ?_
  refine Finset.sum_congr rfl fun y _ => ?_
  rw [blk0_apply V c t y a, blk1_apply V c t y]

private theorem step6 (c : Dev nD) (t : Fin cfg0.N) (acc : Vec Ideal S1x1000x1024 .f32) (cc : Fin 1000) (a : Fin 1024) :
    k0_pay8 (F := Ideal) (iblk0 V c 0 t) (iblk0 V c 1 t) acc (ix3 (0 : Fin 1) cc a)
      = acc (ix3 (0 : Fin 1) cc a) + M6 V c cc a t.val := by
  refine (Pay.pay8_apply (iblk0 V c 0 t) (iblk0 V c 1 t) acc cc a).trans ?_
  unfold M6
  refine congrArg (fun z => acc (ix3 (0 : Fin 1) cc a) + z) ?_
  refine Finset.sum_congr rfl fun y _ => ?_
  rw [blk0_apply V c t y a, blk1_apply V c t y]

private theorem step7 (c : Dev nD) (t : Fin cfg0.N) (acc : Vec Ideal S1x1x1 .f32) :
    k0_pay1 (F := Ideal) (k0_pay9 (iblk0 V c 0 t) (iblk0 V c 3 t)) (iblk0 V c 4 t) (iblk0 V c 2 t) acc
        (ix3 (0 : Fin 1) (0 : Fin 1) (0 : Fin 1))
      = acc (ix3 (0 : Fin 1) (0 : Fin 1) (0 : Fin 1)) + M7 V c t.val := by
  refine (Pay.pay1_apply (iblk0 V c 0 t) (iblk0 V c 3 t) (iblk0 V c 4 t) (iblk0 V c 2 t) acc).trans ?_
  unfold M7
  simp only [blk0_apply V c t, blk2_apply V c t, blk3_apply V c t, blk4_apply V c t]

/-- After point n the class-sum buffer holds the contributions of the blocks of n's half up to n. -/
private theorem inv5 (c : Dev nD) (cc : Fin 1000) (a : Fin 1024) (n : ℕ) : ∀ h : n < cfg0.N,
    (outsAt0 (F := Ideal) V c n h).1 (ix3 (0 : Fin 1) cc a)
      = ∑ s ∈ Finset.range (n % 128 + 1), M5 V c cc a (n - n % 128 + s) := by
  have hA : ∀ (n : ℕ) (h : n < cfg0.N), n % 128 = 0 →
      (outsAt0 (F := Ideal) V c n h).1 (ix3 (0 : Fin 1) cc a)
        = ∑ s ∈ Finset.range (n % 128 + 1), M5 V c cc a (n - n % 128 + s) := by
    intro n h h0
    rw [outsAt0_A V c ⟨n, h⟩ h0]
    dsimp only
    rw [R0.out_A_5, step5 V c ⟨n, h⟩ (k0_pay2 (F := Ideal)) cc a, Pay.pay2_apply, zero_add, h0, Finset.sum_range_one]
    rfl
  induction n with
  | zero => intro h; exact hA 0 h rfl
  | succ n ih =>
    intro h
    by_cases h0 : (n + 1) % 128 = 0
    · exact hA (n + 1) h h0
    · rw [outsAt0_B V c ⟨n + 1, h⟩ h0]
      dsimp only
      rw [R0.out_B_5, step5 V c ⟨n + 1, h⟩ _ cc a]
      show (outsAt0 (F := Ideal) V c n _).1 (ix3 (0 : Fin 1) cc a) + M5 V c cc a (n + 1) = _
      rw [ih (Nat.lt_of_succ_lt h)]
      have e1 : (n + 1) % 128 = n % 128 + 1 := by omega
      have e2 : n + 1 - (n % 128 + 1) = n - n % 128 := by omega
      have e3 : n - n % 128 + (n % 128 + 1) = n + 1 := by omega
      rw [e1, e2, Finset.sum_range_succ _ (n % 128 + 1), e3]

/-- Likewise the buffer of the class sums of squares. -/
private theorem inv6 (c : Dev nD) (cc : Fin 1000) (a : Fin 1024) (n : ℕ) : ∀ h : n < cfg0.N,
    (outsAt0 (F := Ideal) V c n h).2.1 (ix3 (0 : Fin 1) cc a)
      = ∑ s ∈ Finset.range (n % 128 + 1), M6 V c cc a (n - n % 128 + s) := by
  have hA : ∀ (n : ℕ) (h : n < cfg0.N), n % 128 = 0 →
      (outsAt0 (F := Ideal) V c n h).2.1 (ix3 (0 : Fin 1) cc a)
        = ∑ s ∈ Finset.range (n % 128 + 1), M6 V c cc a (n - n % 128 + s) := by
    intro n h h0
    rw [outsAt0_A V c ⟨n, h⟩ h0]
    dsimp only
    rw [R0.out_A_6, step6 V c ⟨n, h⟩ (k0_pay3 (F := Ideal)) cc a, Pay.pay3_apply, zero_add, h0, Finset.sum_range_one]
    rfl
  induction n with
  | zero => intro h; exact hA 0 h rfl
  | succ n ih =>
    intro h
    by_cases h0 : (n + 1) % 128 = 0
    · exact hA (n + 1) h h0
    · rw [outsAt0_B V c ⟨n + 1, h⟩ h0]
      dsimp only
      rw [R0.out_B_6, step6 V c ⟨n + 1, h⟩ _ cc a]
      show (outsAt0 (F := Ideal) V c n _).2.1 (ix3 (0 : Fin 1) cc a) + M6 V c cc a (n + 1) = _
      rw [ih (Nat.lt_of_succ_lt h)]
      have e1 : (n + 1) % 128 = n % 128 + 1 := by omega
      have e2 : n + 1 - (n % 128 + 1) = n - n % 128 := by omega
      have e3 : n - n % 128 + (n % 128 + 1) = n + 1 := by omega
      rw [e1, e2, Finset.sum_range_succ _ (n % 128 + 1), e3]

/-- Likewise the loss buffer. -/
private theorem inv7 (c : Dev nD) (n : ℕ) : ∀ h : n < cfg0.N,
    (outsAt0 (F := Ideal) V c n h).2.2 (ix3 (0 : Fin 1) (0 : Fin 1) (0 : Fin 1))
      = ∑ s ∈ Finset.range (n % 128 + 1), M7 V c (n - n % 128 + s) := by
  have hA : ∀ (n : ℕ) (h : n < cfg0.N), n % 128 = 0 →
      (outsAt0 (F := Ideal) V c n h).2.2 (ix3 (0 : Fin 1) (0 : Fin 1) (0 : Fin 1))
        = ∑ s ∈ Finset.range (n % 128 + 1), M7 V c (n - n % 128 + s) := by
    intro n h h0
    rw [outsAt0_A V c ⟨n, h⟩ h0]
    dsimp only
    rw [R0.out_A_7, step7 V c ⟨n, h⟩ (k0_pay4 (F := Ideal)), Pay.pay4_apply, zero_add, h0, Finset.sum_range_one]
    rfl
  induction n with
  | zero => intro h; exact hA 0 h rfl
  | succ n ih =>
    intro h
    by_cases h0 : (n + 1) % 128 = 0
    · exact hA (n + 1) h h0
    · rw [outsAt0_B V c ⟨n + 1, h⟩ h0]
      dsimp only
      rw [R0.out_B_7, step7 V c ⟨n + 1, h⟩ _]
      show (outsAt0 (F := Ideal) V c n _).2.2 (ix3 (0 : Fin 1) (0 : Fin 1) (0 : Fin 1)) + M7 V c (n + 1) = _
      rw [ih (Nat.lt_of_succ_lt h)]
      have e1 : (n + 1) % 128 = n % 128 + 1 := by omega
      have e2 : n + 1 - (n % 128 + 1) = n - n % 128 := by omega
      have e3 : n - n % 128 + (n % 128 + 1) = n + 1 := by omega
      rw [e1, e2, Finset.sum_range_succ _ (n % 128 + 1), e3]

/-- The result array 5 as the pass leaves it: at half j, the contributions of the half's 128 blocks. -/
private def G5 (c : Dev nD) : Vec Ideal S2x1000x1024 .f32 :=
  fun i => ∑ s ∈ Finset.range 128, M5 V c (i 1) (i 2) ((i 0).val * 128 + s)

/-- Index (0, cc, a) of the output block at a point of half j is index (j, …) of the array. -/
private theorem emb5 (j : Fin 2) (cc : Fin 1000) (a : Fin 1024) (t : Fin cfg0.N) (ht : t.val / 128 = j.val) :
    ((cfg0.win 5).blk t).view.emb (ix3 (0 : Fin 1) cc a) = (ix3 j cc a : S2x1000x1024.Idx) := by
  have hi := idx5 t
  funext d
  apply Fin.ext
  match d with
  | ⟨0, _⟩ => show win0_5.index t 0 * 1 + 1 * 0 = j.val; rw [hi.1]; omega
  | ⟨1, _⟩ => show win0_5.index t 1 * 1000 + 1 * cc.val = cc.val; rw [hi.2.1]; omega
  | ⟨2, _⟩ => show win0_5.index t 2 * 1024 + 1 * a.val = a.val; rw [hi.2.2]; omega

/-- What a write-back of window 5 writes is its block of that array. -/
private theorem hG5 (c : Dev nD) (t : Fin cfg0.N) (hf : (cfg0.win 5).flush t = true) :
    (dat0 (F := Ideal) V c).flushed 5 t = ((cfg0.win 5).blk t).view.read (Elt Ideal) (G5 V c) := by
  have hN := N256
  have h127 : t.val % 128 = 127 := (flush0_5 t).mp hf
  have ht : t.val / 128 < 2 := by have := t.isLt; omega
  funext y
  obtain ⟨cc, a, rfl⟩ : ∃ (cc : Fin 1000) (a : Fin 1024), y = ix3 (0 : Fin 1) cc a :=
    ⟨y 1, y 2, by funext d; match d with
      | ⟨0, _⟩ => exact Subsingleton.elim (α := Fin 1) _ _
      | ⟨1, _⟩ => rfl
      | ⟨2, _⟩ => rfl⟩
  rw [View.read_apply]
  show (outsAt0 (F := Ideal) V c t.val t.isLt).1 (ix3 (0 : Fin 1) cc a)
    = G5 V c (((cfg0.win 5).blk t).view.emb (ix3 (0 : Fin 1) cc a))
  rw [emb5 ⟨t.val / 128, ht⟩ cc a t rfl, inv5 V c cc a t.val t.isLt]
  show _ = ∑ s ∈ Finset.range 128, M5 V c cc a (t.val / 128 * 128 + s)
  have e : t.val - t.val % 128 = t.val / 128 * 128 := by omega
  rw [e, h127]

/-- The result array 6 as the pass leaves it: at half j, the contributions of the half's 128 blocks. -/
private def G6 (c : Dev nD) : Vec Ideal S2x1000x1024 .f32 :=
  fun i => ∑ s ∈ Finset.range 128, M6 V c (i 1) (i 2) ((i 0).val * 128 + s)

/-- Index (0, cc, a) of the output block at a point of half j is index (j, …) of the array. -/
private theorem emb6 (j : Fin 2) (cc : Fin 1000) (a : Fin 1024) (t : Fin cfg0.N) (ht : t.val / 128 = j.val) :
    ((cfg0.win 6).blk t).view.emb (ix3 (0 : Fin 1) cc a) = (ix3 j cc a : S2x1000x1024.Idx) := by
  have hi := idx6 t
  funext d
  apply Fin.ext
  match d with
  | ⟨0, _⟩ => show win0_6.index t 0 * 1 + 1 * 0 = j.val; rw [hi.1]; omega
  | ⟨1, _⟩ => show win0_6.index t 1 * 1000 + 1 * cc.val = cc.val; rw [hi.2.1]; omega
  | ⟨2, _⟩ => show win0_6.index t 2 * 1024 + 1 * a.val = a.val; rw [hi.2.2]; omega

/-- What a write-back of window 6 writes is its block of that array. -/
private theorem hG6 (c : Dev nD) (t : Fin cfg0.N) (hf : (cfg0.win 6).flush t = true) :
    (dat0 (F := Ideal) V c).flushed 6 t = ((cfg0.win 6).blk t).view.read (Elt Ideal) (G6 V c) := by
  have hN := N256
  have h127 : t.val % 128 = 127 := (flush0_6 t).mp hf
  have ht : t.val / 128 < 2 := by have := t.isLt; omega
  funext y
  obtain ⟨cc, a, rfl⟩ : ∃ (cc : Fin 1000) (a : Fin 1024), y = ix3 (0 : Fin 1) cc a :=
    ⟨y 1, y 2, by funext d; match d with
      | ⟨0, _⟩ => exact Subsingleton.elim (α := Fin 1) _ _
      | ⟨1, _⟩ => rfl
      | ⟨2, _⟩ => rfl⟩
  rw [View.read_apply]
  show (outsAt0 (F := Ideal) V c t.val t.isLt).2.1 (ix3 (0 : Fin 1) cc a)
    = G6 V c (((cfg0.win 6).blk t).view.emb (ix3 (0 : Fin 1) cc a))
  rw [emb6 ⟨t.val / 128, ht⟩ cc a t rfl, inv6 V c cc a t.val t.isLt]
  show _ = ∑ s ∈ Finset.range 128, M6 V c cc a (t.val / 128 * 128 + s)
  have e : t.val - t.val % 128 = t.val / 128 * 128 := by omega
  rw [e, h127]

/-- The result array 7 as the pass leaves it: at half j, the contributions of the half's 128 blocks. -/
private def G7 (c : Dev nD) : Vec Ideal S2x1x1 .f32 :=
  fun i => ∑ s ∈ Finset.range 128, M7 V c ((i 0).val * 128 + s)

/-- Index (0, 0, 0) of the output block at a point of half j is index (j, …) of the array. -/
private theorem emb7 (j : Fin 2) (t : Fin cfg0.N) (ht : t.val / 128 = j.val) :
    ((cfg0.win 7).blk t).view.emb (ix3 (0 : Fin 1) (0 : Fin 1) (0 : Fin 1)) = (ix3 j (0 : Fin 1) (0 : Fin 1) : S2x1x1.Idx) := by
  have hi := idx7 t
  funext d
  apply Fin.ext
  match d with
  | ⟨0, _⟩ => show win0_7.index t 0 * 1 + 1 * 0 = j.val; rw [hi.1]; omega
  | ⟨1, _⟩ => show win0_7.index t 1 * 1 + 1 * 0 = 0; rw [hi.2.1]
  | ⟨2, _⟩ => show win0_7.index t 2 * 1 + 1 * 0 = 0; rw [hi.2.2]

/-- What a write-back of window 7 writes is its block of that array. -/
private theorem hG7 (c : Dev nD) (t : Fin cfg0.N) (hf : (cfg0.win 7).flush t = true) :
    (dat0 (F := Ideal) V c).flushed 7 t = ((cfg0.win 7).blk t).view.read (Elt Ideal) (G7 V c) := by
  have hN := N256
  have h127 : t.val % 128 = 127 := (flush0_7 t).mp hf
  have ht : t.val / 128 < 2 := by have := t.isLt; omega
  funext y
  obtain ⟨rfl⟩ : y = ix3 (0 : Fin 1) (0 : Fin 1) (0 : Fin 1) :=
    by funext d; match d with
      | ⟨0, _⟩ => exact Subsingleton.elim (α := Fin 1) _ _
      | ⟨1, _⟩ => exact Subsingleton.elim (α := Fin 1) _ _
      | ⟨2, _⟩ => exact Subsingleton.elim (α := Fin 1) _ _
  rw [View.read_apply]
  show (outsAt0 (F := Ideal) V c t.val t.isLt).2.2 (ix3 (0 : Fin 1) (0 : Fin 1) (0 : Fin 1))
    = G7 V c (((cfg0.win 7).blk t).view.emb (ix3 (0 : Fin 1) (0 : Fin 1) (0 : Fin 1)))
  rw [emb7 ⟨t.val / 128, ht⟩ t rfl, inv7 V c t.val t.isLt]
  show _ = ∑ s ∈ Finset.range 128, M7 V c (t.val / 128 * 128 + s)
  have e : t.val - t.val % 128 = t.val / 128 * 128 := by omega
  rw [e, h127]

/-- The class sums, half j. -/
theorem sum_out_apply (c : Dev nD) (j : Fin 2) (cc : Fin 1000) (a : Fin 1024) :
    Cert.Spec.rd S2x1000x1024 ((dat0 (F := Ideal) V c).arrAt 5 cfg0.N) (ix3 j cc a)
      = ∑ i : Fin 128, ∑ y : Fin 256,
          Cert.Spec.oh (Cert.Spec.rdi S1x65536 (V c main_v0) (ix2 (0 : Fin 1) (Cert.Spec.row j i y))) cc.val
            * Cert.Spec.rd S65536x1024 (V c main_arg0) (ix2 (Cert.Spec.row j i y) a) := by
  have hN := N256
  have hj : j.val * 128 + 127 < cfg0.N := by rw [hN]; omega
  have hq : (j.val * 128 + 127) / 128 = j.val := by omega
  have hf : (cfg0.win 5).flush ⟨j.val * 128 + 127, hj⟩ = true :=
    (flush0_5 ⟨j.val * 128 + 127, hj⟩).mpr (by show (j.val * 128 + 127) % 128 = 127; omega)
  have hmem : (ix3 j cc a : S2x1000x1024.Idx) ∈ ((cfg0.win 5).blk ⟨j.val * 128 + 127, hj⟩).view.set := by
    rw [← emb5 j cc a ⟨j.val * 128 + 127, hj⟩ hq]
    exact View.emb_mem_set _ _
  show (dat0 (F := Ideal) V c).arrAt 5 cfg0.N (ix3 j cc a) = _
  rw [(dat0 (F := Ideal) V c).arrAt_apply_of_mem 5 (G5 V c) (hG5 V c) cfg0.N ⟨j.val * 128 + 127, hj⟩ (ix3 j cc a) hj hf hmem]
  show ∑ s ∈ Finset.range 128, M5 V c cc a (j.val * 128 + s) = _
  rw [Finset.sum_range]
  refine Finset.sum_congr rfl fun i _ => ?_
  unfold M5
  have hr : ∀ y : Fin 256, rowN (j.val * 128 + i.val) y = Cert.Spec.row j i y := fun y =>
    Fin.ext (by show (j.val * 128 + i.val) % 256 * 256 + y.val = (j.val * 128 + i.val) * 256 + y.val; omega)
  simp only [hr]

/-- The class sums of squares, half j. -/
theorem sumsq_out_apply (c : Dev nD) (j : Fin 2) (cc : Fin 1000) (a : Fin 1024) :
    Cert.Spec.rd S2x1000x1024 ((dat0 (F := Ideal) V c).arrAt 6 cfg0.N) (ix3 j cc a)
      = ∑ i : Fin 128, ∑ y : Fin 256,
          Cert.Spec.oh (Cert.Spec.rdi S1x65536 (V c main_v0) (ix2 (0 : Fin 1) (Cert.Spec.row j i y))) cc.val
            * (Cert.Spec.rd S65536x1024 (V c main_arg0) (ix2 (Cert.Spec.row j i y) a)
                * Cert.Spec.rd S65536x1024 (V c main_arg0) (ix2 (Cert.Spec.row j i y) a)) := by
  have hN := N256
  have hj : j.val * 128 + 127 < cfg0.N := by rw [hN]; omega
  have hq : (j.val * 128 + 127) / 128 = j.val := by omega
  have hf : (cfg0.win 6).flush ⟨j.val * 128 + 127, hj⟩ = true :=
    (flush0_6 ⟨j.val * 128 + 127, hj⟩).mpr (by show (j.val * 128 + 127) % 128 = 127; omega)
  have hmem : (ix3 j cc a : S2x1000x1024.Idx) ∈ ((cfg0.win 6).blk ⟨j.val * 128 + 127, hj⟩).view.set := by
    rw [← emb6 j cc a ⟨j.val * 128 + 127, hj⟩ hq]
    exact View.emb_mem_set _ _
  show (dat0 (F := Ideal) V c).arrAt 6 cfg0.N (ix3 j cc a) = _
  rw [(dat0 (F := Ideal) V c).arrAt_apply_of_mem 6 (G6 V c) (hG6 V c) cfg0.N ⟨j.val * 128 + 127, hj⟩ (ix3 j cc a) hj hf hmem]
  show ∑ s ∈ Finset.range 128, M6 V c cc a (j.val * 128 + s) = _
  rw [Finset.sum_range]
  refine Finset.sum_congr rfl fun i _ => ?_
  unfold M6
  have hr : ∀ y : Fin 256, rowN (j.val * 128 + i.val) y = Cert.Spec.row j i y := fun y =>
    Fin.ext (by show (j.val * 128 + i.val) % 256 * 256 + y.val = (j.val * 128 + i.val) * 256 + y.val; omega)
  simp only [hr]

/-- The loss partial, half j. -/
theorem loss_out_apply (c : Dev nD) (j : Fin 2) :
    Cert.Spec.rd S2x1x1 ((dat0 (F := Ideal) V c).arrAt 7 cfg0.N) (ix3 j (0 : Fin 1) (0 : Fin 1))
      = ∑ i : Fin 128, (0 - ∑ y : Fin 256, Cert.Spec.selOH
          (Cert.Spec.logits (fun a => Cert.Spec.rd S65536x1024 (V c main_arg0) (ix2 (Cert.Spec.row j i y) a))
            (fun a k => Cert.Spec.rd S1024x1000 (V c main_v5) (ix2 a k))
            (fun k => Cert.Spec.rd S1x1000 (V c main_v3) (ix2 (0 : Fin 1) k)))
          (Cert.Spec.rdi S65536x1 (V c main_v1) (ix2 (Cert.Spec.row j i y) (0 : Fin 1)))) := by
  have hN := N256
  have hj : j.val * 128 + 127 < cfg0.N := by rw [hN]; omega
  have hq : (j.val * 128 + 127) / 128 = j.val := by omega
  have hf : (cfg0.win 7).flush ⟨j.val * 128 + 127, hj⟩ = true :=
    (flush0_7 ⟨j.val * 128 + 127, hj⟩).mpr (by show (j.val * 128 + 127) % 128 = 127; omega)
  have hmem : (ix3 j (0 : Fin 1) (0 : Fin 1) : S2x1x1.Idx) ∈ ((cfg0.win 7).blk ⟨j.val * 128 + 127, hj⟩).view.set := by
    rw [← emb7 j ⟨j.val * 128 + 127, hj⟩ hq]
    exact View.emb_mem_set _ _
  show (dat0 (F := Ideal) V c).arrAt 7 cfg0.N (ix3 j (0 : Fin 1) (0 : Fin 1)) = _
  rw [(dat0 (F := Ideal) V c).arrAt_apply_of_mem 7 (G7 V c) (hG7 V c) cfg0.N ⟨j.val * 128 + 127, hj⟩ (ix3 j (0 : Fin 1) (0 : Fin 1)) hj hf hmem]
  show ∑ s ∈ Finset.range 128, M7 V c (j.val * 128 + s) = _
  rw [Finset.sum_range]
  refine Finset.sum_congr rfl fun i _ => ?_
  unfold M7
  have hr : ∀ y : Fin 256, rowN (j.val * 128 + i.val) y = Cert.Spec.row j i y := fun y =>
    Fin.ext (by show (j.val * 128 + i.val) % 256 * 256 + y.val = (j.val * 128 + i.val) * 256 + y.val; omega)
  simp only [hr]

end Cert.KernelIdeal.R0F

end
-- ==== Proof.Region1Fold.lean ====
/-
  What the second pass leaves in its result array, from the arrays it finds on entry: slab s of the augmented rows is
  one block of 1000 rows, written back once, and its entry is 0 - Σ_y selected log-probability of augmented row (s, y).
-/
import proofs.«415097_j5265629905347_2_alg».proof.Proof.PayIdx
import proofs.«415097_j5265629905347_2_alg».proof.Proof.Rows
import proofs.«415097_j5265629905347_2_alg».proof.Proof.Gen.KernelIdeal.Frame
import Idealize.ShloMosaic.Lib.Pipeline.Value
import Idealize.ShloMosaic.Lib.ValueIdx

noncomputable section

namespace Cert.KernelIdeal.R1F

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the two grid points: the row windows (augmented rows, their labels) and the
    result window sit at block `t`, the weights and the bias at block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The rows' block at point `t`: its row `y` is augmented row `(s, y)`, `s` the point's number. -/
private theorem rows_blk (c : Dev nD) (t : Fin cfg1.N) (s : Fin 2) (hs : s.val = t.val) (y : Fin 1000) (a : Fin 1024) :
    (iblk1 V c 0 t : Vec Ideal S1000x1024 .f32) (ix2 y a)
      = Cert.Spec.rd S2000x1024 (V c main_v61) (ix2 (Cert.Spec.arow s y) a) := by
  obtain ⟨e0, e1, -⟩ := idx_facts t
  unfold iblk1
  rw [View.read_apply]
  show V c main_v61 _ = V c main_v61 _
  congr 1
  funext b; apply Fin.ext
  match b with
  | ⟨0, _⟩ => show win1_0.index t (0 : Fin 2) * 1000 + 1 * y.val = s.val * 1000 + y.val; rw [e0, hs]; omega
  | ⟨1, _⟩ => show win1_0.index t (1 : Fin 2) * 1024 + 1 * a.val = a.val; rw [e1]; omega

/-- The labels' block at point `t`: its entry `y` is the label of augmented row `(s, y)`. -/
private theorem labels_blk (c : Dev nD) (t : Fin cfg1.N) (s : Fin 2) (hs : s.val = t.val) (y : Fin 1000) :
    (iblk1 V c 1 t : Vec Ideal S1000x1 .i32) (ix2 y (0 : Fin 1))
      = Cert.Spec.rdi S2000x1 (V c main_v66) (ix2 (Cert.Spec.arow s y) (0 : Fin 1)) := by
  obtain ⟨-, -, e0, e1, -⟩ := idx_facts t
  unfold iblk1
  rw [View.read_apply]
  show V c main_v66 _ = V c main_v66 _
  congr 1
  funext b; apply Fin.ext
  match b with
  | ⟨0, _⟩ => show win1_1.index t (0 : Fin 2) * 1000 + 1 * y.val = s.val * 1000 + y.val; rw [e0, hs]; omega
  | ⟨1, _⟩ => show win1_1.index t (1 : Fin 2) * 1 + 1 * 0 = 0; rw [e1]

/-- The weights' block is the whole weight matrix at every point. -/
private theorem weights_blk (c : Dev nD) (t : Fin cfg1.N) (a : Fin 1024) (k : Fin 1000) :
    (iblk1 V c 2 t : Vec Ideal S1024x1000 .bf16) (ix2 a k) = Cert.Spec.rd S1024x1000 (V c main_v5) (ix2 a k) := by
  obtain ⟨-, -, -, -, e0, e1, -⟩ := idx_facts t
  unfold iblk1
  rw [View.read_apply]
  show V c main_v5 _ = V c main_v5 _
  congr 1
  funext b; apply Fin.ext
  match b with
  | ⟨0, _⟩ => show win1_2.index t (0 : Fin 2) * 1024 + 1 * a.val = a.val; rw [e0]; omega
  | ⟨1, _⟩ => show win1_2.index t (1 : Fin 2) * 1000 + 1 * k.val = k.val; rw [e1]; omega

/-- The bias's block is the whole bias row at every point. -/
private theorem bias_blk (c : Dev nD) (t : Fin cfg1.N) (k : Fin 1000) :
    (iblk1 V c 3 t : Vec Ideal S1x1000 .f32) (ix2 (0 : Fin 1) k) = Cert.Spec.rd S1x1000 (V c main_v3) (ix2 (0 : Fin 1) k) := by
  obtain ⟨-, -, -, -, -, -, e0, e1, -⟩ := idx_facts t
  unfold iblk1
  rw [View.read_apply]
  show V c main_v3 _ = V c main_v3 _
  congr 1
  funext b; apply Fin.ext
  match b with
  | ⟨0, _⟩ => show win1_3.index t (0 : Fin 2) * 1 + 1 * 0 = 0; rw [e0]
  | ⟨1, _⟩ => show win1_3.index t (1 : Fin 2) * 1000 + 1 * k.val = k.val; rw [e1]; omega

/-- The second pass's result array, slab by slab, from the arrays found on entry. -/
private def augG (c : Dev nD) : S2x1x1.Idx → EReal := fun i =>
  0 - ∑ y : Fin 1000, Cert.Spec.selOH
    (Cert.Spec.logits (fun a => Cert.Spec.rd S2000x1024 (V c main_v61) (ix2 (Cert.Spec.arow (i 0) y) a))
      (fun a k => Cert.Spec.rd S1024x1000 (V c main_v5) (ix2 a k))
      (fun k => Cert.Spec.rd S1x1000 (V c main_v3) (ix2 (0 : Fin 1) k)))
    (Cert.Spec.rdi S2000x1 (V c main_v66) (ix2 (Cert.Spec.arow (i 0) y) (0 : Fin 1)))

private theorem flushed_eq (c : Dev nD) (t : Fin cfg1.N) :
    (dat1 (F := Ideal) V c).flushed 4 t = ((cfg1.win 4).blk t).view.read (Elt Ideal) (augG V c) := by
  show (cfg1.win 4).cut (grid1.coords t) ((dat1 (F := Ideal) V c).after 4 t) = _
  rw [after1_4]
  unfold out1_4
  have hz3 : (![0, 0, 0] : Fin 3 → Nat) = fun _ => 0 := funext fun a => by fin_cases a <;> rfl
  have hz2 : (![0, 0] : Fin 2 → Nat) = fun _ => 0 := funext fun a => by fin_cases a <;> rfl
  rw [View.canon_unit_zero hz3]
  simp only [View.ld_unit_zero (S := S1000x1024) hz2, View.ld_unit_zero (S := S1024x1000) hz2,
    View.ld_unit_zero (S := S1x1000) hz2, View.ld_unit_zero (S := S1000x1) hz2]
  funext j
  have hj : j = ix3 (0 : Fin 1) (0 : Fin 1) (0 : Fin 1) := by
    funext a; apply Fin.ext
    match a with
    | ⟨0, _⟩ => show (j 0).val = 0; have h : (j 0).val < 1 := (j 0).isLt; omega
    | ⟨1, _⟩ => show (j 1).val = 0; have h : (j 1).val < 1 := (j 1).isLt; omega
    | ⟨2, _⟩ => show (j 2).val = 0; have h : (j 2).val < 1 := (j 2).isLt; omega
  subst hj
  show k1_pay1 (F := Ideal) (iblk1 V c 0 t) (iblk1 V c 2 t) (iblk1 V c 3 t) (iblk1 V c 1 t) (ix3 (0 : Fin 1) (0 : Fin 1) (0 : Fin 1))
    = augG V c (((cfg1.win 4).blk t).view.emb (ix3 (0 : Fin 1) (0 : Fin 1) (0 : Fin 1)))
  refine (Cert.KernelIdeal.Pay.k1_pay1_apply (iblk1 V c 0 t) (iblk1 V c 2 t) (iblk1 V c 3 t) (iblk1 V c 1 t)).trans ?_
  unfold augG
  obtain ⟨-, -, -, -, -, -, -, -, e8, -⟩ := idx_facts t
  have hs : (((cfg1.win 4).blk t).view.emb (ix3 (0 : Fin 1) (0 : Fin 1) (0 : Fin 1)) 0 : Fin 2).val = t.val := by
    show win1_4.index t (0 : Fin 3) * 1 + 1 * 0 = t.val
    rw [e8]; omega
  refine congrArg (fun z : EReal => 0 - z) ?_
  refine Finset.sum_congr rfl fun y _ => ?_
  have h0 : (fun a => (iblk1 V c 0 t : Vec Ideal S1000x1024 .f32) (ix2 y a))
      = fun a => Cert.Spec.rd S2000x1024 (V c main_v61)
          (ix2 (Cert.Spec.arow (((cfg1.win 4).blk t).view.emb (ix3 (0 : Fin 1) (0 : Fin 1) (0 : Fin 1)) 0) y) a) :=
    funext fun a => rows_blk V c t _ hs y a
  have h2 : (fun a k => (iblk1 V c 2 t : Vec Ideal S1024x1000 .bf16) (ix2 a k))
      = fun a k => Cert.Spec.rd S1024x1000 (V c main_v5) (ix2 a k) :=
    funext fun a => funext fun k => weights_blk V c t a k
  have h3 : (fun k => (iblk1 V c 3 t : Vec Ideal S1x1000 .f32) (ix2 (0 : Fin 1) k))
      = fun k => Cert.Spec.rd S1x1000 (V c main_v3) (ix2 (0 : Fin 1) k) :=
    funext fun k => bias_blk V c t k
  exact congrArg₂ Cert.Spec.selOH (congr (congr (congrArg Cert.Spec.logits h0) h2) h3) (labels_blk V c t _ hs y)

/-- An index of the result array is in point `t`'s block iff each coordinate is in the block's range on its axis. -/
private theorem mem_blk (t : Fin cfg1.N) (i : S2x1x1.Idx) :
    i ∈ ((cfg1.win 4).blk t).view.set
      ↔ ∀ a : Fin 3, win1_4.index t a * S1x1x1.size a ≤ (i a).val ∧ (i a).val < win1_4.index t a * S1x1x1.size a + S1x1x1.size a := by
  show i ∈ ((View.whole main_v67).slice (win1_4.rect t)).set ↔ _
  rw [View.set_slice_whole, Rect.mem_set_unit]
  exact Iff.rfl

/-- The two points' blocks cover the result array: slab `s` is point `s`'s block, and every point writes back. -/
private theorem covered (i : S2x1x1.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 1 := (i 2).isLt
  have hN : (i 0).val < cfg1.N := by rw [show cfg1.N = 2 from N_1]; exact hi0
  refine ⟨⟨(i 0).val, hN⟩, flush1_4 _, ?_⟩
  rw [mem_blk]
  obtain ⟨-, -, -, -, -, -, -, -, e0', e1, e2⟩ := idx_facts ⟨(i 0).val, hN⟩
  have e0 : win1_4.index ⟨(i 0).val, hN⟩ (0 : Fin 3) = (i 0).val := e0'
  intro a
  match a with
  | ⟨0, _⟩ =>
    show win1_4.index ⟨(i 0).val, hN⟩ (0 : Fin 3) * 1 ≤ (i 0).val ∧ (i 0).val < win1_4.index ⟨(i 0).val, hN⟩ (0 : Fin 3) * 1 + 1
    rw [e0]; omega
  | ⟨1, _⟩ =>
    show win1_4.index ⟨(i 0).val, hN⟩ (1 : Fin 3) * 1 ≤ (i 1).val ∧ (i 1).val < win1_4.index ⟨(i 0).val, hN⟩ (1 : Fin 3) * 1 + 1
    rw [e1]; omega
  | ⟨2, _⟩ =>
    show win1_4.index ⟨(i 0).val, hN⟩ (2 : Fin 3) * 1 ≤ (i 2).val ∧ (i 2).val < win1_4.index ⟨(i 0).val, hN⟩ (2 : Fin 3) * 1 + 1
    rw [e2]; omega

theorem aug_out_apply (c : Dev nD) (s : Fin 2) :
    Cert.Spec.rd S2x1x1 ((dat1 (F := Ideal) V c).arrAt 4 cfg1.N) (ix3 s (0 : Fin 1) (0 : Fin 1))
      = 0 - ∑ y : Fin 1000, Cert.Spec.selOH
          (Cert.Spec.logits (fun a => Cert.Spec.rd S2000x1024 (V c main_v61) (ix2 (Cert.Spec.arow s y) a))
            (fun a k => Cert.Spec.rd S1024x1000 (V c main_v5) (ix2 a k))
            (fun k => Cert.Spec.rd S1x1000 (V c main_v3) (ix2 (0 : Fin 1) k)))
          (Cert.Spec.rdi S2000x1 (V c main_v66) (ix2 (Cert.Spec.arow s y) (0 : Fin 1))) := by
  have hfin := (dat1 (F := Ideal) V c).arrAt_eq_of_cover 4 (augG V c) (fun t _ => flushed_eq V c t) (covered)
  rw [hfin]
  rfl

end Cert.KernelIdeal.R1F

end
-- ==== Proof.RefOps.lean ====
/-
  The reference's data-dependent operations read at an index.
  A scatter-add by label: entry (c, a) of the result is the operand's entry plus the sum of the updates of the rows
  whose label is c (a label word is c exactly when, read signed, it is the number c; no clamping, other rows dropped).
  A gather of rows by label, after jnp's wrap of negative indices (label + 1000 where the label is negative): for a
  label in range, row n of the result is row label(n) of the operand.
  take_along_axis: the same wrap, a range check 0 ≤ · ≤ 999 whose failure fills a NaN word, and a gather of one entry
  per row: for a label in range, the entry at that label.
-/
import proofs.«415097_j5265629905347_2_alg».proof.ReferenceIdeal
import proofs.«415097_j5265629905347_2_alg».proof.Proof.Gen.ReferenceIdeal
import proofs.«415097_j5265629905347_2_alg».proof.Proof.Gen.KernelIdeal
import proofs.«415097_j5265629905347_2_alg».proof.Proof.Chain
import Idealize.ShloMosaic.PureOps.Ideal.Laws
import Idealize.ShloMosaic.Lib.ValueIdx
import Idealize.ShloMosaic.Lib.Pipeline.Value

noncomputable section

namespace Cert.ReferenceIdeal.Ops

open Cert.ReferenceIdeal Idealize.ShloMosaic Idealize.ShloMosaic.ValueIdx
open Facts₀ Facts

/-- The labels after jnp's wrap of negative indices. -/
def wrap (lbl : IVec S65536 32) : IVec S65536 32 :=
  select (cmpi .slt lbl (broadcastInDim S65536 ![] bcast_S_S65536 (constantI S_ 32 0#32)))
    (addi lbl (broadcastInDim S65536 ![] bcast_S_S65536 (constantI S_ 32 1000#32))) lbl

/-- take_along_axis along the classes, as the reference prints it. -/
def takeAlong {F : FTy → Type} [FloatOps F] (t : FVec F S67536x1000 .f32) (l : IVec S67536x1 32) : FVec F S67536x1 .f32 :=
  select
    (Host.reduce IntOp.andi
      (andi
        (cmpi .sge
          (shapeCast S67536x1x1 (select (cmpi .slt l (broadcastInDim S67536x1 ![] bcast_S_S67536x1 (constantI S_ 32 0#32)))
              (addi l (broadcastInDim S67536x1 ![] bcast_S_S67536x1 (constantI S_ 32 1000#32))) l) shapeCasts_S67536x1_S67536x1x1)
          (broadcastInDim S67536x1x1 ![] bcast_S_S67536x1x1 (constantI S_ 32 0#32)))
        (cmpi .sle
          (shapeCast S67536x1x1 (select (cmpi .slt l (broadcastInDim S67536x1 ![] bcast_S_S67536x1 (constantI S_ 32 0#32)))
              (addi l (broadcastInDim S67536x1 ![] bcast_S_S67536x1 (constantI S_ 32 1000#32))) l) shapeCasts_S67536x1_S67536x1x1)
          (broadcastInDim S67536x1x1 ![0, 1, 2] bcast_S1x1x1_S67536x1x1_0_1_2
            (broadcastInDim S1x1x1 ![2] bcast_S1_S1x1x1_2 (constantI S1 32 999#32)))))
      (constantI S_ 1 1#1) reducesTo_S67536x1x1_S67536x1_d2 h_S_)
    (Host.gather gather_S67536x1000_S67536x1x1_S67536x1_n_1_0_0_1_2_11 t
      (shapeCast S67536x1x1 (select (cmpi .slt l (broadcastInDim S67536x1 ![] bcast_S_S67536x1 (constantI S_ 32 0#32)))
          (addi l (broadcastInDim S67536x1 ![] bcast_S_S67536x1 (constantI S_ 32 1000#32))) l) shapeCasts_S67536x1_S67536x1x1))
    (broadcastInDim S67536x1 ![] bcast_S_S67536x1 (constant S_ .f32 0x7FC00000#32))

/-! ## Label words -/

/-- A word below 1000 reads the same signed and unsigned. -/
private theorem toInt_of_lt {x : BitVec 32} (hx : x.toNat < 1000) : x.toInt = (x.toNat : Int) := by
  rw [BitVec.toInt_eq_toNat_cond]
  split
  · rfl
  · omega

/-- A word reads, signed, as the number `c < 1000` exactly when it is the word of `c`. -/
private theorem toInt_eq_iff (x : BitVec 32) (c : Nat) (hc : c < 1000) : x.toInt = (c : Int) ↔ x = BitVec.ofNat 32 c := by
  constructor
  · intro h
    apply BitVec.eq_of_toNat_eq
    rw [BitVec.toNat_ofNat, Nat.mod_eq_of_lt (by omega)]
    rw [BitVec.toInt_eq_toNat_cond] at h
    have := x.isLt
    split at h <;> omega
  · intro h
    subst h
    rw [toInt_of_lt (by rw [BitVec.toNat_ofNat, Nat.mod_eq_of_lt (by omega)]; exact hc), BitVec.toNat_ofNat,
      Nat.mod_eq_of_lt (by omega)]

/-- A word below 1000 is not negative read signed … -/
private theorem slt_zero_of_lt {x : BitVec 32} (hx : x.toNat < 1000) : IntOp.cmpi .slt x 0#32 = 0#1 := by
  have h := toInt_of_lt hx
  have h0 : (0#32 : BitVec 32).toInt = 0 := by decide
  show BitVec.ofBool (x.slt 0#32) = 0#1
  have : x.slt 0#32 = false := by rw [BitVec.slt, h, h0]; exact decide_eq_false (by omega)
  rw [this]; rfl

/-- … it is at least 0 … -/
private theorem sge_zero_of_lt {x : BitVec 32} (hx : x.toNat < 1000) : IntOp.cmpi .sge x 0#32 = 1#1 := by
  have h := toInt_of_lt hx
  have h0 : (0#32 : BitVec 32).toInt = 0 := by decide
  show BitVec.ofBool ((0#32 : BitVec 32).sle x) = 1#1
  have : (0#32 : BitVec 32).sle x = true := by rw [BitVec.sle, h, h0]; exact decide_eq_true (by omega)
  rw [this]; rfl

/-- … and at most 999. -/
private theorem sle_999_of_lt {x : BitVec 32} (hx : x.toNat < 1000) : IntOp.cmpi .sle x 999#32 = 1#1 := by
  have h := toInt_of_lt hx
  have h9 : (999#32 : BitVec 32).toInt = 999 := by decide
  show BitVec.ofBool (x.sle 999#32) = 1#1
  have : x.sle 999#32 = true := by rw [BitVec.sle, h, h9]; exact decide_eq_true (by omega)
  rw [this]; rfl

/-! ## The scatter's result index -/

/-- An update lands at operand index `i` exactly when, on every axis, its start plus its window coordinate is `i`'s
    coordinate (the start is read signed and not clamped; an update that leaves the operand lands nowhere). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro e a
      rw [← e]
      have := (h a).1
      show _ = (((d.start j idx a + (d.window j a : Int)).toNat : Nat) : Int)
      omega
    · intro e
      funext a
      apply Fin.ext
      show (d.start j idx a + (d.window j a : Int)).toNat = (i a).val
      have := e a
      omega
  · rename_i h
    constructor
    · intro e; cases e
    · intro e
      exfalso
      apply h
      intro a
      have := e a
      have := (i a).isLt
      omega

/-! ## The scatter-add of rows by label -/

private abbrev dRows := scatter_S1000x1024_S65536x1_S65536x1024_1_0_0_1

/-- The column of labels reads back the label. -/
private theorem col_apply (lbl : IVec S65536 32) (n : Fin 65536) (c : Fin 1) :
    broadcastInDim S65536x1 ![0] bcast_S65536_S65536x1_0 lbl (ix2 n c) = lbl (ix1 n) :=
  broadcastInDim_apply _ _ lbl (ix2 n c) (ix1 n) (fun a => by match a with | ⟨0, _⟩ => rfl)

/-- On the class axis the window of update `(n, a')` starts at row `n`'s index word, read signed … -/
private theorem rows_start0 {w : Nat} (idx : IVec S65536x1 w) (n : Fin 65536) (a' : Fin 1024) :
    dRows.start (ix2 n a') idx 0 = (idx (ix2 n 0)).toInt := by
  unfold ScatterDims.start
  rw [dif_pos (show (0 : Fin 2) ∈ dRows.scatterDimsToOperandDims from List.mem_singleton.mpr rfl)]
  have hsi : dRows.siIdx (ix2 n a') ⟨List.idxOf (0 : Fin 2) dRows.scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- … and on the feature axis at 0. -/
private theorem rows_start1 {w : Nat} (idx : IVec S65536x1 w) (j : S65536x1024.Idx) : dRows.start j idx 1 = 0 := by
  unfold ScatterDims.start
  rw [dif_neg (show (1 : Fin 2) ∉ dRows.scatterDimsToOperandDims by decide)]

/-- The window coordinate is 0 on the (inserted) class axis … -/
private theorem rows_win0 (j : S65536x1024.Idx) : dRows.window j 0 = 0 := by
  unfold ScatterDims.window
  rw [dif_neg (show (0 : Fin 2) ∉ dRows.sKept by decide)]

/-- … and the update's feature coordinate on the feature axis. -/
private theorem rows_win1 (n : Fin 65536) (a' : Fin 1024) : dRows.window (ix2 n a') 1 = a'.val := by
  unfold ScatterDims.window
  rw [dif_pos (show (1 : Fin 2) ∈ dRows.sKept by decide)]
  rfl

/-- The update of row `n`, feature `a'`, lands at class `cc`, feature `a`, exactly when `a' = a` and row `n`'s label
    is the word of `cc`. -/
private theorem rows_lands (lbl : IVec S65536 32) (n : Fin 65536) (a' : Fin 1024) (cc : Fin 1000) (a : Fin 1024) :
    dRows.resultIdx? (ix2 n a') (broadcastInDim S65536x1 ![0] bcast_S65536_S65536x1_0 lbl) = some (ix2 cc a)
      ↔ lbl (ix1 n) = BitVec.ofNat 32 cc.val ∧ a' = a := by
  rw [resultIdx?_eq_some_iff]
  constructor
  · intro h
    have h0 := h 0
    have h1 := h 1
    rw [rows_start0, rows_win0, col_apply] at h0
    rw [rows_start1, rows_win1] at h1
    refine ⟨(toInt_eq_iff _ _ cc.isLt).mp ?_, Fin.ext ?_⟩
    · have e : ((ix2 cc a (0 : Fin 2)).val : Int) = (cc.val : Int) := rfl
      rw [e] at h0
      omega
    · have e : ((ix2 cc a (1 : Fin 2)).val : Int) = (a.val : Int) := rfl
      rw [e] at h1
      omega
  · rintro ⟨hl, rfl⟩ b
    match b with
    | ⟨0, _⟩ =>
      show dRows.start (ix2 n a') _ 0 + (dRows.window (ix2 n a') 0 : Int) = (cc.val : Int)
      rw [rows_start0, rows_win0, col_apply, (toInt_eq_iff _ _ cc.isLt).mpr hl]
      omega
    | ⟨1, _⟩ =>
      show dRows.start (ix2 n a') _ 1 + (dRows.window (ix2 n a') 1 : Int) = (a'.val : Int)
      rw [rows_start1, rows_win1]
      omega

/-- The scatter-add of rows by label, at class c and feature a. -/
theorem scatter_rows_apply (z : FVec Ideal S1000x1024 .f32) (lbl : IVec S65536 32) (u : FVec Ideal S65536x1024 .f32)
    (cc : Fin 1000) (a : Fin 1024) :
    Host.scatterAdd (F := Ideal) scatter_S1000x1024_S65536x1_S65536x1024_1_0_0_1 z
        (broadcastInDim S65536x1 ![0] bcast_S65536_S65536x1_0 lbl) u (ix2 cc a)
      = z (ix2 cc a) + ∑ n ∈ Finset.univ.filter (fun n : Fin 65536 => lbl (ix1 n) = BitVec.ofNat 32 cc.val), u (ix2 n a) := by
  show z (ix2 cc a) + ∑ j ∈ Finset.univ.filter (fun j : S65536x1024.Idx =>
      dRows.resultIdx? j (broadcastInDim S65536x1 ![0] bcast_S65536_S65536x1_0 lbl) = some (ix2 cc a)), u j = _
  refine congrArg (fun t : EReal => z (ix2 cc a) + t) ?_
  symm
  refine Finset.sum_bij (fun n _ => ix2 n a) ?_ ?_ ?_ ?_
  · intro n hn
    rw [Finset.mem_filter] at hn ⊢
    exact ⟨Finset.mem_univ _, (rows_lands lbl n a cc a).mpr ⟨hn.2, rfl⟩⟩
  · intro n₁ _ n₂ _ e
    exact congrFun e 0
  · intro j hj
    rw [Finset.mem_filter] at hj
    obtain ⟨n, a', rfl⟩ : ∃ n a', j = ix2 n a' := ⟨j 0, j 1, eq_ix2 j⟩
    obtain ⟨hl, rfl⟩ := (rows_lands lbl n a' cc a).mp hj.2
    exact ⟨n, Finset.mem_filter.mpr ⟨Finset.mem_univ _, hl⟩, rfl⟩
  · intro n _; rfl

/-! ## The class counts -/

private abbrev dCnt := Cert.KernelIdeal.scatter_S1000_S65536x1_S65536_n_0_0_1

/-- The window of update `n` starts at row `n`'s index word, read signed … -/
private theorem cnt_start0 {w : Nat} (idx : IVec S65536x1 w) (n : Fin 65536) :
    dCnt.start (ix1 n) idx 0 = (idx (ix2 n 0)).toInt := by
  unfold ScatterDims.start
  rw [dif_pos (show (0 : Fin 1) ∈ dCnt.scatterDimsToOperandDims from List.mem_singleton.mpr rfl)]
  have hsi : dCnt.siIdx (ix1 n) ⟨List.idxOf (0 : Fin 1) dCnt.scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- … and has no window coordinate: the one operand axis is inserted. -/
private theorem cnt_win0 (j : S65536.Idx) : dCnt.window j 0 = 0 := by
  unfold ScatterDims.window
  rw [dif_neg (show (0 : Fin 1) ∉ dCnt.sKept by decide)]

/-- Row `n`'s one lands at class `cc` exactly when its label is the word of `cc`. -/
private theorem cnt_lands (lbl : IVec S65536 32) (n : Fin 65536) (cc : Fin 1000) :
    dCnt.resultIdx? (ix1 n) (broadcastInDim S65536x1 ![0] bcast_S65536_S65536x1_0 lbl) = some (ix1 cc)
      ↔ lbl (ix1 n) = BitVec.ofNat 32 cc.val := by
  rw [resultIdx?_eq_some_iff]
  constructor
  · intro h
    have h0 := h 0
    rw [cnt_start0, cnt_win0, col_apply] at h0
    refine (toInt_eq_iff _ _ cc.isLt).mp ?_
    have e : ((ix1 cc (0 : Fin 1)).val : Int) = (cc.val : Int) := rfl
    rw [e] at h0
    omega
  · intro hl b
    match b with
    | ⟨0, _⟩ =>
      show dCnt.start (ix1 n) _ 0 + (dCnt.window (ix1 n) 0 : Int) = (cc.val : Int)
      rw [cnt_start0, cnt_win0, col_apply, (toInt_eq_iff _ _ cc.isLt).mpr hl]
      omega

/-- The class counts, at class c. -/
theorem cnt_apply (lbl : IVec S65536 32) (cc : Fin 1000) :
    Cert.KernelIdeal.Chain.cnt (F := Ideal) lbl (ix1 cc)
      = 0 + ∑ _n ∈ Finset.univ.filter (fun n : Fin 65536 => lbl (ix1 n) = BitVec.ofNat 32 cc.val), (1 : EReal) := by
  have h1 : Ideal.ofBits .f32 0x3F800000#32 = (1 : EReal) := by
    simp [Ideal.ofBits, Ideal.ieee, -EReal.coe_mul]; norm_num
  show Ideal.ofBits .f32 0x00000000#32 + ∑ _j ∈ Finset.univ.filter (fun j : S65536.Idx =>
      dCnt.resultIdx? j (broadcastInDim S65536x1 ![0] bcast_S65536_S65536x1_0 lbl) = some (ix1 cc)),
        Ideal.ofBits .f32 0x3F800000#32 = _
  rw [Ideal.ofBits_zero_f32, h1]
  refine congrArg (fun t : EReal => 0 + t) ?_
  symm
  refine Finset.sum_bij (fun n _ => ix1 n) ?_ ?_ ?_ ?_
  · intro n hn
    rw [Finset.mem_filter] at hn ⊢
    exact ⟨Finset.mem_univ _, (cnt_lands lbl n cc).mpr hn.2⟩
  · intro n₁ _ n₂ _ e
    exact congrFun e 0
  · intro j hj
    rw [Finset.mem_filter] at hj
    obtain ⟨n, rfl⟩ : ∃ n, j = ix1 n := ⟨j 0, eq_ix1 j⟩
    exact ⟨n, Finset.mem_filter.mpr ⟨Finset.mem_univ _, (cnt_lands lbl n cc).mp hj.2⟩, rfl⟩
  · intro n _; rfl

/-! ## The gather of rows by label -/

private abbrev dGR := gather_S1000x1024_S65536x1_S65536x1024_1_0_n_n_0_1_11024

/-- The wrap leaves a label in range as it is: read signed it is not negative. -/
private theorem wrap_apply (lbl : IVec S65536 32) (i : S65536.Idx) (h : (lbl i).toNat < 1000) : wrap lbl i = lbl i := by
  show Scalar.select (IntOp.cmpi .slt (lbl i) 0#32) (IntOp.addi (lbl i) 1000#32) (lbl i) = lbl i
  rw [slt_zero_of_lt h, select_zero]

/-- On the row axis the slice of result `(n, a)` starts at row `n`'s index word, read signed and clamped into `[0, 999]` … -/
private theorem gr_start0 {w : Nat} (idx : IVec S65536x1 w) (n : Fin 65536) (a : Fin 1024) :
    dGR.start (ix2 n a) idx 0 = min (idx (ix2 n 0)).toInt.toNat 999 := by
  unfold GatherDims.start
  rw [dif_pos (show (0 : Fin 2) ∈ dGR.startIndexMap from List.mem_singleton.mpr rfl)]
  have hsi : dGR.siIdx (ix2 n a) ⟨List.idxOf (0 : Fin 2) dGR.startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-- … and on the feature axis at 0. -/
private theorem gr_start1 {w : Nat} (idx : IVec S65536x1 w) (j : S65536x1024.Idx) : dGR.start j idx 1 = 0 := by
  unfold GatherDims.start
  rw [dif_neg (show (1 : Fin 2) ∉ dGR.startIndexMap by decide)]

/-- The offset coordinate on the feature axis is the result's feature coordinate. -/
private theorem gr_off1 (n : Fin 65536) (a : Fin 1024) : dGR.offCoord (ix2 n a) 1 = a.val := by
  unfold GatherDims.offCoord
  rw [dif_pos (show (1 : Fin 2) ∈ dGR.sKept by decide)]
  rfl

/-- The gather of rows by (wrapped) label, for labels in range. -/
theorem gather_rows_apply (t : FVec Ideal S1000x1024 .f32) (lbl : IVec S65536 32) (hl : ∀ n, (lbl n).toNat < 1000)
    (n : Fin 65536) (a : Fin 1024) :
    Host.gather gather_S1000x1024_S65536x1_S65536x1024_1_0_n_n_0_1_11024 t
        (broadcastInDim S65536x1 ![0] bcast_S65536_S65536x1_0 (wrap lbl)) (ix2 n a)
      = t (ix2 ⟨(lbl (ix1 n)).toNat, hl _⟩ a) := by
  unfold Host.gather
  refine congrArg t ?_
  funext b
  refine Fin.ext ?_
  match b with
  | ⟨0, _⟩ =>
    show dGR.start (ix2 n a) _ 0 + dGR.batchCoord (ix2 n a) 0 + dGR.offCoord (ix2 n a) 0 = (lbl (ix1 n)).toNat
    rw [GatherDims.batchCoord_eq_zero _ _ _ List.not_mem_nil,
      GatherDims.offCoord_eq_zero _ _ _ (show (0 : Fin 2) ∉ dGR.sKept by decide),
      gr_start0, col_apply, wrap_apply _ _ (hl _), toInt_of_lt (hl _)]
    have := hl (ix1 n)
    omega
  | ⟨1, _⟩ =>
    show dGR.start (ix2 n a) _ 1 + dGR.batchCoord (ix2 n a) 1 + dGR.offCoord (ix2 n a) 1 = a.val
    rw [GatherDims.batchCoord_eq_zero _ _ _ List.not_mem_nil, gr_start1, gr_off1]
    omega

/-! ## take_along_axis -/

private abbrev dTA := gather_S67536x1000_S67536x1x1_S67536x1_n_1_0_0_1_2_11

/-- The wrapped labels as a `[67536, 1, 1]` array of start indices, as take_along_axis feeds them to its gather. -/
private abbrev wrapped (l : IVec S67536x1 32) : IVec S67536x1x1 32 :=
  shapeCast S67536x1x1 (select (cmpi .slt l (broadcastInDim S67536x1 ![] bcast_S_S67536x1 (constantI S_ 32 0#32)))
    (addi l (broadcastInDim S67536x1 ![] bcast_S_S67536x1 (constantI S_ 32 1000#32))) l) shapeCasts_S67536x1_S67536x1x1

/-- A reduction by `and` from 1 over an array of 1s is 1. -/
private theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  generalize (((List.finRange s.numel).map s.rowMajor.symm).filter fun i => h.drop i = j) = L
  induction L with
  | nil => rfl
  | cons a L ih =>
    rw [List.foldl_cons, hx a]
    have e : IntOp.andi 1#1 1#1 = 1#1 := by decide
    rw [e]
    exact ih

section
variable (l : IVec S67536x1 32) (hl : ∀ r : Fin 67536, (l (ix2 r (0 : Fin 1))).toNat < 1000)
include hl

/-- Every label is in range: a `[67536, 1]` index is `(r, 0)`. -/
private theorem all_lt (i : S67536x1.Idx) : (l i).toNat < 1000 := by
  obtain ⟨r, c, rfl⟩ : ∃ r c, i = ix2 r c := ⟨i 0, i 1, eq_ix2 i⟩
  obtain rfl : c = 0 := Subsingleton.elim _ _
  exact hl r

/-- Every wrapped start index is a label, so in range. -/
private theorem wrapped_lt (i : S67536x1x1.Idx) : (wrapped l i).toNat < 1000 := by
  show (Scalar.select (IntOp.cmpi .slt (l (Shape.reshapeEquiv _ i)) 0#32) (IntOp.addi (l (Shape.reshapeEquiv _ i)) 1000#32)
    (l (Shape.reshapeEquiv _ i))).toNat < 1000
  rw [slt_zero_of_lt (all_lt l hl _), select_zero]
  exact all_lt l hl _

/-- The start index of row `r` is row `r`'s label. -/
private theorem wrapped_row (r : Fin 67536) : wrapped l (ix3 r (0 : Fin 1) (0 : Fin 1)) = l (ix2 r (0 : Fin 1)) := by
  unfold wrapped
  rw [shapeCast_apply _ _ (ix3 r (0 : Fin 1) (0 : Fin 1)) (ix2 r (0 : Fin 1)) (by
    rw [Shape.rowMajor_val_two, Shape.rowMajor_val_three]
    show r.val * 1 + 0 = (r.val * 1 + 0) * 1 + 0
    omega)]
  show Scalar.select (IntOp.cmpi .slt (l (ix2 r 0)) 0#32) (IntOp.addi (l (ix2 r 0)) 1000#32) (l (ix2 r 0)) = l (ix2 r 0)
  rw [slt_zero_of_lt (hl r), select_zero]

end

/-- On the row axis (a batching axis) the slice starts at 0 … -/
private theorem ta_start0 {w : Nat} (idx : IVec S67536x1x1 w) (j : S67536x1.Idx) : dTA.start j idx 0 = 0 := by
  unfold GatherDims.start
  rw [dif_neg (show (0 : Fin 2) ∉ dTA.startIndexMap by decide)]

/-- … and on the class axis at row `r`'s start index, read signed and clamped into `[0, 999]`. -/
private theorem ta_start1 {w : Nat} (idx : IVec S67536x1x1 w) (r : Fin 67536) :
    dTA.start (ix2 r (0 : Fin 1)) idx 1 = min (idx (ix3 r (0 : Fin 1) (0 : Fin 1))).toInt.toNat 999 := by
  unfold GatherDims.start
  rw [dif_pos (show (1 : Fin 2) ∈ dTA.startIndexMap from List.mem_singleton.mpr rfl)]
  have hsi : dTA.siIdx (ix2 r (0 : Fin 1)) ⟨List.idxOf (1 : Fin 2) dTA.startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The batched gather reads row `r` of the operand at result row `r`. -/
private theorem ta_batch0 (r : Fin 67536) : dTA.batchCoord (ix2 r (0 : Fin 1)) 0 = r.val := by
  unfold GatherDims.batchCoord
  rw [dif_pos (show (0 : Fin 2) ∈ dTA.operandBatchingDims from List.mem_singleton.mpr rfl)]
  rfl

/-- The range test `0 ≤ · ≤ 999` holds at every start index, so its reduction by `and` is 1. -/
private theorem cond_one (l : IVec S67536x1 32) (hl : ∀ r : Fin 67536, (l (ix2 r (0 : Fin 1))).toNat < 1000)
    (c0 c9 : IVec S67536x1x1 32) (h0 : ∀ i, c0 i = 0#32) (h9 : ∀ i, c9 i = 999#32) (j : S67536x1.Idx) :
    Host.reduce IntOp.andi (andi (cmpi .sge (wrapped l) c0) (cmpi .sle (wrapped l) c9)) (constantI S_ 1 1#1)
      reducesTo_S67536x1x1_S67536x1_d2 h_S_ j = 1#1 := by
  refine reduce_andi_one _ _ _ _ _ rfl (fun i => ?_)
  show IntOp.andi (IntOp.cmpi .sge (wrapped l i) (c0 i)) (IntOp.cmpi .sle (wrapped l i) (c9 i)) = 1#1
  rw [h0, h9, sge_zero_of_lt (wrapped_lt l hl i), sle_999_of_lt (wrapped_lt l hl i)]
  decide

/-- take_along_axis for labels in range. -/
theorem takeAlong_apply (t : FVec Ideal S67536x1000 .f32) (l : IVec S67536x1 32)
    (hl : ∀ r : Fin 67536, (l (ix2 r (0 : Fin 1))).toNat < 1000) (r : Fin 67536) :
    takeAlong (F := Ideal) t l (ix2 r (0 : Fin 1)) = t (ix2 r ⟨(l (ix2 r (0 : Fin 1))).toNat, hl r⟩) := by
  unfold takeAlong
  rw [select_apply, cond_one l hl (broadcastInDim S67536x1x1 ![] bcast_S_S67536x1x1 (constantI S_ 32 0#32))
      (broadcastInDim S67536x1x1 ![0, 1, 2] bcast_S1x1x1_S67536x1x1_0_1_2
        (broadcastInDim S1x1x1 ![2] bcast_S1_S1x1x1_2 (constantI S1 32 999#32))) (fun _ => rfl) (fun _ => rfl), select_one]
  unfold Host.gather
  refine congrArg t ?_
  funext b
  refine Fin.ext ?_
  match b with
  | ⟨0, _⟩ =>
    show dTA.start (ix2 r (0 : Fin 1)) _ 0 + dTA.batchCoord (ix2 r (0 : Fin 1)) 0 + dTA.offCoord (ix2 r (0 : Fin 1)) 0 = r.val
    rw [ta_start0, ta_batch0, GatherDims.offCoord_eq_zero _ _ _ (show (0 : Fin 2) ∉ dTA.sKept by decide)]
    omega
  | ⟨1, _⟩ =>
    show dTA.start (ix2 r (0 : Fin 1)) (wrapped l) 1 + dTA.batchCoord (ix2 r (0 : Fin 1)) 1 + dTA.offCoord (ix2 r (0 : Fin 1)) 1
      = (l (ix2 r (0 : Fin 1))).toNat
    rw [ta_start1, GatherDims.batchCoord_eq_zero _ _ _ (show (1 : Fin 2) ∉ dTA.operandBatchingDims by decide),
      GatherDims.offCoord_eq_zero _ _ _ (show (1 : Fin 2) ∉ dTA.sKept by decide), wrapped_row l hl r, toInt_of_lt (hl r)]
    have := hl r
    omega

end Cert.ReferenceIdeal.Ops

end
-- ==== Proof.RefStats.lean ====
/-
  The reference's statistics, as the shared chain's functions of what goes in.
  Its class counts are the shared scatter-add of ones; its clamped count, class mean, guarded variance, mixing weight,
  new covariance and mean, and augmented rows are the shared chain applied to its own class sums (a scatter-add of the
  rows by label) and its own centred sums of squares (a scatter-add of (x - mean[label])² by label).
  At an index: the class sum at (c, a) is 0 + the sum of x(n, a) over the rows n of class c; for labels in range the
  centred sum of squares at (c, a) is 0 + the sum of (x(n, a) - mean(c, a))² over those rows (a row of class c gathers
  mean row c).
-/
import proofs.«415097_j5265629905347_2_alg».proof.Proof.RefRead
import proofs.«415097_j5265629905347_2_alg».proof.Proof.RefOps
import proofs.«415097_j5265629905347_2_alg».proof.Proof.Chain
import Idealize.ShloMosaic.Lib.ValueIdx

noncomputable section

namespace Cert.ReferenceIdeal.RefStats

open Cert.ReferenceIdeal Cert.ReferenceIdeal.ReadP Idealize.ShloMosaic Idealize.ShloMosaic.ValueIdx

theorem v3_eq (x8 : IVec S65536 32) : val_main_v3 (F := Ideal) x8 = Cert.KernelIdeal.Chain.cnt (F := Ideal) x8 := by
  unfold val_main_v3 val_main_v1 val_main_v2 val_main_v0 val_main_cst val_main_cst_0 Cert.KernelIdeal.Chain.cnt
  rfl

theorem v9_eq (x8 : IVec S65536 32) :
    val_main_v9 (F := Ideal) x8 = Cert.KernelIdeal.Chain.cntc (Cert.KernelIdeal.Chain.cnt (F := Ideal) x8) := by
  rw [← v3_eq]
  unfold val_main_v9 val_main_v8 val_main_v7 val_main_cst_2 val_main_call0_v1 val_main_call0_v0 val_main_cst_3
    Cert.KernelIdeal.Chain.cntc
  rfl

theorem v12_eq (x0 : FVec Ideal S65536x1024 .f32) (x8 : IVec S65536 32) :
    val_main_v12 (F := Ideal) x0 x8
      = Cert.KernelIdeal.Chain.ave (val_main_v6 (F := Ideal) x0 x8)
          (Cert.KernelIdeal.Chain.cntc (Cert.KernelIdeal.Chain.cnt (F := Ideal) x8)) := by
  rw [← v9_eq]
  unfold val_main_v12 val_main_v11 val_main_v10 Cert.KernelIdeal.Chain.ave Cert.KernelIdeal.Chain.rep
  rfl

theorem v30_eq (x0 : FVec Ideal S65536x1024 .f32) (x8 : IVec S65536 32) :
    val_main_v30 (F := Ideal) x0 x8
      = Cert.KernelIdeal.Chain.varR (val_main_v24 (F := Ideal) x0 x8)
          (Cert.KernelIdeal.Chain.cntc (Cert.KernelIdeal.Chain.cnt (F := Ideal) x8)) := by
  rw [← v9_eq]
  unfold val_main_v30 val_main_v29 val_main_v28 val_main_cst_6 val_main_v27 val_main_v26 val_main_v25
    val_main_call1_v1 val_main_call1_v0 val_main_cst_7
    Cert.KernelIdeal.Chain.varR Cert.KernelIdeal.Chain.guard Cert.KernelIdeal.Chain.zeros Cert.KernelIdeal.Chain.rep
  rfl

theorem v65_eq (x0 : FVec Ideal S65536x1024 .f32) (x1 : FVec Ideal S2x1000x1024 .f32) (x5 x6 : FVec Ideal S1000x1024 .f32)
    (x7 : FVec Ideal S1000 .f32) (x8 : IVec S65536 32) :
    val_main_v65 (F := Ideal) x0 x1 x5 x6 x7 x8
      = Cert.KernelIdeal.Chain.augOf (Cert.KernelIdeal.Chain.cnt (F := Ideal) x8) (val_main_v12 (F := Ideal) x0 x8)
          (val_main_v30 (F := Ideal) x0 x8) x7 x5 x6 x1 := by
  rw [← v3_eq]
  unfold val_main_v65 val_main_v64 val_main_v63 val_main_v62 val_main_v61 val_main_v60 val_main_v59 val_main_v57
    val_main_v56 val_main_v55 val_main_v54 val_main_v53 val_main_v52 val_main_v51 val_main_cst_11
    val_main_v50 val_main_v49 val_main_v48 val_main_v47 val_main_v46 val_main_v45 val_main_v44 val_main_v43 val_main_cst_10
    val_main_v42 val_main_v41 val_main_v40 val_main_v39 val_main_v38 val_main_v37 val_main_v36 val_main_cst_9
    val_main_v35 val_main_v34 val_main_v33 val_main_v32 val_main_cst_8 val_main_v31
    Cert.KernelIdeal.Chain.augOf Cert.KernelIdeal.Chain.aug Cert.KernelIdeal.Chain.twice Cert.KernelIdeal.Chain.newAve
    Cert.KernelIdeal.Chain.newCov Cert.KernelIdeal.Chain.wcol Cert.KernelIdeal.Chain.rep1 Cert.KernelIdeal.Chain.ones1
  rfl

/-- The class sums at an index. -/
theorem v6_apply (x0 : FVec Ideal S65536x1024 .f32) (x8 : IVec S65536 32) (cc : Fin 1000) (a : Fin 1024) :
    val_main_v6 (F := Ideal) x0 x8 (ix2 cc a)
      = 0 + ∑ n ∈ Finset.univ.filter (fun n : Fin 65536 => x8 (ix1 n) = BitVec.ofNat 32 cc.val), x0 (ix2 n a) := by
  unfold val_main_v6 val_main_v5
  rw [Ops.scatter_rows_apply, val_main_v4_apply, val_main_cst_1_apply]
  show Ideal.ofBits .f32 0x00000000#32 + _ = _
  rw [Ideal.ofBits_zero_f32]

/-- The centred sums of squares at an index, for labels in range. -/
theorem v24_apply (x0 : FVec Ideal S65536x1024 .f32) (x8 : IVec S65536 32) (hl : ∀ n, (x8 n).toNat < 1000)
    (cc : Fin 1000) (a : Fin 1024) :
    val_main_v24 (F := Ideal) x0 x8 (ix2 cc a)
      = 0 + ∑ n ∈ Finset.univ.filter (fun n : Fin 65536 => x8 (ix1 n) = BitVec.ofNat 32 cc.val),
          (x0 (ix2 n a) - val_main_v12 (F := Ideal) x0 x8 (ix2 cc a)) * (x0 (ix2 n a) - val_main_v12 (F := Ideal) x0 x8 (ix2 cc a)) := by
  unfold val_main_v24 val_main_v23
  rw [Ops.scatter_rows_apply, val_main_v22_apply, val_main_cst_5_apply]
  show Ideal.ofBits .f32 0x00000000#32 + _ = _
  rw [Ideal.ofBits_zero_f32]
  refine congrArg (0 + ·) (Finset.sum_congr rfl fun n hn => ?_)
  -- a row of class cc carries the label word cc, so it gathers mean row cc
  have hn' : x8 (ix1 n) = BitVec.ofNat 32 cc.val := (Finset.mem_filter.mp hn).2
  have hc : (x8 (ix1 n)).toNat = cc.val := by
    rw [hn', BitVec.toNat_ofNat]
    exact Nat.mod_eq_of_lt (by have := cc.isLt; omega)
  have hrow : (⟨(x8 (ix1 n)).toNat, hl _⟩ : Fin 1000) = cc := Fin.ext hc
  have h19 : val_main_v19 (F := Ideal) x0 x8 (ix2 n a) = val_main_v12 (F := Ideal) x0 x8 (ix2 cc a) := by
    unfold val_main_v19 val_main_v18
    rw [show val_main_v17 (F := Ideal) x8 = Ops.wrap x8 from rfl, Ops.gather_rows_apply _ _ hl, hrow]
  rw [val_main_v21_apply, val_main_v20_apply, h19]
  rfl

end Cert.ReferenceIdeal.RefStats

end
-- ==== Proof.SpecVar.lean ====
/-
  The second moment of a class's rows, centred or not: over a finite set of finite numbers the mean of the squared
  deviations from the mean equals the mean of the squares minus the squared mean, and it is nonnegative — so a test
  `≤ 0` and a test `= 0` of it select the same entries. The count is clamped to `1` for an empty class, where every
  sum is `0`.
-/
import Idealize.ShloMosaic.PureOps.Ideal

noncomputable section

namespace Cert.Spec

open Idealize.ShloMosaic

/-- A finite sum of real numbers, read in the extended reals, is the extended-real sum of the terms. -/
private theorem coe_sum {ι : Type*} (s : Finset ι) (f : ι → ℝ) :
    ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

/-- The real identity: with `c` the clamped count and `a` the mean, the mean squared deviation is the mean square
    minus the squared mean. -/
private theorem real_var {ι : Type*} (s : Finset ι) (r : ι → ℝ) (c a : ℝ)
    (hc : c = if s.card = 0 then 1 else (s.card : ℝ)) (ha : a = (∑ n ∈ s, r n) * (1 / c)) :
    (∑ n ∈ s, (r n - a) * (r n - a)) * (1 / c) = (∑ n ∈ s, r n * r n) * (1 / c) - a * a := by
  by_cases h : s.card = 0
  · -- the empty class: every sum is zero and so is the mean
    have hs : s = ∅ := Finset.card_eq_zero.mp h
    subst hs
    simp at ha
    simp [ha]
  · -- a nonempty class: the count divides out
    rw [if_neg h] at hc
    have hcne : c ≠ 0 := by rw [hc]; exact_mod_cast h
    have hS : ∑ n ∈ s, r n = a * c := by rw [ha]; field_simp
    have hexp : ∑ n ∈ s, (r n - a) * (r n - a)
        = ∑ n ∈ s, r n * r n - 2 * a * ∑ n ∈ s, r n + c * (a * a) := by
      have : ∀ n, (r n - a) * (r n - a) = r n * r n - 2 * a * r n + a * a := fun n => by ring
      simp_rw [this, Finset.sum_add_distrib, Finset.sum_sub_distrib, ← Finset.mul_sum, Finset.sum_const,
        nsmul_eq_mul, hc]
      ring
    rw [hexp, hS]
    field_simp
    ring

/-- The second moment, centred or not. `s` is the set of rows of one class, `x` one feature column, finite on `s`;
    the count is clamped to `1` when the class is empty. -/
theorem var_identity {ι : Type*} (s : Finset ι) (x : ι → EReal) (hx : ∀ n ∈ s, x n ≠ ⊤ ∧ x n ≠ ⊥)
    (cnt cntc ave : EReal) (hcnt : cnt = 0 + ∑ _n ∈ s, (1 : EReal)) (hcntc : cntc = if cnt = 0 then 1 else cnt)
    (have_ : ave = Ideal.div (0 + ∑ n ∈ s, x n) cntc) :
    Ideal.div (0 + ∑ n ∈ s, (x n - ave) * (x n - ave)) cntc = Ideal.div (0 + ∑ n ∈ s, x n * x n) cntc - ave * ave
    ∧ 0 ≤ Ideal.div (0 + ∑ n ∈ s, x n * x n) cntc - ave * ave := by
  classical
  -- real witnesses of the finite entries
  have hxr : ∀ n ∈ s, x n = (((x n).toReal : ℝ) : EReal) :=
    fun n hn => (EReal.coe_toReal (hx n hn).1 (hx n hn).2).symm
  generalize hr : (fun n => (x n).toReal) = r at *
  have hxr' : ∀ n ∈ s, x n = ((r n : ℝ) : EReal) := by
    intro n hn; rw [← hr]; exact hxr n hn
  -- the count is the real number of rows
  have hcard : cnt = ((s.card : ℝ) : EReal) := by
    rw [hcnt, zero_add, Finset.sum_const, EReal.coe_natCast]
    exact nsmul_one _
  -- the clamped count is a positive real
  obtain ⟨c, hc, hcc⟩ : ∃ c : ℝ, c = (if s.card = 0 then 1 else (s.card : ℝ)) ∧ cntc = (c : EReal) := by
    refine ⟨_, rfl, ?_⟩
    rw [hcntc, hcard]
    by_cases h : s.card = 0
    · simp [h]
    · have hne : ((s.card : ℝ) : EReal) ≠ 0 := by exact_mod_cast h
      rw [if_neg hne, if_neg h]
  have hcpos : 0 < c := by
    rw [hc]; split_ifs with h
    · exact one_pos
    · exact_mod_cast Nat.pos_of_ne_zero h
  have hcne : c ≠ 0 := hcpos.ne'
  -- the mean is a real number
  obtain ⟨a, ha, haa⟩ : ∃ a : ℝ, a = (∑ n ∈ s, r n) * (1 / c) ∧ ave = (a : EReal) := by
    refine ⟨_, rfl, ?_⟩
    rw [have_, hcc, Ideal.div_coe hcne, zero_add, Finset.sum_congr rfl hxr', coe_sum, ← EReal.coe_mul]
  -- both sums are sums of real numbers
  have hdev : ∑ n ∈ s, (x n - ave) * (x n - ave) = ((∑ n ∈ s, (r n - a) * (r n - a) : ℝ) : EReal) := by
    rw [← coe_sum]
    refine Finset.sum_congr rfl fun n hn => ?_
    rw [hxr' n hn, haa, ← EReal.coe_sub, ← EReal.coe_mul]
  have hsq : ∑ n ∈ s, x n * x n = ((∑ n ∈ s, r n * r n : ℝ) : EReal) := by
    rw [← coe_sum]
    refine Finset.sum_congr rfl fun n hn => ?_
    rw [hxr' n hn, ← EReal.coe_mul]
  have hL : Ideal.div (0 + ∑ n ∈ s, (x n - ave) * (x n - ave)) cntc
      = (((∑ n ∈ s, (r n - a) * (r n - a)) * (1 / c) : ℝ) : EReal) := by
    rw [hcc, Ideal.div_coe hcne, zero_add, hdev, ← EReal.coe_mul]
  have hR : Ideal.div (0 + ∑ n ∈ s, x n * x n) cntc - ave * ave
      = (((∑ n ∈ s, r n * r n) * (1 / c) - a * a : ℝ) : EReal) := by
    rw [hcc, Ideal.div_coe hcne, zero_add, hsq, haa, ← EReal.coe_mul, ← EReal.coe_mul, ← EReal.coe_sub]
  have hid := real_var s r c a hc ha
  refine ⟨by rw [hL, hR, hid], ?_⟩
  -- the right side is the left side, a sum of squares over a positive number
  rw [hR, ← hid]
  have : 0 ≤ (∑ n ∈ s, (r n - a) * (r n - a)) * (1 / c) :=
    mul_nonneg (Finset.sum_nonneg fun n _ => mul_self_nonneg _) (by positivity)
  exact_mod_cast this

end Cert.Spec

end
-- ==== Proof.BridgeStats.lean ====
/-
  The two programs feed the shared chain the same statistics.
  Class sums: the kernel adds its two halves' accumulated one-hot products, which at class c and feature a is
  0 + Σ over all 65536 rows of [label = c] x(n, a); the reference's scatter-add is 0 + Σ over the rows of class c of
  x(n, a): the same sum. Likewise the sums of squares.
  Variance: with cnt the class count (clamped to 1 when empty) and ave = sum / cnt, the kernel takes sumsq / cnt - ave²
  and the reference Σ (x - ave)² / cnt; over finite x these are equal and nonnegative, so the kernel's replacement of
  entries ≤ 0 and the reference's of entries = 0 select the same entries. Hence the same augmented rows.
-/
import proofs.«415097_j5265629905347_2_alg».proof.Proof.Region0Fold
import proofs.«415097_j5265629905347_2_alg».proof.Proof.KernelHost
import proofs.«415097_j5265629905347_2_alg».proof.Proof.RefStats
import proofs.«415097_j5265629905347_2_alg».proof.Proof.RefOps
import proofs.«415097_j5265629905347_2_alg».proof.Proof.Spec
import proofs.«415097_j5265629905347_2_alg».proof.Proof.SpecVar
import proofs.«415097_j5265629905347_2_alg».proof.Proof.Chain
import proofs.«415097_j5265629905347_2_alg».proof.Proof.Rows
import Idealize.ShloMosaic.Lib.IdealHost
import Idealize.ShloMosaic.PureOps.Ideal.Laws
import Mathlib.Logic.Equiv.Fin.Basic
import Mathlib.Algebra.BigOperators.Fin

noncomputable section

namespace Cert.Bridge

open Idealize.ShloMosaic Idealize.ShloMosaic.TcCoe Idealize.SL.Sem Idealize.ShloMosaic.ValueIdx
open Cert.KernelIdeal (Chain.cnt Chain.cntc Chain.ave Chain.varK Chain.varR Chain.augOf)

variable (m : (ℓ : Loc Cert.KernelIdeal.nD Cert.KernelIdeal.τ Cert.KernelIdeal.sig) → Buf (Elt Ideal) ℓ) (ρ : Dev Cert.KernelIdeal.nD → PrngReg)

/-- The rows as half, block, row of the block: every row number once. -/
private theorem sum_rows {M : Type*} [AddCommMonoid M] (f : Fin 65536 → M) :
    ∑ j : Fin 2, ∑ i : Fin 128, ∑ y : Fin 256, f (Cert.Spec.row j i y) = ∑ n : Fin 65536, f n := by
  let e : (Fin 2 × Fin 128) × Fin 256 ≃ Fin 65536 :=
    (Equiv.prodCongr finProdFinEquiv (Equiv.refl (Fin 256))).trans finProdFinEquiv
  have he : ∀ j i y, e ((j, i), y) = Cert.Spec.row j i y := fun j i y => Fin.ext (by
    show y.val + 256 * (i.val + 128 * j.val) = (j.val * 128 + i.val) * 256 + y.val; omega)
  rw [← Equiv.sum_comp e f, Fintype.sum_prod_type, Fintype.sum_prod_type]
  simp only [he]

/-- The kernel's class sums at class cc and feature a: zero plus the sum over the rows of class cc. -/
private theorem sumK_apply (c : Dev Cert.KernelIdeal.nD) (cc : Fin 1000) (a : Fin 1024) :
    Cert.KernelIdeal.Host.sumK m ρ c (ix2 cc a)
      = 0 + ∑ n ∈ Finset.univ.filter (fun n : Fin 65536 => Cert.Spec.rdi Cert.KernelIdeal.S65536 (m ((c.tc : Thread Cert.KernelIdeal.nD Cert.KernelIdeal.τ).loc Cert.KernelIdeal.main_arg8)) (ix1 n) = BitVec.ofNat 32 cc.val),
          Cert.Spec.rd Cert.KernelIdeal.S65536x1024 (m ((c.tc : Thread Cert.KernelIdeal.nD Cert.KernelIdeal.τ).loc Cert.KernelIdeal.main_arg0)) (ix2 n a) := by
  have hR : Shape.Reduces Cert.KernelIdeal.S2x1000x1024 [0] Cert.KernelIdeal.S1000x1024 := by decide
  show Ideal.hostReduceAdd _ _ _ (ix2 cc a) = _
  rw [Ideal.hostReduceAdd_single _ hR]
  have h0 : constant (F := Ideal) Cert.KernelIdeal.S_ FTy.f32 (0#32) (Shape.Idx.first Cert.KernelIdeal.Gen.h_S_) = (0 : EReal) :=
    Ideal.ofBits_zero_f32
  have hk : ∀ k : Fin 2,
      Cert.Spec.rd Cert.KernelIdeal.S2x1000x1024
          ((Cert.KernelIdeal.Gen.dat0 (F := Ideal) (Cert.KernelIdeal.Gen.V1 m ρ) c).arrAt 5 Cert.KernelIdeal.cfg0.N) (hR.lift (ix2 cc a) k)
        = ∑ i : Fin 128, ∑ y : Fin 256,
            Cert.Spec.oh (Cert.Spec.rdi Cert.KernelIdeal.S65536 (m ((c.tc : Thread Cert.KernelIdeal.nD Cert.KernelIdeal.τ).loc Cert.KernelIdeal.main_arg8)) (ix1 (Cert.Spec.row k i y))) cc.val
              * Cert.Spec.rd Cert.KernelIdeal.S65536x1024 (m ((c.tc : Thread Cert.KernelIdeal.nD Cert.KernelIdeal.τ).loc Cert.KernelIdeal.main_arg0)) (ix2 (Cert.Spec.row k i y) a) := by
    intro k
    have hl : hR.lift (ix2 cc a) k = (ix3 k cc a : Cert.KernelIdeal.S2x1000x1024.Idx) := by
      funext d; apply Fin.ext
      match d with
      | ⟨0, _⟩ => rfl
      | ⟨1, _⟩ => rfl
      | ⟨2, _⟩ => rfl
    have h := Cert.KernelIdeal.R0F.sum_out_apply (Cert.KernelIdeal.Gen.V1 m ρ) c k cc a
    simp only [Cert.KernelIdeal.Host.V1_v0 m ρ c, Cert.KernelIdeal.Host.V1_arg0 m ρ c] at h
    rw [hl]
    exact h
  rw [h0]
  refine congrArg (fun z => (0 : EReal) + z) ?_
  refine (Finset.sum_congr rfl (fun k _ => hk k)).trans ?_
  rw [← Cert.Spec.sum_oh_mul (fun n : Fin 65536 => Cert.Spec.rdi Cert.KernelIdeal.S65536 (m ((c.tc : Thread Cert.KernelIdeal.nD Cert.KernelIdeal.τ).loc Cert.KernelIdeal.main_arg8)) (ix1 n)) cc.val
      (fun n : Fin 65536 => Cert.Spec.rd Cert.KernelIdeal.S65536x1024 (m ((c.tc : Thread Cert.KernelIdeal.nD Cert.KernelIdeal.τ).loc Cert.KernelIdeal.main_arg0)) (ix2 n a))]
  exact sum_rows (fun n : Fin 65536 =>
    Cert.Spec.oh (Cert.Spec.rdi Cert.KernelIdeal.S65536 (m ((c.tc : Thread Cert.KernelIdeal.nD Cert.KernelIdeal.τ).loc Cert.KernelIdeal.main_arg8)) (ix1 n)) cc.val * Cert.Spec.rd Cert.KernelIdeal.S65536x1024 (m ((c.tc : Thread Cert.KernelIdeal.nD Cert.KernelIdeal.τ).loc Cert.KernelIdeal.main_arg0)) (ix2 n a))

/-- Likewise its class sums of squares. -/
private theorem sumsqK_apply (c : Dev Cert.KernelIdeal.nD) (cc : Fin 1000) (a : Fin 1024) :
    Cert.KernelIdeal.Host.sumsqK m ρ c (ix2 cc a)
      = 0 + ∑ n ∈ Finset.univ.filter (fun n : Fin 65536 => Cert.Spec.rdi Cert.KernelIdeal.S65536 (m ((c.tc : Thread Cert.KernelIdeal.nD Cert.KernelIdeal.τ).loc Cert.KernelIdeal.main_arg8)) (ix1 n) = BitVec.ofNat 32 cc.val),
          (Cert.Spec.rd Cert.KernelIdeal.S65536x1024 (m ((c.tc : Thread Cert.KernelIdeal.nD Cert.KernelIdeal.τ).loc Cert.KernelIdeal.main_arg0)) (ix2 n a) * Cert.Spec.rd Cert.KernelIdeal.S65536x1024 (m ((c.tc : Thread Cert.KernelIdeal.nD Cert.KernelIdeal.τ).loc Cert.KernelIdeal.main_arg0)) (ix2 n a)) := by
  have hR : Shape.Reduces Cert.KernelIdeal.S2x1000x1024 [0] Cert.KernelIdeal.S1000x1024 := by decide
  show Ideal.hostReduceAdd _ _ _ (ix2 cc a) = _
  rw [Ideal.hostReduceAdd_single _ hR]
  have h0 : constant (F := Ideal) Cert.KernelIdeal.S_ FTy.f32 (0#32) (Shape.Idx.first Cert.KernelIdeal.Gen.h_S_) = (0 : EReal) :=
    Ideal.ofBits_zero_f32
  have hk : ∀ k : Fin 2,
      Cert.Spec.rd Cert.KernelIdeal.S2x1000x1024
          ((Cert.KernelIdeal.Gen.dat0 (F := Ideal) (Cert.KernelIdeal.Gen.V1 m ρ) c).arrAt 6 Cert.KernelIdeal.cfg0.N) (hR.lift (ix2 cc a) k)
        = ∑ i : Fin 128, ∑ y : Fin 256,
            Cert.Spec.oh (Cert.Spec.rdi Cert.KernelIdeal.S65536 (m ((c.tc : Thread Cert.KernelIdeal.nD Cert.KernelIdeal.τ).loc Cert.KernelIdeal.main_arg8)) (ix1 (Cert.Spec.row k i y))) cc.val
              * (Cert.Spec.rd Cert.KernelIdeal.S65536x1024 (m ((c.tc : Thread Cert.KernelIdeal.nD Cert.KernelIdeal.τ).loc Cert.KernelIdeal.main_arg0)) (ix2 (Cert.Spec.row k i y) a) * Cert.Spec.rd Cert.KernelIdeal.S65536x1024 (m ((c.tc : Thread Cert.KernelIdeal.nD Cert.KernelIdeal.τ).loc Cert.KernelIdeal.main_arg0)) (ix2 (Cert.Spec.row k i y) a)) := by
    intro k
    have hl : hR.lift (ix2 cc a) k = (ix3 k cc a : Cert.KernelIdeal.S2x1000x1024.Idx) := by
      funext d; apply Fin.ext
      match d with
      | ⟨0, _⟩ => rfl
      | ⟨1, _⟩ => rfl
      | ⟨2, _⟩ => rfl
    have h := Cert.KernelIdeal.R0F.sumsq_out_apply (Cert.KernelIdeal.Gen.V1 m ρ) c k cc a
    simp only [Cert.KernelIdeal.Host.V1_v0 m ρ c, Cert.KernelIdeal.Host.V1_arg0 m ρ c] at h
    rw [hl]
    exact h
  rw [h0]
  refine congrArg (fun z => (0 : EReal) + z) ?_
  refine (Finset.sum_congr rfl (fun k _ => hk k)).trans ?_
  rw [← Cert.Spec.sum_oh_mul (fun n : Fin 65536 => Cert.Spec.rdi Cert.KernelIdeal.S65536 (m ((c.tc : Thread Cert.KernelIdeal.nD Cert.KernelIdeal.τ).loc Cert.KernelIdeal.main_arg8)) (ix1 n)) cc.val
      (fun n : Fin 65536 => (Cert.Spec.rd Cert.KernelIdeal.S65536x1024 (m ((c.tc : Thread Cert.KernelIdeal.nD Cert.KernelIdeal.τ).loc Cert.KernelIdeal.main_arg0)) (ix2 n a) * Cert.Spec.rd Cert.KernelIdeal.S65536x1024 (m ((c.tc : Thread Cert.KernelIdeal.nD Cert.KernelIdeal.τ).loc Cert.KernelIdeal.main_arg0)) (ix2 n a)))]
  exact sum_rows (fun n : Fin 65536 =>
    Cert.Spec.oh (Cert.Spec.rdi Cert.KernelIdeal.S65536 (m ((c.tc : Thread Cert.KernelIdeal.nD Cert.KernelIdeal.τ).loc Cert.KernelIdeal.main_arg8)) (ix1 n)) cc.val * (Cert.Spec.rd Cert.KernelIdeal.S65536x1024 (m ((c.tc : Thread Cert.KernelIdeal.nD Cert.KernelIdeal.τ).loc Cert.KernelIdeal.main_arg0)) (ix2 n a) * Cert.Spec.rd Cert.KernelIdeal.S65536x1024 (m ((c.tc : Thread Cert.KernelIdeal.nD Cert.KernelIdeal.τ).loc Cert.KernelIdeal.main_arg0)) (ix2 n a)))

/-- A per-class value repeated along the features reads the class's value. -/
private theorem rep_apply (v : Cert.KernelIdeal.Chain.Arr Ideal Cert.KernelIdeal.S1000 .f32) (cc : Fin 1000) (a : Fin 1024) :
    Cert.KernelIdeal.Chain.rep (F := Ideal) v (ix2 cc a) = v (ix1 cc) := by
  unfold Cert.KernelIdeal.Chain.rep
  refine (broadcastInDim_apply _ _ _ (ix2 cc a) (ix2 cc (0 : Fin 1)) ?_).trans ?_
  · intro d
    match d with
    | ⟨0, _⟩ => rfl
    | ⟨1, _⟩ => rfl
  · refine broadcastInDim_apply _ _ _ (ix2 cc (0 : Fin 1)) (ix1 cc) ?_
    intro d
    match d with
    | ⟨0, _⟩ => rfl

/-- The array of zeros reads zero. -/
private theorem zeros_apply (i : Cert.KernelIdeal.S1000x1024.Idx) : Cert.KernelIdeal.Chain.zeros (F := Ideal) i = (0 : EReal) := by
  unfold Cert.KernelIdeal.Chain.zeros
  rw [broadcastInDim_scalar_apply]
  exact Ideal.ofBits_zero_f32

/-- The clamped count reads one at an empty class and the count elsewhere. -/
private theorem cntc_apply (n : Cert.KernelIdeal.Chain.Arr Ideal Cert.KernelIdeal.S1000 .f32) (cc : Fin 1000) :
    Cert.KernelIdeal.Chain.cntc (F := Ideal) n (ix1 cc) = if (n (ix1 cc) : EReal) = 0 then 1 else n (ix1 cc) := by
  unfold Cert.KernelIdeal.Chain.cntc
  rw [select_apply, cmpf_apply, broadcastInDim_scalar_apply, broadcastInDim_scalar_apply]
  show Scalar.select (Ideal.cmp .oeq (n (ix1 cc)) (Ideal.ofBits .f32 0x00000000#32)) (Ideal.ofBits .f32 0x3F800000#32) (n (ix1 cc)) = _
  rw [Ideal.ofBits_zero_f32, Ideal.ofBits_one_f32]
  unfold Scalar.select Ideal.cmp
  by_cases h : (n (ix1 cc) : EReal) = 0
  · simp [h]
  · simp [h]

/-- A test ≤ 0 and a test = 0 of a nonnegative number give the same bit. -/
private theorem cmp_le_eq_of_nonneg {r : EReal} (h : 0 ≤ r) : Ideal.cmp .ole r 0 = Ideal.cmp .oeq r 0 := by
  unfold Ideal.cmp
  have hiff : (r ≤ 0) ↔ (r = 0) := ⟨fun hle => le_antisymm hle h, fun he => he.le⟩
  exact congrArg BitVec.ofBool (decide_eq_decide.mpr hiff)

/-- The guarded variance both ways at the same inputs: for finite x and labels in range, mean square minus squared
    mean with its nonpositive entries replaced is the mean squared deviation with its zero entries replaced. -/
private theorem var_core (x0 : FVec Ideal Cert.ReferenceIdeal.S65536x1024 .f32) (x8 : IVec Cert.ReferenceIdeal.S65536 32)
    (sumsq : Cert.KernelIdeal.Chain.Arr Ideal Cert.KernelIdeal.S1000x1024 .f32)
    (hx : ∀ i, (x0 i : EReal) ≠ ⊤ ∧ (x0 i : EReal) ≠ ⊥) (hl : ∀ n, (x8 n).toNat < 1000)
    (hsq : ∀ (cc : Fin 1000) (a : Fin 1024), sumsq (ix2 cc a)
      = 0 + ∑ n ∈ Finset.univ.filter (fun n : Fin 65536 => x8 (ix1 n) = BitVec.ofNat 32 cc.val), x0 (ix2 n a) * x0 (ix2 n a)) :
    Cert.KernelIdeal.Chain.varK (F := Ideal) sumsq (Cert.ReferenceIdeal.ReadP.val_main_v6 (F := Ideal) x0 x8) (Cert.KernelIdeal.Chain.cntc (Cert.KernelIdeal.Chain.cnt (F := Ideal) x8))
      = Cert.ReferenceIdeal.ReadP.val_main_v30 (F := Ideal) x0 x8 := by
  rw [Cert.ReferenceIdeal.RefStats.v30_eq]
  funext j
  obtain ⟨cc, a, rfl⟩ : ∃ (cc : Fin 1000) (a : Fin 1024), j = ix2 cc a := ⟨j 0, j 1, eq_ix2 j⟩
  have hcnt := Cert.ReferenceIdeal.Ops.cnt_apply x8 cc
  have hcc := cntc_apply (Cert.KernelIdeal.Chain.cnt (F := Ideal) x8) cc
  have hv6 := Cert.ReferenceIdeal.RefStats.v6_apply x0 x8 cc a
  have hv24 := Cert.ReferenceIdeal.RefStats.v24_apply x0 x8 hl cc a
  have hv12 : Cert.ReferenceIdeal.ReadP.val_main_v12 (F := Ideal) x0 x8 (ix2 cc a)
      = Ideal.div (Cert.ReferenceIdeal.ReadP.val_main_v6 (F := Ideal) x0 x8 (ix2 cc a)) (Cert.KernelIdeal.Chain.cntc (Cert.KernelIdeal.Chain.cnt (F := Ideal) x8) (ix1 cc)) := by
    rw [Cert.ReferenceIdeal.RefStats.v12_eq]
    unfold Cert.KernelIdeal.Chain.ave
    rw [hostDivf_apply, rep_apply]
  have hid := Cert.Spec.var_identity (Finset.univ.filter (fun n : Fin 65536 => x8 (ix1 n) = BitVec.ofNat 32 cc.val))
    (fun n => x0 (ix2 n a)) (fun n _ => hx (ix2 n a)) _ _ _ hcnt hcc (hv12.trans (by rw [hv6]))
  unfold Cert.KernelIdeal.Chain.varK Cert.KernelIdeal.Chain.varR Cert.KernelIdeal.Chain.guard Cert.KernelIdeal.Chain.ave
  simp only [select_apply, cmpf_apply, subf_apply, mulf_apply, hostDivf_apply, rep_apply, zeros_apply]
  rw [hsq cc a, hv24, ← hv12, hid.1]
  show Scalar.select (Ideal.cmp .ole _ 0) _ _ = Scalar.select (Ideal.cmp .oeq _ 0) _ _
  rw [cmp_le_eq_of_nonneg hid.2]

/-- The kernel's class sums are the reference's. -/
theorem sumK_eq (c : Dev Cert.KernelIdeal.nD) :
    Cert.KernelIdeal.Host.sumK m ρ c = Cert.ReferenceIdeal.ReadP.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) := by
  funext j
  obtain ⟨cc, a, rfl⟩ : ∃ (cc : Fin 1000) (a : Fin 1024), j = ix2 cc a := ⟨j 0, j 1, eq_ix2 j⟩
  rw [sumK_apply m ρ c cc a]
  exact (Cert.ReferenceIdeal.RefStats.v6_apply _ _ cc a).symm

/-- The kernel's guarded variance is the reference's, for finite x and labels in range. -/
theorem var_eq (c : Dev Cert.KernelIdeal.nD)
    (hx : ∀ i, Cert.Spec.rd Cert.KernelIdeal.S65536x1024 (m ((c.tc : Thread Cert.KernelIdeal.nD Cert.KernelIdeal.τ).loc Cert.KernelIdeal.main_arg0)) i ≠ ⊤ ∧ Cert.Spec.rd Cert.KernelIdeal.S65536x1024 (m ((c.tc : Thread Cert.KernelIdeal.nD Cert.KernelIdeal.τ).loc Cert.KernelIdeal.main_arg0)) i ≠ ⊥)
    (hl : ∀ n, (Cert.Spec.rdi Cert.KernelIdeal.S65536 (m ((c.tc : Thread Cert.KernelIdeal.nD Cert.KernelIdeal.τ).loc Cert.KernelIdeal.main_arg8)) n).toNat < 1000) :
    Cert.KernelIdeal.Chain.varK (Cert.KernelIdeal.Host.sumsqK m ρ c) (Cert.KernelIdeal.Host.sumK m ρ c)
        (Cert.KernelIdeal.Chain.cntc (Cert.KernelIdeal.Chain.cnt (F := Ideal) (m ((c.tc : Thread Cert.KernelIdeal.nD Cert.KernelIdeal.τ).loc Cert.KernelIdeal.main_arg8))))
      = Cert.ReferenceIdeal.ReadP.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) := by
  rw [sumK_eq m ρ c]
  exact var_core _ _ (Cert.KernelIdeal.Host.sumsqK m ρ c) hx hl (fun cc a => sumsqK_apply m ρ c cc a)

/-- So the second pass reads the reference's augmented rows. -/
theorem aug_eq (c : Dev Cert.KernelIdeal.nD)
    (hx : ∀ i, Cert.Spec.rd Cert.KernelIdeal.S65536x1024 (m ((c.tc : Thread Cert.KernelIdeal.nD Cert.KernelIdeal.τ).loc Cert.KernelIdeal.main_arg0)) i ≠ ⊤ ∧ Cert.Spec.rd Cert.KernelIdeal.S65536x1024 (m ((c.tc : Thread Cert.KernelIdeal.nD Cert.KernelIdeal.τ).loc Cert.KernelIdeal.main_arg0)) i ≠ ⊥)
    (hl : ∀ n, (Cert.Spec.rdi Cert.KernelIdeal.S65536 (m ((c.tc : Thread Cert.KernelIdeal.nD Cert.KernelIdeal.τ).loc Cert.KernelIdeal.main_arg8)) n).toNat < 1000) :
    Cert.KernelIdeal.Gen.V7 m ρ c Cert.KernelIdeal.main_v61
      = Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [Cert.KernelIdeal.Host.V7_v61 m ρ c, Cert.ReferenceIdeal.RefStats.v65_eq, Cert.ReferenceIdeal.RefStats.v12_eq, ← var_eq m ρ c hx hl, sumK_eq m ρ c]

end Cert.Bridge

end
-- ==== Proof.RefLoss.lean ====
/-
  The reference's loss, row by row.
  Its 67536 feature rows are the 65536 data rows followed by the 2000 augmented rows; its labels the data labels followed
  by 0..999 twice. Row r's logits are (row · W + fc_b) - ba; its log-probabilities are taken off them (the maximum it
  subtracts is the row maximum joined with -∞); for labels in range take_along_axis picks the label's entry. The result
  is the sum of the picked entries from 0, divided by 67536, negated.
-/
import proofs.«415097_j5265629905347_2_alg».proof.Proof.RefRead
import proofs.«415097_j5265629905347_2_alg».proof.Proof.RefOps
import proofs.«415097_j5265629905347_2_alg».proof.Proof.Spec
import proofs.«415097_j5265629905347_2_alg».proof.Proof.Rows
import Idealize.ShloMosaic.Lib.ValueIdx
import Idealize.ShloMosaic.Lib.Pipeline.Value

noncomputable section

namespace Cert.ReferenceIdeal.RefLoss

open Cert.ReferenceIdeal Cert.ReferenceIdeal.ReadP Idealize.ShloMosaic Idealize.ShloMosaic.ValueIdx

/-- Feature row r: a data row, or an augmented row. -/
def featR (x0 : FVec Ideal S65536x1024 .f32) (aug : FVec Ideal S2000x1024 .f32) (r : Fin 67536) (a : Fin 1024) : EReal :=
  if h : r.val < 65536 then x0 (ix2 (⟨r.val, h⟩ : Fin 65536) a) else aug (ix2 (⟨r.val - 65536, by omega⟩ : Fin 2000) a)

/-- Row r's label, for data labels in range. -/
def lblR (x8 : IVec S65536 32) (hl : ∀ n, (x8 n).toNat < 1000) (r : Fin 67536) : Fin 1000 :=
  if h : r.val < 65536 then ⟨(x8 (ix1 (⟨r.val, h⟩ : Fin 65536))).toNat, hl _⟩ else ⟨(r.val - 65536) % 1000, Nat.mod_lt _ (by decide)⟩

/-- Row r's logits as the reference takes them: (row · W + fc_b) - ba. -/
def logitsR (x0 : FVec Ideal S65536x1024 .f32) (aug : FVec Ideal S2000x1024 .f32) (x2 : FVec Ideal S1000x1024 .f32)
    (x3 x4 : FVec Ideal S1000 .f32) (r : Fin 67536) : Fin 1000 → EReal :=
  fun k => ((∑ a : Fin 1024, featR x0 aug r a * x2 (ix2 k a)) + x3 (ix1 k)) - x4 (ix1 k)

/-- The joined labels at a data row. -/
private theorem v71_data (x8 : IVec S65536 32) (r : Fin 67536) (h : r.val < 65536) :
    val_main_v71 (F := Ideal) x8 (ix1 r) = x8 (ix1 (⟨r.val, h⟩ : Fin 65536)) := by
  unfold val_main_v71
  exact concatenate_pair_apply_left _ x8 _ _ (ix1 r) rfl (ix1 (⟨r.val, h⟩ : Fin 65536)) (fun b => by
    match b with
    | ⟨0, _⟩ => rfl)

/-- The joined labels at an augmented row. -/
private theorem v71_aug (x8 : IVec S65536 32) (r : Fin 67536) (h : ¬ r.val < 65536) :
    val_main_v71 (F := Ideal) x8 (ix1 r)
      = val_main_v69 (F := Ideal) (ix1 (n := 2000) ⟨r.val - 65536, by have := r.isLt; omega⟩) := by
  unfold val_main_v71
  refine concatenate_pair_apply_right (t := S67536) (s₁ := S65536) (s₂ := S2000) _ x8 _ _ (ix1 r) rfl rfl
    (ix1 (n := 2000) ⟨r.val - 65536, by have := r.isLt; omega⟩) (fun b hb => ?_) ?_
  · match b with
    | ⟨0, _⟩ => exact absurd rfl hb
  · show (r.val - 65536) + 65536 = r.val
    omega

/-- The 0..999-twice labels: entry q is the word q mod 1000. -/
private theorem v69_word (q : Fin 2000) :
    val_main_v69 (F := Ideal) (ix1 q) = BitVec.ofNat 32 (q.val % 1000) := by
  rw [val_main_v69_apply, val_main_v68_apply, val_main_v67_apply, val_main_v66_apply]
  show BitVec.ofNat 32 (0 * 1000 + q.val % 1000) = _
  rw [Nat.zero_mul, Nat.zero_add]

/-- Row r's label word, read as a natural, is row r's label. -/
private theorem v81_label (x8 : IVec S65536 32) (hl : ∀ n, (x8 n).toNat < 1000) (r : Fin 67536) :
    (val_main_v81 (F := Ideal) x8 (ix2 r (0 : Fin 1))).toNat = (lblR x8 hl r).val := by
  rw [val_main_v81_apply]
  have hi : idx_main_v81 (ix2 r (0 : Fin 1)) = ix1 r := by
    funext d; match d with | ⟨0, _⟩ => rfl
  rw [hi]
  unfold lblR
  by_cases h : r.val < 65536
  · rw [dif_pos h, v71_data x8 r h]
  · rw [dif_neg h, v71_aug x8 r h, v69_word]
    show (BitVec.ofNat 32 ((r.val - 65536) % 1000)).toNat = (r.val - 65536) % 1000
    rw [BitVec.toNat_ofNat]
    exact Nat.mod_eq_of_lt (lt_trans (Nat.mod_lt _ (by decide)) (by decide))

/-- The joined features at a data row. -/
private theorem v70_data (x0 : FVec Ideal S65536x1024 .f32) (aug : FVec Ideal S2000x1024 .f32) (r : Fin 67536) (a : Fin 1024)
    (h : r.val < 65536) (hc) :
    concatenate S67536x1024 0 [⟨S65536x1024, x0⟩, ⟨S2000x1024, aug⟩] hc (ix2 r a) = x0 (ix2 (⟨r.val, h⟩ : Fin 65536) a) := by
  exact concatenate_pair_apply_left (t := S67536x1024) (s₁ := S65536x1024) (s₂ := S2000x1024) _ x0 aug hc (ix2 r a) rfl
    (ix2 (⟨r.val, h⟩ : Fin 65536) a) (fun b => by
      match b with
      | ⟨0, _⟩ => rfl
      | ⟨1, _⟩ => rfl)

/-- The joined features at an augmented row. -/
private theorem v70_aug (x0 : FVec Ideal S65536x1024 .f32) (aug : FVec Ideal S2000x1024 .f32) (r : Fin 67536) (a : Fin 1024)
    (h : ¬ r.val < 65536) (hc) :
    concatenate S67536x1024 0 [⟨S65536x1024, x0⟩, ⟨S2000x1024, aug⟩] hc (ix2 r a)
      = aug (ix2 (n0 := 2000) ⟨r.val - 65536, by have := r.isLt; omega⟩ a) := by
  refine concatenate_pair_apply_right (t := S67536x1024) (s₁ := S65536x1024) (s₂ := S2000x1024) _ x0 aug hc (ix2 r a) rfl rfl
    (ix2 (n0 := 2000) ⟨r.val - 65536, by have := r.isLt; omega⟩ a) (fun b hb => ?_) ?_
  · match b with
    | ⟨0, _⟩ => exact absurd rfl hb
    | ⟨1, _⟩ => rfl
  · show (r.val - 65536) + 65536 = r.val
    omega

/-- The joined features at (r, a) are feature row r at a. -/
private theorem v70_feat (x0 : FVec Ideal S65536x1024 .f32) (x1 : FVec Ideal S2x1000x1024 .f32) (x5 x6 : FVec Ideal S1000x1024 .f32)
    (x7 : FVec Ideal S1000 .f32) (x8 : IVec S65536 32) (r : Fin 67536) (a : Fin 1024) :
    val_main_v70 (F := Ideal) x0 x1 x5 x6 x7 x8 (ix2 r a) = featR x0 (val_main_v65 (F := Ideal) x0 x1 x5 x6 x7 x8) r a := by
  unfold val_main_v70 featR
  by_cases h : r.val < 65536
  · rw [dif_pos h]; exact v70_data x0 _ r a h _
  · rw [dif_neg h]; exact v70_aug x0 _ r a h _

/-- The reference's logits at (r, k). -/
private theorem v79_logits (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32)
    (r : Fin 67536) (k : Fin 1000) :
    val_main_v79 (F := Ideal) x0 x1 x2 x3 x4 x5 x6 x7 x8 (ix2 r k)
      = logitsR x0 (val_main_v65 (F := Ideal) x0 x1 x5 x6 x7 x8) x2 x3 x4 r k := by
  rw [val_main_v79_apply, val_main_v76_apply, val_main_v73_apply, val_main_v75_apply, val_main_v74_apply,
    val_main_v78_apply, val_main_v77_apply]
  have h3 : idx_main_v74 (idx_main_v75 (ix2 r k)) = ix1 k := by
    funext d; match d with | ⟨0, _⟩ => rfl
  have h4 : idx_main_v77 (idx_main_v78 (ix2 r k)) = ix1 k := by
    funext d; match d with | ⟨0, _⟩ => rfl
  rw [h3, h4]
  show ((∑ a : Fin 1024, _) + x3 (ix1 k)) - x4 (ix1 k) = _
  unfold logitsR
  refine congrArg (fun s : EReal => (s + x3 (ix1 k)) - x4 (ix1 k)) (Finset.sum_congr rfl fun a _ => ?_)
  have hl : lidx_main_v73 (ix2 r k) a = ix2 r a := by
    funext d; match d with | ⟨0, _⟩ => rfl | ⟨1, _⟩ => rfl
  have hr : idx_main_v72 (ridx_main_v73 (ix2 r k) a) = ix2 k a := by
    funext d; match d with | ⟨0, _⟩ => rfl | ⟨1, _⟩ => rfl
  rw [val_main_v72_apply, hl, hr, v70_feat]

/-- The reference's row maximum: the fold of max from -∞ over row r's logits. -/
private theorem call2_v0_rowMax (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32)
    (r : Fin 67536) :
    val_main_call2_v0 (F := Ideal) x0 x1 x2 x3 x4 x5 x6 x7 x8 (ix1 r)
      = Cert.Spec.rowMax (fun k : Fin 1000 => val_main_v79 (F := Ideal) x0 x1 x2 x3 x4 x5 x6 x7 x8 (ix2 r k)) := by
  unfold val_main_call2_v0
  generalize val_main_v79 (F := Ideal) x0 x1 x2 x3 x4 x5 x6 x7 x8 = y
  have hR : S67536x1000.Reduces [1] S67536 := by decide
  refine (Host.reduce_eq_fold_single (s := S67536x1000) (t := S67536) (a := 1) (FloatOps.maximumf (F := Ideal) (φ := .f32)) y
    (val_main_call2_cst (F := Ideal)) Gen.reducesTo_S67536x1000_S67536_d1 hR Gen.h_S_ (ix1 r)).trans ?_
  have hb : val_main_call2_cst (F := Ideal) (Shape.Idx.first Gen.h_S_) = (⊥ : EReal) := by
    show Ideal.ofBits .f32 0xFF800000#32 = ⊥
    simp [Ideal.ofBits, Ideal.ieee]
  rw [hb]
  have hf : (y ∘ hR.lift (ix1 r)) = fun k : Fin 1000 => y (ix2 r k) :=
    funext fun k => congrArg y (funext fun d => Fin.ext (by
      match d with
      | ⟨0, _⟩ => rfl
      | ⟨1, _⟩ => rfl))
  unfold Cert.Spec.rowMax
  exact congrArg (fun f => Finset.fold max (⊥ : EReal) f (Finset.univ : Finset (Fin 1000))) hf

/-- The pattern of -∞. -/
private theorem ofBits_neg_inf : Ideal.ofBits .f32 0xFF800000#32 = (⊥ : EReal) := by
  simp [Ideal.ofBits, Ideal.ieee]

/-- Row r's logits less the maximum the reference subtracts (the row maximum joined with -∞), at class k. -/
private theorem call2_v5_shift (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32)
    (r : Fin 67536) (k : Fin 1000) :
    val_main_call2_v5 (F := Ideal) x0 x1 x2 x3 x4 x5 x6 x7 x8 (ix2 r k)
      = (logitsR x0 (val_main_v65 (F := Ideal) x0 x1 x5 x6 x7 x8) x2 x3 x4 r) k - Cert.Spec.rowMax (logitsR x0 (val_main_v65 (F := Ideal) x0 x1 x5 x6 x7 x8) x2 x3 x4 r) := by
  rw [val_main_call2_v5_apply, val_main_call2_v4_apply, val_main_call2_v3_apply, val_main_call2_v2_apply,
    val_main_call2_v1_apply, val_main_call2_cst_0_apply]
  have hi : idx_main_call2_v3 (idx_main_call2_v4 (ix2 r k)) = ix1 r := by
    funext d; match d with | ⟨0, _⟩ => rfl
  rw [hi, call2_v0_rowMax]
  have hz : (fun k' : Fin 1000 => val_main_v79 (F := Ideal) x0 x1 x2 x3 x4 x5 x6 x7 x8 (ix2 r k')) = (logitsR x0 (val_main_v65 (F := Ideal) x0 x1 x5 x6 x7 x8) x2 x3 x4 r) :=
    funext fun k' => v79_logits x0 x1 x2 x3 x4 x5 x6 x7 x8 r k'
  rw [hz, v79_logits]
  show _ - max (Ideal.ofBits .f32 0xFF800000#32) _ = _
  rw [ofBits_neg_inf, Cert.Spec.max_bot_rowMax]

/-- The reference's log-probabilities at (r, k). -/
private theorem v80_logp (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32)
    (r : Fin 67536) (k : Fin 1000) :
    val_main_v80 (F := Ideal) x0 x1 x2 x3 x4 x5 x6 x7 x8 (ix2 r k) = Cert.Spec.logp (logitsR x0 (val_main_v65 (F := Ideal) x0 x1 x5 x6 x7 x8) x2 x3 x4 r) k := by
  rw [val_main_v80_apply, val_main_call2_v10_apply, val_main_call2_v9_apply, val_main_call2_v8_apply,
    val_main_call2_v7_apply, call2_v5_shift]
  have hi : idx_main_call2_v8 (idx_main_call2_v10 (ix2 r k)) = ix1 r := by
    funext d; match d with | ⟨0, _⟩ => rfl
  rw [hi]
  have hs : ∀ k' : Fin 1000, val_main_call2_v6 (F := Ideal) x0 x1 x2 x3 x4 x5 x6 x7 x8 (idx_main_call2_v7 (ix1 r) k')
      = Ideal.exp ((logitsR x0 (val_main_v65 (F := Ideal) x0 x1 x5 x6 x7 x8) x2 x3 x4 r) k' - Cert.Spec.rowMax (logitsR x0 (val_main_v65 (F := Ideal) x0 x1 x5 x6 x7 x8) x2 x3 x4 r)) := by
    intro k'
    have hj : idx_main_call2_v7 (ix1 r) k' = ix2 r k' := by
      funext d; match d with | ⟨0, _⟩ => rfl | ⟨1, _⟩ => rfl
    rw [hj, val_main_call2_v6_apply, call2_v5_shift]
    rfl
  simp only [hs]
  show _ - Ideal.log (Ideal.ofBits .f32 0x00000000#32 + _) = _
  rw [Ideal.ofBits_zero_f32, zero_add]
  rfl

/-- The reference's take_along_axis stage is take_along_axis of its log-probabilities at its labels. -/
private theorem v82_takeAlong (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32) :
    val_main_v82 (F := Ideal) x0 x1 x2 x3 x4 x5 x6 x7 x8
      = Ops.takeAlong (F := Ideal) (val_main_v80 (F := Ideal) x0 x1 x2 x3 x4 x5 x6 x7 x8) (val_main_v81 (F := Ideal) x8) := rfl

/-- Row r's picked entry: the log-probability of row r's label. -/
private theorem v82_pick (x0 : FVec Ideal S65536x1024 .f32) (x1 : FVec Ideal S2x1000x1024 .f32) (x2 : FVec Ideal S1000x1024 .f32)
    (x3 x4 : FVec Ideal S1000 .f32) (x5 x6 : FVec Ideal S1000x1024 .f32) (x7 : FVec Ideal S1000 .f32) (x8 : IVec S65536 32)
    (hl : ∀ n, (x8 n).toNat < 1000) (r : Fin 67536) :
    val_main_v82 (F := Ideal) x0 x1 x2 x3 x4 x5 x6 x7 x8 (ix2 r (0 : Fin 1)) = Cert.Spec.logp (logitsR x0 (val_main_v65 (F := Ideal) x0 x1 x5 x6 x7 x8) x2 x3 x4 r) (lblR x8 hl r) := by
  have hr : ∀ r' : Fin 67536, (val_main_v81 (F := Ideal) x8 (ix2 r' (0 : Fin 1))).toNat < 1000 := fun r' => by
    rw [v81_label x8 hl r']; exact (lblR x8 hl r').isLt
  rw [v82_takeAlong, Ops.takeAlong_apply _ _ hr r]
  have hk : (⟨(val_main_v81 (F := Ideal) x8 (ix2 r (0 : Fin 1))).toNat, hr r⟩ : Fin 1000) = lblR x8 hl r :=
    Fin.ext (v81_label x8 hl r)
  rw [hk, v80_logp]

/-- The reference's result. -/
theorem ref_result (x0 : FVec Ideal S65536x1024 .f32) (x1 : FVec Ideal S2x1000x1024 .f32) (x2 : FVec Ideal S1000x1024 .f32) (x3 x4 : FVec Ideal S1000 .f32) (x5 x6 : FVec Ideal S1000x1024 .f32) (x7 : FVec Ideal S1000 .f32) (x8 : IVec S65536 32)
    (hl : ∀ n, (x8 n).toNat < 1000) :
    val_main_v85 (F := Ideal) x0 x1 x2 x3 x4 x5 x6 x7 x8 ix0
      = -(Ideal.div (0 + ∑ r : Fin 67536,
            Cert.Spec.logp (logitsR x0 (val_main_v65 (F := Ideal) x0 x1 x5 x6 x7 x8) x2 x3 x4 r) (lblR x8 hl r))
          (Ideal.ofBits .f32 0x4783E800#32)) := by
  rw [val_main_v85_apply, val_main_v84_apply, val_main_v83_apply, val_main_cst_13_apply, val_main_cst_12_apply]
  show -(Ideal.div (Ideal.ofBits .f32 0x00000000#32 + ∑ j : S67536x1.Idx, val_main_v82 (F := Ideal) x0 x1 x2 x3 x4 x5 x6 x7 x8 j)
    (Ideal.ofBits .f32 0x4783E800#32)) = _
  rw [Ideal.ofBits_zero_f32, sum_idx2]
  refine congrArg (fun s : EReal => -(Ideal.div (0 + s) (Ideal.ofBits .f32 0x4783E800#32))) (Finset.sum_congr rfl fun r _ => ?_)
  rw [Fin.sum_univ_one]
  exact v82_pick x0 x1 x2 x3 x4 x5 x6 x7 x8 hl r

end Cert.ReferenceIdeal.RefLoss

end
-- ==== Proof.AugLabels.lean ====
/-
  The augmented rows' labels. They are the class numbers 0..999 laid out twice: an iota over the classes, repeated for
  the two slabs, flattened to 2000 entries and stood up as a column; so row 1000 s + y carries the word y.
-/
import proofs.«415097_j5265629905347_2_alg».proof.Proof.Chain
import proofs.«415097_j5265629905347_2_alg».proof.Proof.Rows
import proofs.«415097_j5265629905347_2_alg».proof.Proof.Gen.KernelIdeal
import Idealize.ShloMosaic.Lib.ValueIdx
import Idealize.ShloMosaic.Lib.Pipeline.Value

noncomputable section

namespace Cert.Bridge

open Idealize.ShloMosaic Idealize.ShloMosaic.ValueIdx

/-- The augmented rows' labels at row 1000 s + y: the class number y. -/
theorem augLabels_apply (s : Fin 2) (y : Fin 1000) :
    Cert.Spec.rdi Cert.KernelIdeal.S2000x1 (Cert.KernelIdeal.Chain.augLabels (F := Ideal)) (ix2 (Cert.Spec.arow s y) (0 : Fin 1))
      = BitVec.ofNat 32 y.val := by
  unfold Cert.KernelIdeal.Chain.augLabels
  -- the column [2000, 1] at (r, 0) is the flat vector at r
  refine (shapeCast_apply _ _ (ix2 (Cert.Spec.arow s y) (0 : Fin 1)) (ix1 (Cert.Spec.arow s y)) ?_).trans ?_
  · rw [Shape.rowMajor_val_one, Shape.rowMajor_val_two]
    show (Cert.Spec.arow s y).val = (Cert.Spec.arow s y).val * 1 + 0
    omega
  -- the flat vector at 1000 s + y is the [2, 1000] rectangle at (s, y)
  refine (shapeCast_apply _ _ (ix1 (Cert.Spec.arow s y)) (ix2 s y) ?_).trans ?_
  · rw [Shape.rowMajor_val_two, Shape.rowMajor_val_one]
    show s.val * 1000 + y.val = s.val * 1000 + y.val
    rfl
  -- the rectangle repeats its one row: (s, y) reads (0, y)
  refine (broadcastInDim_apply _ _ _ (ix2 s y) (ix2 (0 : Fin 1) y) ?_).trans ?_
  · intro a
    match a with
    | ⟨0, _⟩ => rfl
    | ⟨1, _⟩ => rfl
  -- the row [1, 1000] at (0, y) is the iota at y, which is the word y
  refine (shapeCast_apply _ _ (ix2 (0 : Fin 1) y) (ix1 y) ?_).trans ?_
  · rw [Shape.rowMajor_val_one, Shape.rowMajor_val_two]
    show y.val = 0 * 1000 + y.val
    omega
  rfl

end Cert.Bridge

end
-- ==== Proof.Bridge.lean ====
/-
  The two results are one number.
  Row by row: a data row's logits are row · Wᵀ + (fc_b - ba) in the kernel and (row · Wᵀ + fc_b) - ba in the reference,
  the same extended real by associativity; its label is in range, so the kernel's one-hot weighted sum of the
  log-probabilities is the reference's indexed entry. An augmented row is the same row in both programs (the statistics
  bridge), its label the class number y of row 1000 s + y.
  Then the assembly: the kernel adds per-block negated sums and divides, the reference divides the total and negates;
  no log-probability is ⊤, so these agree.
-/
import proofs.«415097_j5265629905347_2_alg».proof.Proof.KernelHost
import proofs.«415097_j5265629905347_2_alg».proof.Proof.Region0Fold
import proofs.«415097_j5265629905347_2_alg».proof.Proof.Region1Fold
import proofs.«415097_j5265629905347_2_alg».proof.Proof.BridgeStats
import proofs.«415097_j5265629905347_2_alg».proof.Proof.RefLoss
import proofs.«415097_j5265629905347_2_alg».proof.Proof.Spec
import proofs.«415097_j5265629905347_2_alg».proof.Proof.Rows
import proofs.«415097_j5265629905347_2_alg».proof.Proof.Chain
import proofs.«415097_j5265629905347_2_alg».proof.Proof.AugLabels
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.ValueIdx
open Cert.Spec (rd rdi row arow)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The argument arrays, as the kernel's program is launched with them. -/
abbrev x0 : FVec Ideal Cert.KernelIdeal.S65536x1024 .f32 := m ((c.tc : Thread Cert.KernelIdeal.nD Cert.KernelIdeal.τ).loc Cert.KernelIdeal.main_arg0)
abbrev x1 : FVec Ideal Cert.KernelIdeal.S2x1000x1024 .f32 := m ((c.tc : Thread Cert.KernelIdeal.nD Cert.KernelIdeal.τ).loc Cert.KernelIdeal.main_arg1)
abbrev x2 : FVec Ideal Cert.KernelIdeal.S1000x1024 .f32 := m ((c.tc : Thread Cert.KernelIdeal.nD Cert.KernelIdeal.τ).loc Cert.KernelIdeal.main_arg2)
abbrev x3 : FVec Ideal Cert.KernelIdeal.S1000 .f32 := m ((c.tc : Thread Cert.KernelIdeal.nD Cert.KernelIdeal.τ).loc Cert.KernelIdeal.main_arg3)
abbrev x4 : FVec Ideal Cert.KernelIdeal.S1000 .f32 := m ((c.tc : Thread Cert.KernelIdeal.nD Cert.KernelIdeal.τ).loc Cert.KernelIdeal.main_arg4)
abbrev x5 : FVec Ideal Cert.KernelIdeal.S1000x1024 .f32 := m ((c.tc : Thread Cert.KernelIdeal.nD Cert.KernelIdeal.τ).loc Cert.KernelIdeal.main_arg5)
abbrev x6 : FVec Ideal Cert.KernelIdeal.S1000x1024 .f32 := m ((c.tc : Thread Cert.KernelIdeal.nD Cert.KernelIdeal.τ).loc Cert.KernelIdeal.main_arg6)
abbrev x7 : FVec Ideal Cert.KernelIdeal.S1000 .f32 := m ((c.tc : Thread Cert.KernelIdeal.nD Cert.KernelIdeal.τ).loc Cert.KernelIdeal.main_arg7)
abbrev x8 : IVec Cert.KernelIdeal.S65536 32 := m ((c.tc : Thread Cert.KernelIdeal.nD Cert.KernelIdeal.τ).loc Cert.KernelIdeal.main_arg8)

/-- The reference's augmented rows of these arguments. -/
abbrev augR : FVec Ideal Cert.KernelIdeal.S2000x1024 .f32 :=
  Cert.ReferenceIdeal.ReadP.val_main_v65 (F := Ideal) (x0 m c) (x1 m c) (x5 m c) (x6 m c) (x7 m c) (x8 m c)

/-- Row r's selected log-probability, as the reference takes it. -/
def fR (hl : ∀ n, (x8 m c n).toNat < 1000) (r : Fin 67536) : EReal :=
  Cert.Spec.logp (Cert.ReferenceIdeal.RefLoss.logitsR (x0 m c) (augR m c) (x2 m c) (x3 m c) (x4 m c) r)
    (Cert.ReferenceIdeal.RefLoss.lblR (x8 m c) hl r)

/-- The logits of a row f against the transposed weights and the bias fc_b - ba are the reference's (f · Wᵀ + fc_b) - ba. -/
theorem logits_eq (f : Fin 1024 → EReal) (k : Fin 1000) :
    Cert.Spec.logits f (fun a k => x2 m c (ix2 k a)) (fun k => x3 m c (ix1 k) - x4 m c (ix1 k)) k
      = ((∑ a : Fin 1024, f a * x2 m c (ix2 k a)) + x3 m c (ix1 k)) - x4 m c (ix1 k) := by
  simp only [Cert.Spec.logits, sub_eq_add_neg, add_assoc]

/-- A data row's selected log-probability, as the first pass takes it, is the reference's. -/
theorem row_x (hl : ∀ n, (x8 m c n).toNat < 1000) (j : Fin 2) (i : Fin 128) (y : Fin 256) :
    Cert.Spec.selOH
        (Cert.Spec.logits (fun a => rd Cert.KernelIdeal.S65536x1024 (Cert.KernelIdeal.Gen.V1 m ρ c Cert.KernelIdeal.main_arg0) (ix2 (row j i y) a))
          (fun a k => rd Cert.KernelIdeal.S1024x1000 (Cert.KernelIdeal.Gen.V1 m ρ c Cert.KernelIdeal.main_v5) (ix2 a k))
          (fun k => rd Cert.KernelIdeal.S1x1000 (Cert.KernelIdeal.Gen.V1 m ρ c Cert.KernelIdeal.main_v3) (ix2 (0 : Fin 1) k)))
        (rdi Cert.KernelIdeal.S65536x1 (Cert.KernelIdeal.Gen.V1 m ρ c Cert.KernelIdeal.main_v1) (ix2 (row j i y) (0 : Fin 1)))
      = fR m c hl ⟨(j.val * 128 + i.val) * 256 + y.val, by omega⟩ := by
  have hn : (j.val * 128 + i.val) * 256 + y.val < 65536 := by omega
  have hfeat : ∀ a, Cert.ReferenceIdeal.RefLoss.featR (x0 m c) (augR m c) ⟨(j.val * 128 + i.val) * 256 + y.val, by omega⟩ a
      = x0 m c (ix2 (row j i y) a) := by
    intro a; unfold Cert.ReferenceIdeal.RefLoss.featR; rw [dif_pos hn]; rfl
  have hlbl : Cert.ReferenceIdeal.RefLoss.lblR (x8 m c) hl ⟨(j.val * 128 + i.val) * 256 + y.val, by omega⟩
      = ⟨(x8 m c (ix1 (row j i y))).toNat, hl _⟩ := by
    unfold Cert.ReferenceIdeal.RefLoss.lblR; rw [dif_pos hn]; rfl
  have hlog : Cert.ReferenceIdeal.RefLoss.logitsR (x0 m c) (augR m c) (x2 m c) (x3 m c) (x4 m c) ⟨(j.val * 128 + i.val) * 256 + y.val, by omega⟩
      = Cert.Spec.logits (fun a => x0 m c (ix2 (row j i y) a)) (fun a k => x2 m c (ix2 k a)) (fun k => x3 m c (ix1 k) - x4 m c (ix1 k)) := by
    funext k; rw [logits_eq]; unfold Cert.ReferenceIdeal.RefLoss.logitsR; simp only [hfeat]
  have hF : (fun a => rd Cert.KernelIdeal.S65536x1024 (Cert.KernelIdeal.Gen.V1 m ρ c Cert.KernelIdeal.main_arg0) (ix2 (row j i y) a)) = fun a => x0 m c (ix2 (row j i y) a) := by
    rw [Cert.KernelIdeal.Host.V1_arg0]
  have hW : (fun a k => rd Cert.KernelIdeal.S1024x1000 (Cert.KernelIdeal.Gen.V1 m ρ c Cert.KernelIdeal.main_v5) (ix2 a k)) = fun a k => x2 m c (ix2 k a) := by
    funext a k; exact Cert.KernelIdeal.Host.V1_v5 m ρ c a k
  have hB : (fun k => rd Cert.KernelIdeal.S1x1000 (Cert.KernelIdeal.Gen.V1 m ρ c Cert.KernelIdeal.main_v3) (ix2 (0 : Fin 1) k)) = fun k => x3 m c (ix1 k) - x4 m c (ix1 k) := by
    funext k; exact Cert.KernelIdeal.Host.V1_v3 m ρ c k
  have hL : rdi Cert.KernelIdeal.S65536x1 (Cert.KernelIdeal.Gen.V1 m ρ c Cert.KernelIdeal.main_v1) (ix2 (row j i y) (0 : Fin 1)) = x8 m c (ix1 (row j i y)) :=
    Cert.KernelIdeal.Host.V1_v1 m ρ c _
  rw [hF, hW, hB, hL, Cert.Spec.selOH_eq _ _ (hl _)]
  unfold fR
  rw [hlog, hlbl]

/-- An augmented row's selected log-probability, as the second pass takes it, is the reference's. -/
theorem row_a (hx : ∀ i, x0 m c i ≠ ⊤ ∧ x0 m c i ≠ ⊥) (hl : ∀ n, (x8 m c n).toNat < 1000) (s : Fin 2) (y : Fin 1000) :
    Cert.Spec.selOH
        (Cert.Spec.logits (fun a => rd Cert.KernelIdeal.S2000x1024 (Cert.KernelIdeal.Gen.V7 m ρ c Cert.KernelIdeal.main_v61) (ix2 (arow s y) a))
          (fun a k => rd Cert.KernelIdeal.S1024x1000 (Cert.KernelIdeal.Gen.V7 m ρ c Cert.KernelIdeal.main_v5) (ix2 a k))
          (fun k => rd Cert.KernelIdeal.S1x1000 (Cert.KernelIdeal.Gen.V7 m ρ c Cert.KernelIdeal.main_v3) (ix2 (0 : Fin 1) k)))
        (rdi Cert.KernelIdeal.S2000x1 (Cert.KernelIdeal.Gen.V7 m ρ c Cert.KernelIdeal.main_v66) (ix2 (arow s y) (0 : Fin 1)))
      = fR m c hl ⟨65536 + s.val * 1000 + y.val, by omega⟩ := by
  have hn : ¬ (65536 + s.val * 1000 + y.val < 65536) := by omega
  have hfeat : ∀ a, Cert.ReferenceIdeal.RefLoss.featR (x0 m c) (augR m c) ⟨65536 + s.val * 1000 + y.val, by omega⟩ a
      = augR m c (ix2 (arow s y) a) := by
    intro a; unfold Cert.ReferenceIdeal.RefLoss.featR; rw [dif_neg hn]
    exact congrArg (fun r : Fin 2000 => augR m c (ix2 r a)) (Fin.ext (by show 65536 + s.val * 1000 + y.val - 65536 = s.val * 1000 + y.val; omega))
  have hy : (BitVec.ofNat 32 y.val).toNat < 1000 := by
    rw [BitVec.toNat_ofNat, Nat.mod_eq_of_lt (by omega)]; exact y.isLt
  have hlbl : Cert.ReferenceIdeal.RefLoss.lblR (x8 m c) hl ⟨65536 + s.val * 1000 + y.val, by omega⟩
      = ⟨(BitVec.ofNat 32 y.val).toNat, hy⟩ := by
    unfold Cert.ReferenceIdeal.RefLoss.lblR; rw [dif_neg hn]
    exact Fin.ext (by show (65536 + s.val * 1000 + y.val - 65536) % 1000 = (BitVec.ofNat 32 y.val).toNat
                      rw [BitVec.toNat_ofNat, Nat.mod_eq_of_lt (show y.val < 2 ^ 32 by omega)]; omega)
  have hlog : Cert.ReferenceIdeal.RefLoss.logitsR (x0 m c) (augR m c) (x2 m c) (x3 m c) (x4 m c) ⟨65536 + s.val * 1000 + y.val, by omega⟩
      = Cert.Spec.logits (fun a => augR m c (ix2 (arow s y) a)) (fun a k => x2 m c (ix2 k a)) (fun k => x3 m c (ix1 k) - x4 m c (ix1 k)) := by
    funext k; rw [logits_eq]; unfold Cert.ReferenceIdeal.RefLoss.logitsR; simp only [hfeat]
  have hF : (fun a => rd Cert.KernelIdeal.S2000x1024 (Cert.KernelIdeal.Gen.V7 m ρ c Cert.KernelIdeal.main_v61) (ix2 (arow s y) a)) = fun a => augR m c (ix2 (arow s y) a) := by
    rw [aug_eq m ρ c hx hl]
  have hW : (fun a k => rd Cert.KernelIdeal.S1024x1000 (Cert.KernelIdeal.Gen.V7 m ρ c Cert.KernelIdeal.main_v5) (ix2 a k)) = fun a k => x2 m c (ix2 k a) := by
    rw [Cert.KernelIdeal.Host.V7_v5]; funext a k; exact Cert.KernelIdeal.Host.V1_v5 m ρ c a k
  have hB : (fun k => rd Cert.KernelIdeal.S1x1000 (Cert.KernelIdeal.Gen.V7 m ρ c Cert.KernelIdeal.main_v3) (ix2 (0 : Fin 1) k)) = fun k => x3 m c (ix1 k) - x4 m c (ix1 k) := by
    rw [Cert.KernelIdeal.Host.V7_v3]; funext k; exact Cert.KernelIdeal.Host.V1_v3 m ρ c k
  have hL : rdi Cert.KernelIdeal.S2000x1 (Cert.KernelIdeal.Gen.V7 m ρ c Cert.KernelIdeal.main_v66) (ix2 (arow s y) (0 : Fin 1)) = BitVec.ofNat 32 y.val := by
    rw [Cert.KernelIdeal.Host.V7_v66]; exact augLabels_apply s y
  rw [hF, hW, hB, hL, Cert.Spec.selOH_eq _ _ hy]
  unfold fR
  rw [hlog, hlbl]

open Cert.KernelIdeal.Facts₀ Cert.KernelIdeal.Facts in
/-- The host's sum of a 2×1×1 array from zero: zero plus its two entries. -/
theorem reduce_S2x1x1 (X : FVec Ideal Cert.KernelIdeal.S2x1x1 .f32) :
    Host.reduceAdd (F := Ideal) X (constant Cert.KernelIdeal.S_ .f32 0x00000000#32) reducesTo_S2x1x1_S_d0_1_2 h_S_ ix0
      = 0 + ∑ j : Fin 2, X (ix3 j (0 : Fin 1) (0 : Fin 1)) := by
  simp only [Host.reduceAdd, Ideal.hostReduceAdd_def]
  rw [Ideal.hostReduceAdd_total reducesTo_S2x1x1_S_d0_1_2 (fun b => b.elim0) X _ ix0]
  congr 1
  · exact Ideal.ofBits_zero_f32
  · refine (Fintype.sum_bijective (fun j : Fin 2 => (ix3 j (0 : Fin 1) (0 : Fin 1) : Cert.KernelIdeal.S2x1x1.Idx)) ⟨?_, ?_⟩ _ _ (fun _ => rfl)).symm
    · intro a b h; exact Fin.ext (congrArg (fun i : Cert.KernelIdeal.S2x1x1.Idx => (i 0).val) h)
    · intro i; refine ⟨⟨(i 0).val, (i 0).isLt⟩, ?_⟩
      funext a; refine Fin.ext ?_
      have h1 : (i 1).val < 1 := (i 1).isLt
      have h2 : (i 2).val < 1 := (i 2).isLt
      match a with
      | ⟨0, _⟩ => rfl
      | ⟨1, _⟩ => exact (Nat.lt_one_iff.mp h1).symm
      | ⟨2, _⟩ => exact (Nat.lt_one_iff.mp h2).symm

/-- The kernel's result is the reference's last stage of the same arguments. -/
theorem result_eq (hx : ∀ i, x0 m c i ≠ ⊤ ∧ x0 m c i ≠ ⊥) (hl : ∀ n, (x8 m c n).toNat < 1000) :
    Cert.KernelIdeal.Gen.W9 m ρ c (Proc.devRef .tc Cert.KernelIdeal.main_v70)
      = Cert.ReferenceIdeal.ReadP.val_main_v85 (F := Ideal) (x0 m c) (x1 m c) (x2 m c) (x3 m c) (x4 m c) (x5 m c) (x6 m c) (x7 m c) (x8 m c) := by
  funext i
  obtain rfl : i = ix0 := eq_ix0 i
  rw [Cert.ReferenceIdeal.RefLoss.ref_result _ _ _ _ _ _ _ _ _ hl, Cert.KernelIdeal.Host.W9_v70]
  show Ideal.div (_ + _) (Ideal.ofBits .f32 0x4783E800#32) = _
  rw [reduce_S2x1x1, reduce_S2x1x1]
  have h0 := fun j => Cert.KernelIdeal.R0F.loss_out_apply (Cert.KernelIdeal.Gen.V1 m ρ) c j
  have h1 := fun s => Cert.KernelIdeal.R1F.aug_out_apply (Cert.KernelIdeal.Gen.V7 m ρ) c s
  unfold Cert.Spec.rd at h0 h1
  simp only [h0, h1, row_x m ρ c hl, row_a m ρ c hx hl]
  exact Cert.Spec.loss_assemble (fR m c hl) (fun r => Cert.Spec.logp_ne_top _ _)

end Cert.Bridge

end
-- ==== Proof.Pre.lean ====
/-
  What the precondition gives. The printed predicate is a conjunction of "every entry's absolute value is below +∞"
  over the eight float inputs and "0 ≤ label < 1000" over the labels; it holds when it evaluates to the bit 1. From it:
  every entry of x, of fc_b and of ba_coeffi is a real number, and every label, read as an unsigned word, is below 1000
  (a signed word that is ≥ 0 and < 1000 is that natural number).
-/
import proofs.«415097_j5265629905347_2_alg».proof.Pre_finite_inputs
import proofs.«415097_j5265629905347_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic

/-- The scalar shape has one index. -/
private theorem scalar_idx_subsingleton : Subsingleton S_.Idx := ⟨fun a b => funext fun d => d.elim0⟩

/-- The pattern the predicate compares against is +∞. -/
private theorem inf_bits : Ideal.ofBits .f32 0x7F800000#32 = (⊤ : EReal) := by
  simp [Ideal.ofBits, Ideal.ieee]

/-- An extended real whose absolute value `max x (-x)` is below +∞ is neither infinity: `x < ⊤` excludes `⊤`, and
    `-x < ⊤` excludes `⊥`, whose negative is `⊤`. -/
private theorem real_of_abs_lt {x : EReal}
    (h : Ideal.cmp .olt (max x (-x)) (Ideal.ofBits .f32 0x7F800000#32) = 1#1) : x ≠ ⊤ ∧ x ≠ ⊥ := by
  rw [inf_bits] at h
  have hlt : max x (-x) < ⊤ := by
    simpa [Ideal.cmp, StableHlo.Predicate.ofBool_eq_one_iff] using h
  obtain ⟨h1, h2⟩ := max_lt_iff.1 hlt
  refine ⟨h1.ne, ?_⟩
  rintro rfl
  exact absurd h2 (by simp)

/-- A 32-bit word that is ≥ 0 and < 1000 as a signed number is below 1000 as an unsigned one: a set sign bit would make
    it negative. -/
private theorem label_lt {w : BitVec 32} (h0 : IntOp.cmpi .sge w 0#32 = 1#1) (h1 : IntOp.cmpi .slt w 1000#32 = 1#1) :
    w.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split at h0 <;> omega

theorem of_pre (a0 : FVec Ideal S65536x1024 .f32) (a1 : FVec Ideal S2x1000x1024 .f32) (a2 : FVec Ideal S1000x1024 .f32)
    (a3 : FVec Ideal S1000 .f32) (a4 : FVec Ideal S1000 .f32) (a5 : FVec Ideal S1000x1024 .f32) (a6 : FVec Ideal S1000x1024 .f32)
    (a7 : FVec Ideal S1000 .f32) (a8 : IVec S65536 32)
    (h : Cert.Pre_finite_inputs.fn (F := Ideal) a0 a1 a2 a3 a4 a5 a6 a7 a8 = fun _ => 1#1) :
    (∀ i, (a0 i : EReal) ≠ ⊤ ∧ (a0 i : EReal) ≠ ⊥) ∧ (∀ i, (a3 i : EReal) ≠ ⊤ ∧ (a3 i : EReal) ≠ ⊥)
      ∧ (∀ i, (a4 i : EReal) ≠ ⊤ ∧ (a4 i : EReal) ≠ ⊥) ∧ (∀ i, (a8 i).toNat < 1000) := by
  haveI : Subsingleton S_.Idx := scalar_idx_subsingleton
  have h1 := congrFun h ValueIdx.ix0
  dsimp only [fn, fn_part1, fn_part2] at h1
  -- the predicate is a conjunction of nine tests, nested to the left
  obtain ⟨h38, h44⟩ := IntOp.andi_eq_one.1 h1
  obtain ⟨h33, -⟩ := IntOp.andi_eq_one.1 h38
  obtain ⟨h28, -⟩ := IntOp.andi_eq_one.1 h33
  obtain ⟨h23, -⟩ := IntOp.andi_eq_one.1 h28
  obtain ⟨h18, h22⟩ := IntOp.andi_eq_one.1 h23
  obtain ⟨h13, h17⟩ := IntOp.andi_eq_one.1 h18
  obtain ⟨h8, -⟩ := IntOp.andi_eq_one.1 h13
  obtain ⟨h3, -⟩ := IntOp.andi_eq_one.1 h8
  refine ⟨fun i => ?_, fun i => ?_, fun i => ?_, fun i => ?_⟩
  · exact real_of_abs_lt (Host.reduce_andi_all _ _ _ _ _ h3 i)
  · exact real_of_abs_lt (Host.reduce_andi_all _ _ _ _ _ h17 i)
  · exact real_of_abs_lt (Host.reduce_andi_all _ _ _ _ _ h22 i)
  · obtain ⟨hge, hlt⟩ := IntOp.andi_eq_one.1 (Host.reduce_andi_all _ _ _ _ _ h44 i)
    exact label_lt hge hlt

end Cert.PreFacts

end
-- ==== Proof.lean ====
/-
  A two-pass loss kernel against its jnp reference, over the extended reals.

  The kernel's program: a first pass over the 65536 data rows (2 halves × 128 blocks of 256 rows) accumulates, per
  half, the class sums and class sums of squares of the rows (a one-hot matrix times the block) and the negated sum of
  the rows' selected log-probabilities; the host adds the halves, forms the class statistics and the 2000 augmented rows;
  a second pass takes the negated sums of the augmented rows' selected log-probabilities; the host adds everything and
  divides by 67536. The reference: scatter-adds by label for the statistics, one matrix product over all 67536 rows,
  log_softmax, take_along_axis, mean, negate.

  The statement carries, beside finiteness of the float inputs, the labels' range 0 ≤ label < 1000: outside it the
  reference wraps or NaN-fills where the kernel's one-hot row is zero.

  The three frames: the two kernel programs' are the generated frame certificates; the reference's is its run with the
  result dropped. Nothing was rewritten by the ideal pass. The algebraic claim: the kernel's run with its result named
  (the generated launch, called with the result buffer in its post), the reference's run stage by stage, and the
  equality of the two results (the bridge), under the two facts the precondition gives: x is finite entrywise and
  every label is below 1000.
-/
import proofs.«415097_j5265629905347_2_alg».proof.Defs
import proofs.«415097_j5265629905347_2_alg».proof.Proof.Gen.Kernel.Frame
import proofs.«415097_j5265629905347_2_alg».proof.Proof.Gen.KernelIdeal.Frame
import proofs.«415097_j5265629905347_2_alg».proof.Proof.Gen.ReferenceIdeal
import proofs.«415097_j5265629905347_2_alg».proof.Proof.Gen.Pre_finite_inputs
import proofs.«415097_j5265629905347_2_alg».proof.Proof.KernelRun
import proofs.«415097_j5265629905347_2_alg».proof.Proof.RefStages
import proofs.«415097_j5265629905347_2_alg».proof.Proof.Bridge
import proofs.«415097_j5265629905347_2_alg».proof.Proof.Pre

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Stages.run m ρ)

/-- Both programs end with the same number: the kernel's result buffer at what its last host stretch leaves, which is
    the reference's last stage of the same arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v70), Cert.KernelIdeal.Run.run m ρ, ?_⟩
  refine (θ_run Cert.ReferenceIdeal.defs _ _).mono (fun _ h c => ⟨(h c).1.trans ?_, (h c).2⟩)
    (Cert.ReferenceIdeal.Stages.run m' ρ')
  obtain ⟨h0, h1, h2, h3, h4, h5, h6, h7, h8⟩ := hagree c
  rw [h0, h1, h2, h3, h4, h5, h6, h7, h8]
  obtain ⟨hx, _, _, hl⟩ := Cert.PreFacts.of_pre _ _ _ _ _ _ _ _ _ (hpre c)
  exact (Cert.Bridge.result_eq m ρ c hx hl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
